-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x16 : Shape := ⟨3, ![16, 512, 16]⟩
abbrev S16x512 : Shape := ⟨2, ![16, 512]⟩
abbrev S_ : Shape := ⟨0, ![]⟩

class Facts : Prop where
  bcast_S_S16x512x16 : S_.BroadcastsInDim S16x512x16 (![] : Fin 0 → Fin S16x512x16.rank)
  reducesTo_S16x512x16_S_d0_1_2 : S16x512x16.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x512x16 .f32) (main_arg1 : IVec S16x512 32) : IVec S_ 1 :=
  let main_v0 : FVec F S16x512x16 .f32 := Host.absf main_arg0
  let main_cst : FVec F S_ .f32 := constant S_ .f32 0x7F800000#32
  let main_v1 : FVec F S16x512x16 .f32 := broadcastInDim S16x512x16 ![] bcast_S_S16x512x16 main_cst
  let main_v2 : IVec S16x512x16 1 := cmpf .olt main_v0 main_v1
  let main_c : IVec S_ 1 := constantI S_ 1 1#1
  let main_v3 : IVec S_ 1 := (fun x v => Host.reduce IntOp.andi x v reducesTo_S16x512x16_S_d0_1_2 h_S_) main_v2 main_c
  let main_c_0 : IVec S_ 32 := constantI S_ 32 0#32
  let main_v4 : IVec S16x512 32 := broadcastInDim S16x512 ![] bcast_S_S16x512 main_c_0
  let main_v5 : IVec S16x512 1 := cmpi .sge main_arg1 main_v4
  let main_c_1 : IVec S_ 32 := constantI S_ 32 64#32
  let main_v6 : IVec S16x512 32 := broadcastInDim S16x512 ![] bcast_S_S16x512 main_c_1
  let main_v7 : IVec S16x512 1 := cmpi .slt main_arg1 main_v6
  let main_v8 : IVec S16x512 1 := andi main_v5 main_v7
  let main_c_2 : IVec S_ 1 := constantI S_ 1 1#1
  let main_v9 : IVec S_ 1 := (fun x v => Host.reduce IntOp.andi x v reducesTo_S16x512_S_d0_1 h_S_) main_v8 main_c_2
  let main_v10 : IVec S_ 1 := andi main_v3 main_v9
  main_v10
-- ==== Kernel.lean ====
abbrev S16x512x16 : Shape := ⟨3, ![16, 512, 16]⟩
abbrev S16x512 : Shape := ⟨2, ![16, 512]⟩
abbrev S64x64 : Shape := ⟨2, ![64, 64]⟩
abbrev S8192x16 : Shape := ⟨2, ![8192, 16]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S1x8192 : Shape := ⟨2, ![1, 8192]⟩
abbrev S2048x128 : Shape := ⟨2, ![2048, 128]⟩
abbrev S8x1x1 : Shape := ⟨3, ![8, 1, 1]⟩
abbrev S1024x16 : Shape := ⟨2, ![1024, 16]⟩
abbrev S2048x16 : Shape := ⟨2, ![2048, 16]⟩
abbrev S1024x1 : Shape := ⟨2, ![1024, 1]⟩
abbrev S1x2048 : Shape := ⟨2, ![1, 2048]⟩
abbrev S1024x64 : Shape := ⟨2, ![1024, 64]⟩
abbrev S2048x64 : Shape := ⟨2, ![2048, 64]⟩
abbrev S1x1x1 : Shape := ⟨3, ![1, 1, 1]⟩
abbrev S1x1 : Shape := ⟨2, ![1, 1]⟩
abbrev S1024x2048 : Shape := ⟨2, ![1024, 2048]⟩
abbrev S1024x128 : Shape := ⟨2, ![1024, 128]⟩
abbrev S1024 : Shape := ⟨1, ![1024]⟩
abbrev S1 : Shape := ⟨1, ![1]⟩
abbrev S64 : Shape := ⟨1, ![64]⟩
abbrev S64x1 : Shape := ⟨2, ![64, 1]⟩

abbrev nBuf : Space → Nat
  | .hbm => 51
  | .vmem => 19
  | .smem => 0
  | _ => 0

abbrev bufTy : (tb : Table) → Fin (tcTables nBuf tb) → BufTy
  | .hbm, ⟨0, _⟩ => ⟨S16x512x16, .f32⟩
  | .hbm, ⟨1, _⟩ => ⟨S16x512, .i32⟩
  | .hbm, ⟨2, _⟩ => ⟨S64x64, .f32⟩
  | .hbm, ⟨3, _⟩ => ⟨S8192x16, .f32⟩
  | .hbm, ⟨4, _⟩ => ⟨S8192, .i32⟩
  | .hbm, ⟨5, _⟩ => ⟨S8192x1, .i32⟩
  | .hbm, ⟨6, _⟩ => ⟨S1x64, .i32⟩
  | .hbm, ⟨7, _⟩ => ⟨S8192x64, .i32⟩
  | .hbm, ⟨8, _⟩ => ⟨S8192x64, .i32⟩
  | .hbm, ⟨9, _⟩ => ⟨S8192x64, .i1⟩
  | .hbm, ⟨10, _⟩ => ⟨S8192x64, .f32⟩
  | .hbm, ⟨11, _⟩ => ⟨S8192x64, .f32⟩
  | .hbm, ⟨12, _⟩ => ⟨S8192x16, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S_, .f32⟩
  | .hbm, ⟨18, _⟩ => ⟨S2048x128, .f32⟩
  | .hbm, ⟨19, _⟩ => ⟨S8x1x1, .f32⟩
  | .hbm, ⟨20, _⟩ => ⟨S8x1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S1024x16, .f32⟩
  | .local _ .vmem, ⟨1, _⟩ => ⟨S1024x16, .f32⟩
  | .local _ .vmem, ⟨2, _⟩ => ⟨S2048x16, .f32⟩
  | .local _ .vmem, ⟨3, _⟩ => ⟨S2048x16, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x64, .f32⟩
  | .local _ .vmem, ⟨9, _⟩ => ⟨S1024x64, .f32⟩
  | .local _ .vmem, ⟨10, _⟩ => ⟨S2048x64, .f32⟩
  | .local _ .vmem, ⟨11, _⟩ => ⟨S2048x64, .f32⟩
  | .local _ .vmem, ⟨12, _⟩ => ⟨S2048x128, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1, .f32⟩
  | .local _ .vmem, ⟨18, _⟩ => ⟨S1x1, .f32⟩
  | _, _ => ⟨S16x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_cst_2 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_cst_10 : Ref sig .tc := ⟨.hbm, 47, rfl⟩
abbrev main_v28 : Ref sig .tc := ⟨.hbm, 48, rfl⟩
abbrev main_call1_cst : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_33 : BitVec 32 := 0#32
  let v57 : BitVec 1 := Scalar.cmpi .ne v56 c0_i32_33
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S16x512x16_S8192x16 : S16x512x16.ShapeCasts S8192x16
  shapeCasts_S16x512_S8192 : S16x512.ShapeCasts S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  reducesTo_S8192x16_S8192_d1 : S8192x16.ReducesTo [1] S8192
  h_S_ : 0 < S_.numel
  shapeCasts_S8192_S8192x1 : S8192.ShapeCasts S8192x1
  shapeCasts_S8192_S1x8192 : S8192.ShapeCasts S1x8192
  bcast_S_S2048x128 : S_.BroadcastsInDim S2048x128 (![] : Fin 0 → Fin S2048x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  reducesTo_S8192x64_S64_d0 : S8192x64.ReducesTo [0] S64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  dot_S8192x64_S64x64_S8192x64_1_0_0_1_n_n_wf : DotDims.WF S8192x64 S64x64 S8192x64 [1] [0] [0] [1] [] []
  dot_S1024x16_S2048x16_S1024x2048_1_1_0_0_n_n_wf : DotDims.WF S1024x16 S2048x16 S1024x2048 [1] [1] [0] [0] [] []
  dot_S1024x64_S2048x64_S1024x2048_1_1_0_0_n_n_wf : DotDims.WF S1024x64 S2048x64 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x128.size a
  hwx0_6 : ∀ i : grid0.Coords, EltTy.bits .f32 = 32 ∨ (Rect.block (s := S2048x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S8x1x1.size a
  hwx0_7 : ∀ i : grid0.Coords, EltTy.bits .f32 = 32 ∨ (Rect.block (s := S8x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S8x1x1.size a
  hwx0_8 : ∀ i : grid0.Coords, EltTy.bits .f32 = 32 ∨ (Rect.block (s := S8x1x1) S1x1x1.size (cc0_transform_8 i) (hinb0_8 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x512x16 : Shape := ⟨3, ![16, 512, 16]⟩
abbrev S16x512 : Shape := ⟨2, ![16, 512]⟩
abbrev S64x64 : Shape := ⟨2, ![64, 64]⟩
abbrev S8192x16 : Shape := ⟨2, ![8192, 16]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S8192x8192x1 : Shape := ⟨3, ![8192, 8192, 1]⟩
abbrev S8192x8192x2 : Shape := ⟨3, ![8192, 8192, 2]⟩

abbrev nBuf : Space → Nat
  | .hbm => 82
  | .vmem => 0
  | .smem => 0
  | _ => 0

abbrev bufTy : (tb : Table) → Fin (tcTables nBuf tb) → BufTy
  | .hbm, ⟨0, _⟩ => ⟨S16x512x16, .f32⟩
  | .hbm, ⟨1, _⟩ => ⟨S16x512, .i32⟩
  | .hbm, ⟨2, _⟩ => ⟨S64x64, .f32⟩
  | .hbm, ⟨3, _⟩ => ⟨S8192x16, .f32⟩
  | .hbm, ⟨4, _⟩ => ⟨S8192, .i32⟩
  | .hbm, ⟨5, _⟩ => ⟨S8192x16, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S16x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S_, .i32⟩
  | .hbm, ⟨44, _⟩ => ⟨S1x8192, .i32⟩
  | .hbm, ⟨45, _⟩ => ⟨S1x8192, .i1⟩
  | .hbm, ⟨46, _⟩ => ⟨S_, .i32⟩
  | .hbm, ⟨47, _⟩ => ⟨S1x8192, .i32⟩
  | .hbm, ⟨48, _⟩ => ⟨S1x8192, .i32⟩
  | .hbm, ⟨49, _⟩ => ⟨S1x8192, .i32⟩
  | .hbm, ⟨50, _⟩ => ⟨S8192x8192, .i32⟩
  | .hbm, ⟨51, _⟩ => ⟨S8192x8192, .i32⟩
  | .hbm, ⟨52, _⟩ => ⟨S8192x8192x1, .i32⟩
  | .hbm, ⟨53, _⟩ => ⟨S8192x8192x1, .i32⟩
  | .hbm, ⟨54, _⟩ => ⟨S8192x8192x2, .i32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S16x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_cst_15 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_call2_cst : Ref sig .tc := ⟨.hbm, 80, rfl⟩
abbrev main_v54 : Ref sig .tc := ⟨.hbm, 81, rfl⟩

abbrev nD : Nat := 1
abbrev τ : Topo := Topo.v7x

variable {F : FTy → Type} [FloatOps F]

class Facts₀ : Prop where
  shapeCasts_S16x512x16_S8192x16 : S16x512x16.ShapeCasts S8192x16
  shapeCasts_S16x512_S8192 : S16x512.ShapeCasts S8192
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x16_S16x8192_1_0 : S8192x16.Transposes [1, 0] S16x8192
  bcast_S_S8192x8192 : S_.BroadcastsInDim S8192x8192 (![] : Fin 0 → Fin S8192x8192.rank)
  bcast_S_S8192x1 : S_.BroadcastsInDim S8192x1 (![] : Fin 0 → Fin S8192x1.rank)
  bcast_S_S1x8192 : S_.BroadcastsInDim S1x8192 (![] : Fin 0 → Fin S1x8192.rank)
  bcast_S8192x8192_S8192x8192x1_0_1 : S8192x8192.BroadcastsInDim S8192x8192x1 (![0, 1] : Fin 2 → Fin S8192x8192x1.rank)
  concatenates_S8192x8192x1_S8192x8192x1_S8192x8192x2_d2 : Shape.Concatenates [S8192x8192x1, S8192x8192x1] S8192x8192x2 2
  reducesTo_S8192x8192_S_d0_1 : S8192x8192.ReducesTo [0, 1] S_
  dot_S8192x16_S16x8192_S8192x8192_1_0_0_1_n_n_wf : DotDims.WF S8192x16 S16x8192 S8192x8192 [1] [0] [0] [1] [] []
  gather_S64x64_S8192x8192x2_S8192x8192_n_01_n_n_01_2_11_wf : GatherDims.WF S64x64 S8192x8192x2 S8192x8192 [] [0, 1] [] [0, 1] [] 2 ![1, 1]

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def gather_S64x64_S8192x8192x2_S8192x8192_n_01_n_n_01_2_11 : GatherDims S64x64 S8192x8192x2 S8192x8192 where
  offsetDims := []
  collapsedSliceDims := [0, 1]
  operandBatchingDims := []
  startIndicesBatchingDims := []
  startIndexMap := [0, 1]
  indexVectorDim := 2
  sliceSizes := ![1, 1]
  wf := gather_S64x64_S8192x8192x2_S8192x8192_n_01_n_n_01_2_11_wf

class Facts : Prop extends Facts₀ where

variable [Facts]
-- ==== Proof.WData.lean ====
/-
  The distance kernel's launch, read once for both of its readings (the word-level one and the one over the
  extended reals): what the region finds in the arrays it is handed, the blocks of those arrays that each grid
  point sees, and what the two one-word accumulators hold after each point.

  The grid is 8 row blocks by 4 column blocks, walked row block by row block. A point (i, j) sees rows
  1024 i … 1024 i + 1023 of the embeddings, of the squared norms (as a column) and of the family rows, columns
  2048 j … 2048 j + 2047 of the embeddings, of the squared norms (as a row) and of the one-hot rows, and the
  constant matrix of ones. At j = 0 both accumulators are reset to zero; every point then adds its tile's sum of
  distances to the first and its tile's sum of distance times same-family indicator to the second; at j = 3 the two
  words are stored into the row block's entry of the two results. So after point n the accumulators hold
  the fold, from the last reset, of the points' contributions (`scr`), and the results' staging words hold
  the accumulators re-laid as 1×1×1.
-/
import proofs.«429911_j70497593196919_3_alg».proof.Proof.Gen.Kernel.Launch
import proofs.«429911_j70497593196919_3_alg».proof.Proof.Gen.Kernel.Skeleton
import proofs.«429911_j70497593196919_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The host operations before the region, in order: the table and the two reshapes, the one-hot rows, then the
    family rows, the squared norms in both layouts and the matrix of ones. -/
abbrev preOps : List (HloOp τ sig (Elt F)) := List.flatten [hostOps0, hostOps0_1, hostOps0_2]

/-- Core `c`'s buffers when the region is entered: the launch memory after those operations. -/
abbrev V0 (c : Dev nD) : Valuation τ sig (Elt F) := StableHlo.after preOps (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions over the grid -/

/-- "This is the row block's first column block": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the row block's last column block": the accumulators are stored into the results. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a row block's last column block the two results' windows are idle and not written back. -/
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
/-- At a row block's last column block they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The staging and scratch memrefs the body is called with -/

abbrev ms0_0 (t : Fin cfg0.N) : Memref sig .tc .vmem S1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
/-- The two one-word accumulators: whole scoped buffers of the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of each result window, through which its contents are stated. -/
abbrev VO0_7 : View sig .tc .vmem S1x1x1 .f32 := (Memref.whole cc0_stg7_0 : Memref sig .tc .vmem S1x1x1 .f32).view
abbrev VO0_8 : View sig .tc .vmem S1x1x1 .f32 := (Memref.whole cc0_stg8_0 : Memref sig .tc .vmem S1x1x1 .f32).view

/-- What the launch hands the region besides the windows: the two accumulators at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## One point's contribution, and the accumulators point by point -/

/-- The first accumulator after a point, from what it held before and the point's blocks (row embeddings, column
    embeddings, row norms, column norms, ones): the tile's distances summed through the product with the matrix of
    ones, the 128 equal lanes summed and scaled back by 1/128, added on. -/
def acc0v (x0 : Vec F S1024x16 .f32) (x1 : Vec F S2048x16 .f32) (x2 : Vec F S1024x1 .f32) (x3 : Vec F S1x2048 .f32)
    (x6 : Vec F S2048x128 .f32) (s : Vec F S1x1 .f32) : Vec F S1x1 .f32 :=
  k0_pay1 s (k0_pay10 x0 x1 x2 x3 x6)

/-- The second accumulator after a point: the same with each distance first multiplied by the same-family indicator
    (family rows against one-hot rows). -/
def acc1v (x0 : Vec F S1024x16 .f32) (x1 : Vec F S2048x16 .f32) (x2 : Vec F S1024x1 .f32) (x3 : Vec F S1x2048 .f32)
    (x4 : Vec F S1024x64 .f32) (x5 : Vec F S2048x64 .f32) (x6 : Vec F S2048x128 .f32) (s : Vec F S1x1 .f32) : Vec F S1x1 .f32 :=
  k0_pay2 (k0_pay8 x0 x1 x2 x3 x4 x5) (k0_pay9 x6) s

/-- The same at grid point `t`, over the blocks the region's arrays have there. -/
def acc0 (c : Dev nD) (t : Fin cfg0.N) (s : Vec F S1x1 .f32) : Vec F S1x1 .f32 :=
  acc0v (iblk m c 0 t) (iblk m c 1 t) (iblk m c 2 t) (iblk m c 3 t) (iblk m c 6 t) s

def acc1 (c : Dev nD) (t : Fin cfg0.N) (s : Vec F S1x1 .f32) : Vec F S1x1 .f32 :=
  acc1v (iblk m c 0 t) (iblk m c 1 t) (iblk m c 2 t) (iblk m c 3 t) (iblk m c 4 t) (iblk m c 5 t) (iblk m c 6 t) s

/-- The seven input windows' staging memrefs, each whole at given contents. -/
abbrev inOwns (c : Dev nD) (arg2 : Memref sig .tc .vmem S1024x16 .f32) (arg3 : Memref sig .tc .vmem S2048x16 .f32)
    (arg4 : Memref sig .tc .vmem S1024x1 .f32) (arg5 : Memref sig .tc .vmem S1x2048 .f32) (arg6 : Memref sig .tc .vmem S1024x64 .f32)
    (arg7 : Memref sig .tc .vmem S2048x64 .f32) (arg8 : Memref sig .tc .vmem S2048x128 .f32)
    (x0 : Vec F S1024x16 .f32) (x1 : Vec F S2048x16 .f32) (x2 : Vec F S1024x1 .f32) (x3 : Vec F S1x2048 .f32)
    (x4 : Vec F S1024x64 .f32) (x5 : Vec F S2048x64 .f32) (x6 : Vec F S2048x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6)

/-- The two accumulators after the body at position `n`: reset (to the zero words) at the first column block of a
    row block, carried otherwise. -/
def scr (c : Dev nD) : (n : ℕ) → n < cfg0.N → Vec F S1x1 .f32 × Vec F S1x1 .f32
  | 0, hn => (acc0 m c ⟨0, hn⟩ (k0_pay5 (F := F)), acc1 m c ⟨0, hn⟩ (k0_pay6 (F := F)))
  | n + 1, hn =>
    if (n + 1) % 4 = 0 then (acc0 m c ⟨n + 1, hn⟩ (k0_pay5 (F := F)), acc1 m c ⟨n + 1, hn⟩ (k0_pay6 (F := F)))
    else (acc0 m c ⟨n + 1, hn⟩ (scr c n (Nat.lt_of_succ_lt hn)).1, acc1 m c ⟨n + 1, hn⟩ (scr c n (Nat.lt_of_succ_lt hn)).2)

theorem scr_reset (c : Dev nD) (t : Fin cfg0.N) (h0 : t.val % 4 = 0) :
    scr m c t.val t.isLt = (acc0 m c t (k0_pay5 (F := F)), acc1 m c t (k0_pay6 (F := F))) := by
  obtain ⟨n, hn⟩ := t
  cases n with
  | zero => rfl
  | succ n => exact (if_pos h0)

theorem scr_carry (c : Dev nD) (t : Fin cfg0.N) (h0 : ¬t.val % 4 = 0) :
    scr m c t.val t.isLt = (acc0 m c t (scr m c (t.val - 1) (Nat.lt_of_le_of_lt (Nat.sub_le _ _) t.isLt)).1,
      acc1 m c t (scr m c (t.val - 1) (Nat.lt_of_le_of_lt (Nat.sub_le _ _) t.isLt)).2) := by
  obtain ⟨n, hn⟩ := t
  cases n with
  | zero => exact absurd (Nat.zero_mod _) h0
  | succ n => exact (if_neg h0)

/-! ## The region's invariant and the proof data -/

/-- Before the first point the two accumulators hold anything; before any later point they hold what the point before
    left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((scr m c n hn).1) ∗ owns (c : Thread nD τ) scM0_1 fullShare ((scr m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scr m c n hn).1) ∗ owns (c : Thread nD τ) scM0_1 fullShare ((scr m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scr m c (n - 1) (by omega)).1) ∗ owns (c : Thread nD τ) scM0_1 fullShare ((scr m c (n - 1) (by omega)).2)) ∗ (∃ r, prngReg c r)) := by
  cases n with
  | zero => exact absurd rfl hz
  | succ n => rfl

/-- The proof data of the one pipeline on core `c`. The embeddings are handed to the region twice (as row blocks and as
    column blocks): the two windows hold one half of that array each. After the body every input's buffer holds its
    block; the two results' buffers hold the accumulators re-laid (consulted only where they are stored). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (scr m c t.val t.isLt).1
    | ⟨8, _⟩ => k0_pay4 (scr m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay3 (scr m c t.val t.isLt).1 := by dsimp only [dats]
theorem after0_8 (c : Dev nD) (t : Fin cfg0.N) : (dats m 0 c).after 8 t = k0_pay4 (scr m c t.val t.isLt).2 := by dsimp only [dats]

end Cert.Kernel.Hand

end
-- ==== Proof.WRun.lean ====
/-
  The kernel body run once at a grid point, in each of the three situations the grid meets, on any whole staging
  memrefs: which stores happen, and what the two accumulators and the two result words hold afterwards as
  functions of the seven input blocks and of what the accumulators held before.
-/
import proofs.«429911_j70497593196919_3_alg».proof.Proof.WData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the body's loads and stores of the two-axis memrefs: zero along each axis. -/
private theorem hz2 : (![0, 0] : Fin 2 → Nat) = fun _ => 0 := funext fun a => by fin_cases a <;> rfl
/-- The same for the three-axis result words. -/
private theorem hz3 : (![0, 0, 0] : Fin 3 → Nat) = fun _ => 0 := funext fun a => by fin_cases a <;> rfl

/-- A store through the whole-shape rectangle at offset zero, made last, leaves its payload: whatever was there and
    whatever the earlier stores wrote. -/
private theorem read_store_unit {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 1000000 in
/-- First column block of a row block: both accumulators are reset to zero and then take this tile's contribution;
    the results' staging words are not touched. -/
theorem kernelRun_A (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xi7 xi8 : Vec F S1x1x1 .f32) (E : Set ℕ) (K : PUnit → sProp 𝕄) :
    iprop(inOwns c arg2 arg3 arg4 arg5 arg6 arg7 arg8 x0 x1 x2 x3 x4 x5 x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
        ∗ (iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare (acc0v x0 x1 x2 x3 x6 (k0_pay5 (F := F))) ∗ owns (c : Thread nD τ) arg12 fullShare (acc1v x0 x1 x2 x3 x4 x5 x6 (k0_pay6 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; rotate_left
    · iexact HS0
    ipureintro
    sl_unfold_words
    rw [read_store_unit (S := S1x1) _ _ hz2]
    dsimp only
    rw [View.readCov_unit_zero (S := S1x1) _ hz2]
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  sl_unfold_words
  rw [read_store_unit (S := S1x1) _ _ hz2]
  dsimp only
  rw [View.readCov_unit_zero (S := S1x1) _ hz2]
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

set_option maxHeartbeats 1000000 in
/-- A middle column block: the accumulators take this tile's contribution on top of what they held; the results'
    staging words are not touched. -/
theorem kernelRun_B (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xs0 xs1 : Vec F S1x1 .f32) (xi7 xi8 : Vec F S1x1x1 .f32) (E : Set ℕ) (K : PUnit → sProp 𝕄) :
    iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare (acc0v x0 x1 x2 x3 x6 xs0) ∗ owns (c : Thread nD τ) arg12 fullShare (acc1v x0 x1 x2 x3 x4 x5 x6 xs1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hfs0; obtain rfl := harg12.eq_unread hfs1
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; rotate_left
    · iexact HS0
    ipureintro
    rw [read_store_unit (S := S1x1) _ _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  rw [read_store_unit (S := S1x1) _ _ hz2]
  dsimp only
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

set_option maxHeartbeats 1000000 in
/-- Last column block of a row block: the accumulators take this tile's contribution and are then stored, re-laid
    as 1×1×1, into the two results' staging words. -/
theorem kernelRun_C (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xs0 xs1 : Vec F S1x1 .f32) (E : Set ℕ) (K : PUnit → sProp 𝕄) :
    iprop(inOwns c arg2 arg3 arg4 arg5 arg6 arg7 arg8 x0 x1 x2 x3 x4 x5 x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
        ∗ (iprop(inOwns c arg2 arg3 arg4 arg5 arg6 arg7 arg8 x0 x1 x2 x3 x4 x5 x6 ∗ owns (c : Thread nD τ) arg9 fullShare (k0_pay3 (acc0v x0 x1 x2 x3 x6 xs0)) ∗ owns (c : Thread nD τ) arg10 fullShare (k0_pay4 (acc1v x0 x1 x2 x3 x4 x5 x6 xs1)) ∗ owns (c : Thread nD τ) arg11 fullShare (acc0v x0 x1 x2 x3 x6 xs0) ∗ owns (c : Thread nD τ) arg12 fullShare (acc1v x0 x1 x2 x3 x4 x5 x6 xs1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, %hf7, H7⟩, ⟨%d8, %f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg11.eq_unread hfs0; obtain rfl := harg12.eq_unread hfs1
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; rotate_left
    · iexact H7
    ipureintro
    sl_unfold_words
    rw [read_store_unit (S := S1x1x1) _ _ hz3, View.readCov_unit_zero (S := S1x1) _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  isplitl [H8]
  · iexists _; isplitr; rotate_left
    · iexact H8
    ipureintro
    sl_unfold_words
    rw [read_store_unit (S := S1x1x1) _ _ hz3, View.readCov_unit_zero (S := S1x1) _ hz2]
    dsimp only
    unfold acc1v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  isplitl [HS0]
  · iexists _; isplitr; rotate_left
    · iexact HS0
    ipureintro
    sl_unfold_words
    rw [read_store_unit (S := S1x1) _ _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  sl_unfold_words
  rw [read_store_unit (S := S1x1) _ _ hz2]
  dsimp only
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

end Cert.Kernel.Hand

end
-- ==== Proof.WObl.lean ====
/-
  The body obligation of the launch rule for the distance kernel: at every grid point, from the region's invariant
  (the two accumulators at what the point before left) and the windows' staging buffers at what the pipeline hands
  over (each input at its block; the two results' words at whatever they held), the body runs to the invariant of the
  next point and the buffers at what the proof data says. By cases on where the point stands in its row block
  (first column block / a middle one / the last), each case the corresponding run of the body.
-/
import proofs.«429911_j70497593196919_3_alg».proof.Proof.WRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not: a window whose index
    did not move since its last fetch still holds that block, the body only reading it. -/
theorem before0_0 (c : Dev nD) (t : Fin cfg0.N) (d) : (dats m 0 c).before 0 t d = iblk m c 0 t := by
  have hkeep : ∀ s, (cfg0.win 0).cut (cfg0.grid.coords s) ((dats m 0 c).after 0 s) = (dats m 0 c).blockOf 0 s := by
    intro s; rw [after0_0]; unfold Dat.blockOf iblk; rw [A_eq]
  rw [(dats m 0 c).before_in_eq_fetched 0 rfl (fun _ => rfl) (fun _ _ _ => rfl) hkeep t d]
  unfold Dat.fetched Dat.blockOf iblk; rw [A_eq]; rfl
theorem before0_1 (c : Dev nD) (t : Fin cfg0.N) (d) : (dats m 0 c).before 1 t d = iblk m c 1 t := by
  have hkeep : ∀ s, (cfg0.win 1).cut (cfg0.grid.coords s) ((dats m 0 c).after 1 s) = (dats m 0 c).blockOf 1 s := by
    intro s; rw [after0_1]; unfold Dat.blockOf iblk; rw [A_eq]
  rw [(dats m 0 c).before_in_eq_fetched 1 rfl (fun _ => rfl) (fun _ _ _ => rfl) hkeep t d]
  unfold Dat.fetched Dat.blockOf iblk; rw [A_eq]; rfl
theorem before0_2 (c : Dev nD) (t : Fin cfg0.N) (d) : (dats m 0 c).before 2 t d = iblk m c 2 t := by
  have hkeep : ∀ s, (cfg0.win 2).cut (cfg0.grid.coords s) ((dats m 0 c).after 2 s) = (dats m 0 c).blockOf 2 s := by
    intro s; rw [after0_2]; unfold Dat.blockOf iblk; rw [A_eq]
  rw [(dats m 0 c).before_in_eq_fetched 2 rfl (fun _ => rfl) (fun _ _ _ => rfl) hkeep t d]
  unfold Dat.fetched Dat.blockOf iblk; rw [A_eq]; rfl
theorem before0_3 (c : Dev nD) (t : Fin cfg0.N) (d) : (dats m 0 c).before 3 t d = iblk m c 3 t := by
  have hkeep : ∀ s, (cfg0.win 3).cut (cfg0.grid.coords s) ((dats m 0 c).after 3 s) = (dats m 0 c).blockOf 3 s := by
    intro s; rw [after0_3]; unfold Dat.blockOf iblk; rw [A_eq]
  rw [(dats m 0 c).before_in_eq_fetched 3 rfl (fun _ => rfl) (fun _ _ _ => rfl) hkeep t d]
  unfold Dat.fetched Dat.blockOf iblk; rw [A_eq]; rfl
theorem before0_4 (c : Dev nD) (t : Fin cfg0.N) (d) : (dats m 0 c).before 4 t d = iblk m c 4 t := by
  have hkeep : ∀ s, (cfg0.win 4).cut (cfg0.grid.coords s) ((dats m 0 c).after 4 s) = (dats m 0 c).blockOf 4 s := by
    intro s; rw [after0_4]; unfold Dat.blockOf iblk; rw [A_eq]
  rw [(dats m 0 c).before_in_eq_fetched 4 rfl (fun _ => rfl) (fun _ _ _ => rfl) hkeep t d]
  unfold Dat.fetched Dat.blockOf iblk; rw [A_eq]; rfl
theorem before0_5 (c : Dev nD) (t : Fin cfg0.N) (d) : (dats m 0 c).before 5 t d = iblk m c 5 t := by
  have hkeep : ∀ s, (cfg0.win 5).cut (cfg0.grid.coords s) ((dats m 0 c).after 5 s) = (dats m 0 c).blockOf 5 s := by
    intro s; rw [after0_5]; unfold Dat.blockOf iblk; rw [A_eq]
  rw [(dats m 0 c).before_in_eq_fetched 5 rfl (fun _ => rfl) (fun _ _ _ => rfl) hkeep t d]
  unfold Dat.fetched Dat.blockOf iblk; rw [A_eq]; rfl
theorem before0_6 (c : Dev nD) (t : Fin cfg0.N) (d) : (dats m 0 c).before 6 t d = iblk m c 6 t := by
  have hkeep : ∀ s, (cfg0.win 6).cut (cfg0.grid.coords s) ((dats m 0 c).after 6 s) = (dats m 0 c).blockOf 6 s := by
    intro s; rw [after0_6]; unfold Dat.blockOf iblk; rw [A_eq]
  rw [(dats m 0 c).before_in_eq_fetched 6 rfl (fun _ => rfl) (fun _ _ _ => rfl) hkeep t d]
  unfold Dat.fetched Dat.blockOf iblk; rw [A_eq]; rfl

/-! ## The body at a point -/

/-- What the pipeline hands the body at point `t`: the invariant, what the core owes, and each of the nine
    windows' current staging buffers at what it then holds. -/
private def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it takes back: the invariant of the next point, the same debt, and each buffer at what the body leaves. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An input window is live at every point: the body hands its buffer back at the block it read. -/
private theorem leaves_in0 (c : Dev nD) (t : Fin cfg0.N) :
    (dats m 0 c).leavesExact 0 t = owns (c : Thread nD τ) (ms0_0 t) fullShare (iblk m c 0 t) := by
  rw [← after0_0 m c t]
private theorem leaves_in1 (c : Dev nD) (t : Fin cfg0.N) :
    (dats m 0 c).leavesExact 1 t = owns (c : Thread nD τ) (ms0_1 t) fullShare (iblk m c 1 t) := by
  rw [← after0_1 m c t]
private theorem leaves_in2 (c : Dev nD) (t : Fin cfg0.N) :
    (dats m 0 c).leavesExact 2 t = owns (c : Thread nD τ) (ms0_2 t) fullShare (iblk m c 2 t) := by
  rw [← after0_2 m c t]
private theorem leaves_in3 (c : Dev nD) (t : Fin cfg0.N) :
    (dats m 0 c).leavesExact 3 t = owns (c : Thread nD τ) (ms0_3 t) fullShare (iblk m c 3 t) := by
  rw [← after0_3 m c t]
private theorem leaves_in4 (c : Dev nD) (t : Fin cfg0.N) :
    (dats m 0 c).leavesExact 4 t = owns (c : Thread nD τ) (ms0_4 t) fullShare (iblk m c 4 t) := by
  rw [← after0_4 m c t]
private theorem leaves_in5 (c : Dev nD) (t : Fin cfg0.N) :
    (dats m 0 c).leavesExact 5 t = owns (c : Thread nD τ) (ms0_5 t) fullShare (iblk m c 5 t) := by
  rw [← after0_5 m c t]
private theorem leaves_in6 (c : Dev nD) (t : Fin cfg0.N) :
    (dats m 0 c).leavesExact 6 t = owns (c : Thread nD τ) (ms0_6 t) fullShare (iblk m c 6 t) := by
  rw [← after0_6 m c t]

/-- At a row block's last column block the two results' windows are live: their words are what the body stored. -/
private theorem leaves_out7 (c : Dev nD) (t : Fin cfg0.N) (hc1 : cond0_1 (grid0.coords t)) :
    (dats m 0 c).leavesExact 7 t = owns (c : Thread nD τ) (ms0_7 t) fullShare (k0_pay3 (scr m c t.val t.isLt).1) := by
  rw [← after0_7 m c t]; unfold Dat.leavesExact; rw [liveAt0_7 t hc1]
private theorem leaves_out8 (c : Dev nD) (t : Fin cfg0.N) (hc1 : cond0_1 (grid0.coords t)) :
    (dats m 0 c).leavesExact 8 t = owns (c : Thread nD τ) (ms0_8 t) fullShare (k0_pay4 (scr m c t.val t.isLt).2) := by
  rw [← after0_8 m c t]; unfold Dat.leavesExact; rw [liveAt0_8 t hc1]

/-- At any position the invariant holds the two accumulators at some contents and the generator register at
    some state. -/
private theorem PhiS_some (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  by_cases hz : n = 0
  · rw [PhiS_zero m c n h hz, PhiA0_eq]
  · rw [PhiS_pos m c n h hz]
    iintro ⟨⟨HS0, HS1⟩, Hg⟩
    isplitl [HS0 HS1]
    · isplitl [HS0]
      · iexists _; iexact HS0
      · iexists _; iexact HS1
    · iexact Hg

/-- The accumulators after a point, component by component, over the point's blocks: reset at a row block's first
    column block, carried on at the others. -/
private theorem scr_first_fst (c : Dev nD) (t : Fin cfg0.N) (h0 : t.val % 4 = 0) :
    (scr m c t.val t.isLt).1 = acc0v (iblk m c 0 t) (iblk m c 1 t) (iblk m c 2 t) (iblk m c 3 t) (iblk m c 6 t) (k0_pay5 (F := F)) := by
  rw [scr_reset m c t h0]; unfold acc0; rfl
private theorem scr_first_snd (c : Dev nD) (t : Fin cfg0.N) (h0 : t.val % 4 = 0) :
    (scr m c t.val t.isLt).2 = acc1v (iblk m c 0 t) (iblk m c 1 t) (iblk m c 2 t) (iblk m c 3 t) (iblk m c 4 t) (iblk m c 5 t) (iblk m c 6 t) (k0_pay6 (F := F)) := by
  rw [scr_reset m c t h0]; unfold acc1; rfl
private theorem scr_next_fst (c : Dev nD) (t : Fin cfg0.N) (h0 : ¬t.val % 4 = 0) :
    (scr m c t.val t.isLt).1 = acc0v (iblk m c 0 t) (iblk m c 1 t) (iblk m c 2 t) (iblk m c 3 t) (iblk m c 6 t) (scr m c (t.val - 1) (Nat.lt_of_le_of_lt (Nat.sub_le _ _) t.isLt)).1 := by
  rw [scr_carry m c t h0]; unfold acc0; rfl
private theorem scr_next_snd (c : Dev nD) (t : Fin cfg0.N) (h0 : ¬t.val % 4 = 0) :
    (scr m c t.val t.isLt).2 = acc1v (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).2 := by
  rw [scr_carry m c t h0]; unfold acc1; rfl

set_option maxHeartbeats 4800000 in
/-- A row block's first column block: whatever the accumulators held, the body resets them and adds the tile's
    contribution; the results' words go back as they came. -/
private theorem body_first (c : Dev nD) (t : Fin cfg0.N) (h0 : t.val % 4 = 0) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => by have := (hcond0_1 t).mp h; omega
  unfold bodyPre bodyPost bodyAt0
  simp only [before0_0, before0_1, before0_2, before0_3, before0_4, before0_5, before0_6]
  rw [leaves_in0, leaves_in1, leaves_in2, leaves_in3, leaves_in4, leaves_in5, leaves_in6,
    Dat.leavesExact_idle (dats m 0 c) 7 t (idleAt0_7 t hc1) (noFlush0_7 t hc1),
    Dat.leavesExact_idle (dats m 0 c) 8 t (idleAt0_8 t hc1) (noFlush0_8 t hc1)]
  rw [show (dats m 0 c).owesAt () t.succ = (dats m 0 c).owesAt () t.castSucc from rfl]
  rw [show (dats m 0 c).Φ t.succ = PhiS m c (t.val + 1) t.isLt from rfl, PhiS_succ, scr_first_fst m c t h0, scr_first_snd m c t h0, PhiS_castSucc m c t]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HI' := (PhiS_some m c t.val (Nat.le_of_lt t.isLt)) $$ HI
  icases HI' with ⟨⟨HS0, HS1⟩, Hg⟩
  iapply (kernelRun_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) ((dats m 0 c).before 7 t d7) ((dats m 0 c).before 8 t d8) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; iexact H7
  · iexists d8; iexact H8

set_option maxHeartbeats 4800000 in
/-- A middle column block: the accumulators hold what the point before left and take the tile's contribution on top;
    the results' words go back as they came. -/
private theorem body_middle (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := by omega
  unfold bodyPre bodyPost bodyAt0
  simp only [before0_0, before0_1, before0_2, before0_3, before0_4, before0_5, before0_6]
  rw [leaves_in0, leaves_in1, leaves_in2, leaves_in3, leaves_in4, leaves_in5, leaves_in6,
    Dat.leavesExact_idle (dats m 0 c) 7 t (idleAt0_7 t hc1) (noFlush0_7 t hc1),
    Dat.leavesExact_idle (dats m 0 c) 8 t (idleAt0_8 t hc1) (noFlush0_8 t hc1)]
  rw [show (dats m 0 c).owesAt () t.succ = (dats m 0 c).owesAt () t.castSucc from rfl]
  rw [show (dats m 0 c).Φ t.succ = PhiS m c (t.val + 1) t.isLt from rfl, PhiS_succ, scr_next_fst m c t h0, scr_next_snd m c t h0,
    PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).1 (scr m c (t.val - 1) (Nat.lt_of_le_of_lt (Nat.sub_le _ _) t.isLt)).2
    ((dats m 0 c).before 7 t d7) ((dats m 0 c).before 8 t d8) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; iexact H7
  · iexists d8; iexact H8

set_option maxHeartbeats 4800000 in
/-- A row block's last column block: the accumulators take the tile's contribution on top of what the point before
    left, and the two results' words are stored from them. -/
private theorem body_last (c : Dev nD) (t : Fin cfg0.N) (h1 : t.val % 4 = 3) :
    bodyPre m c t ⊢ wp frame (wpE (defs₀ (F := F)) Variants.none c none) Set.univ (bodyAt0 t) (fun _ => bodyPost m c t) := by
  have h0 : ¬t.val % 4 = 0 := by omega
  have hc0 : ¬cond0_0 (grid0.coords t) := fun h => h0 ((hcond0_0 t).mp h)
  have hc1 : cond0_1 (grid0.coords t) := (hcond0_1 t).mpr h1
  have hz : t.val ≠ 0 := by omega
  unfold bodyPre bodyPost bodyAt0
  simp only [before0_0, before0_1, before0_2, before0_3, before0_4, before0_5, before0_6]
  rw [leaves_in0, leaves_in1, leaves_in2, leaves_in3, leaves_in4, leaves_in5, leaves_in6,
    leaves_out7 m c t hc1, leaves_out8 m c t hc1]
  rw [show (dats m 0 c).owesAt () t.succ = (dats m 0 c).owesAt () t.castSucc from rfl]
  rw [show (dats m 0 c).Φ t.succ = PhiS m c (t.val + 1) t.isLt from rfl, PhiS_succ, scr_next_fst m c t h0, scr_next_snd m c t h0,
    PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun_C c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).1 (scr m c (t.val - 1) (Nat.lt_of_le_of_lt (Nat.sub_le _ _) t.isLt)).2 Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists ((dats m 0 c).before 7 t d7); iexact H7
  isplitl [H8]; · iexists ((dats m 0 c).before 8 t d8); iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexact H7
  · iexact H8

/-- The body at any point, by where the point stands in its row block. -/
private theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact body_first m c t h0
  · by_cases h1 : t.val % 4 = 3
    · exact body_last m c t h1
    · exact body_middle m c t h0 h1

/-- The library's body obligation, at every point. -/
theorem body_obligation (c : Dev nD) : BodyObligation (dats (F := F) m 0 c) (defs₀ (F := F)) Variants.none () Set.univ := by
  intro t
  rw [bigSep_W0, bigSep_W0]
  exact sound_body m c t

/-- What the launch hands the region is the invariant before the first point. -/
theorem hin (c : Dev nD) : Pipeline.ΦA spec0 c ⊢ (dats m 0 c).Φ 0 := by
  have h : (dats m 0 c).Φ 0 = PhiS m c 0 (Nat.zero_le _) := rfl
  rw [h, PhiS_zero m c 0 _ rfl]

/-- After the last point the invariant gives it back: the accumulators' contents are forgotten. -/
theorem hout (c : Dev nD) : (dats m 0 c).Φ (Fin.last cfg0.N) ⊢ Pipeline.ΦA spec0 c := by
  have hN : cfg0.N = 32 := N_0
  have hpos : (Fin.last cfg0.N).val ≠ 0 := by rw [Fin.val_last]; omega
  have h : (dats m 0 c).Φ (Fin.last cfg0.N) = PhiS m c (Fin.last cfg0.N).val (Nat.le_of_lt_succ (Fin.last cfg0.N).isLt) := rfl
  rw [h, PhiS_pos m c _ _ hpos, PhiA0_eq]
  iintro ⟨⟨HS0, HS1⟩, Hg⟩
  isplitl [HS0 HS1]
  · isplitl [HS0]
    · iexists _; iexact HS0
    · iexists _; iexact HS1
  · iexact Hg

end Cert.Kernel.Hand

end
-- ==== Proof.WLaunch.lean ====
/-
  The launch of the distance program: @main is three stretches of host operations, the kernel region, and two
  more stretches. The region's arrays are handed to the pipeline at entry (the embeddings, which two windows read,
  split in two halves) and taken back at exit with the two results' arrays at what the write-backs left; the host
  stretches run over the unscoped buffers held at a valuation. Concluded: every weakly fair execution terminates,
  and the final memory is the later stretches applied to the region-entry contents with the two results replaced.
-/
import proofs.«429911_j70497593196919_3_alg».proof.Proof.WObl
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region: the two results summed over the row blocks, the same-family count from the
    one-hot column sums, the closing arithmetic, and the final clamp at zero. -/
abbrev postOps : List (HloOp τ sig (Elt F)) := List.flatten [hostOps1, hostOps1_1]

/-! ## The buffers the host stretches run within -/

/-- The TensorCore's unscoped references, as device buffers. -/
private def hostRefs : Finset (DevRef τ sig) := (StableHlo.tcRefs τ sig).filter fun b => ¬ b.isScoped

omit [FloatOps F] in
/-- A core's unscoped buffers at a valuation are that set held at it. -/
private theorem unscopedBufs_eq_held (c : Dev nD) (Vv : Valuation τ sig (Elt F)) :
    (unscopedBufs c (fun b => Vv (Proc.devRef .tc b)) : sProp 𝕄) = StableHlo.held (c : Thread nD τ) hostRefs Vv := by
  unfold unscopedBufs StableHlo.held hostRefs StableHlo.tcRefs
  rw [Finset.filter_map, bigSep_map]
  rfl

omit [FloatOps F] in
/-- A host operation names no scoped buffer: one on TensorCore references stays within that set. -/
private theorem bufs_sub_hostRefs (op : HloOp τ sig (Elt F)) (h : op.bufs ⊆ StableHlo.tcRefs τ sig) : op.bufs ⊆ hostRefs :=
  fun b hb => Finset.mem_filter.mpr ⟨h hb, by rw [op.no_scoped b hb]; exact Bool.false_ne_true⟩

/-! ## The parameters of the launch -/

/-- The pipeline library's algebra is the whole user component. -/
private abbrev EP : Emb (UR sig nD τ) (MT nD τ sig Unit (Elt F) ℕ (UR sig nD τ) ℕ) := emb₁
/-- No core owes another anything: no level is assigned. -/
private abbrev Lz : GSem nD τ sig → Finset Unit := fun _ => ∅
private abbrev lvz : GSem nD τ sig → Unit → ℕ := fun _ _ => 0
/-- No prefetched table. -/
private abbrev adm : (p : Fin 1) → (pcfgs (F := F) p).Adm := fun p => (cfgs p).toPCfg_adm

/-- What rides beside the buffers through every stretch: the core owing nothing, the generator register at some state. -/
private abbrev R (c : Dev nD) : sProp 𝕄 :=
  iprop((∃ Wt, owes (c : Thread nD τ) (0 : CellTallies nD τ sig Unit) Wt) ∗ ∃ r, prngReg c r)

/-! ## The contents between the stretches -/

/-- Core c's buffers at launch, -/
private abbrev Va (c : Dev nD) : Valuation τ sig (Elt F) := fun b => m (c, b)
/-- after the table and the two reshapes, -/
private abbrev Vb (c : Dev nD) : Valuation τ sig (Elt F) := StableHlo.after hostOps0 (Va m c)
/-- and after the one-hot rows. -/
private abbrev Vc (c : Dev nD) : Valuation τ sig (Elt F) := StableHlo.after hostOps0_1 (Vb m c)

/-- The region is entered at the contents the third stretch leaves. -/
private theorem V0_eq (c : Dev nD) : V0 m c = StableHlo.after hostOps0_2 (Vc m c) := by
  show StableHlo.after (List.flatten [hostOps0, hostOps0_1, hostOps0_2]) _ = _
  rw [List.flatten_cons, StableHlo.after_append, List.flatten_cons, StableHlo.after_append, List.flatten_cons,
    List.flatten_nil, List.append_nil]

/-- The region-exit contents: the entry contents with the two results' arrays at what the write-backs left. -/
private def Wx (c : Dev nD) : Valuation τ sig (Elt F) :=
  Function.update (Function.update (V0 m c) (Proc.devRef .tc main_v9_0) ((dats m 0 c).arrAt 7 cfg0.N))
    (Proc.devRef .tc main_v9_1) ((dats m 0 c).arrAt 8 cfg0.N)

private theorem Wx_7 (c : Dev nD) : Wx m c (Proc.devRef .tc (Pipeline.arrRef spec0 7)) = (dats m 0 c).arrAt 7 cfg0.N := by
  show Wx m c (Proc.devRef .tc main_v9_0) = _
  unfold Wx
  rw [Function.update_of_ne (StableHlo.devRef_ne_of_ne (by decide)), Function.update_self]

private theorem Wx_8 (c : Dev nD) : Wx m c (Proc.devRef .tc (Pipeline.arrRef spec0 8)) = (dats m 0 c).arrAt 8 cfg0.N := by
  show Wx m c (Proc.devRef .tc main_v9_1) = _
  unfold Wx
  rw [Function.update_self]

private theorem Wx_off (c : Dev nD) (b : Ref sig .tc) (h7 : b ≠ main_v9_0) (h8 : b ≠ main_v9_1) :
    Wx m c (Proc.devRef .tc b) = V m c b := by
  unfold Wx
  rw [Function.update_of_ne (StableHlo.devRef_ne_of_ne h8), Function.update_of_ne (StableHlo.devRef_ne_of_ne h7)]

-- the exit contents are read through the three lemmas above only
attribute [local irreducible] Wx

/-- After the region's exit, -/
private abbrev Vd (c : Dev nD) : Valuation τ sig (Elt F) := StableHlo.after hostOps1 (Wx m c)

private theorem post_eq (c : Dev nD) : StableHlo.after postOps (Wx m c) = StableHlo.after hostOps1_1 (Vd m c) := by
  show StableHlo.after (List.flatten [hostOps1, hostOps1_1]) _ = _
  rw [List.flatten_cons, StableHlo.after_append, List.flatten_cons, List.flatten_nil, List.append_nil]

/-! ## The host stretches -/

/-- A stretch of operations over the unscoped buffers held at a valuation, the rest of the state riding along. -/
private def hseg (ops : List (HloOp τ sig (Elt F))) (hsub : ops.Forall fun op => op.bufs ⊆ StableHlo.tcRefs τ sig)
    (hf : ∀ op ∈ ops, op.fresh = ∅) (Vs : Dev nD → Valuation τ sig (Elt F)) :
    Pipeline.HostSeg (Name := ℕ) (U := UR sig nD τ) (pcfgs (F := F)) defs₀ Variants.none Lz lvz :=
  Pipeline.HostSeg.ofOps _ _ _ _ _ hostRefs ops
    (fun op h => bufs_sub_hostRefs op ((List.forall_iff_forall_mem.mp hsub) op h)) hf Vs R

private theorem fresh0 : ∀ op ∈ (hostOps0 : List (HloOp τ sig (Elt F))), op.fresh = ∅ :=
  List.forall_iff_forall_mem.mp (by repeat' constructor)
private theorem fresh0_1 : ∀ op ∈ (hostOps0_1 : List (HloOp τ sig (Elt F))), op.fresh = ∅ :=
  List.forall_iff_forall_mem.mp (by repeat' constructor)
private theorem fresh0_2 : ∀ op ∈ (hostOps0_2 : List (HloOp τ sig (Elt F))), op.fresh = ∅ :=
  List.forall_iff_forall_mem.mp (by repeat' constructor)
private theorem fresh1 : ∀ op ∈ (hostOps1 : List (HloOp τ sig (Elt F))), op.fresh = ∅ :=
  List.forall_iff_forall_mem.mp (by repeat' constructor)
private theorem fresh1_1 : ∀ op ∈ (hostOps1_1 : List (HloOp τ sig (Elt F))), op.fresh = ∅ :=
  List.forall_iff_forall_mem.mp (by repeat' constructor)

/-! ## The windows' arrays, buffer by buffer -/

/-- The eight distinct buffers behind the nine windows, each whole at the full share. -/
private theorem arrBufs_list (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v6) ↦{fullShare} Vf main_v6)
          ∗ (((c : Thread nD τ).loc main_v7) ↦{fullShare} Vf main_v7) ∗ (((c : Thread nD τ).loc main_v3) ↦{fullShare} Vf main_v3)
          ∗ (((c : Thread nD τ).loc main_v2) ↦{fullShare} Vf main_v2) ∗ (((c : Thread nD τ).loc main_v8) ↦{fullShare} Vf main_v8)
          ∗ (((c : Thread nD τ).loc main_v9_0) ↦{fullShare} Vf main_v9_0) ∗ (((c : Thread nD τ).loc main_v9_1) ↦{fullShare} Vf main_v9_1)) := by
  unfold Pipeline.arrBufs
  exact bigSep_eq_bigSepL_of_eq [main_v0, main_v6, main_v7, main_v3, main_v2, main_v8, main_v9_0, main_v9_1] (by decide) (by decide) _

/-- The pipeline's arrays, window by window: the embeddings' buffer at its left half for the row blocks and at its
    right half for the column blocks, every other array whole at the full share. -/
private theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v6) ↦{fullShare} Fa 2) ∗ (((c : Thread nD τ).loc main_v7) ↦{fullShare} Fa 3)
          ∗ (((c : Thread nD τ).loc main_v3) ↦{fullShare} Fa 4) ∗ (((c : Thread nD τ).loc main_v2) ↦{fullShare} Fa 5)
          ∗ (((c : Thread nD τ).loc main_v8) ↦{fullShare} Fa 6) ∗ (((c : Thread nD τ).loc main_v9_0) ↦{fullShare} Fa 7)
          ∗ (((c : Thread nD τ).loc main_v9_1) ↦{fullShare} Fa 8)) := by
  unfold Dat.arrays
  rw [bigSep_congr (Ψ := fun w : Fin cfg0.W => ((cfg0.win w).arr.view.loc (c : Thread nD τ) ↦{(dats m 0 c).share w} Fa w : sProp 𝕄))
    fun w _ => by rw [(arr_whole0 w).set_eq_univ], bigSep_W0]
  rfl

/-- The buffers that are no window's array bypass the region. -/
private abbrev Zr (c : Dev nD) : sProp 𝕄 :=
  Pipeline.unscopedRest (Ix := Unit) (Name := ℕ) (U := UR sig nD τ) (Lvl := ℕ) spec0 c (V m c)

/-- An input window's array is never written: after the last point it holds its entry contents. -/
private theorem arrN_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The buffers that bypass the region are none of the two results: they are read alike off the exit contents. -/
private theorem rest_Wx (c : Dev nD) :
    (Pipeline.unscopedRest (Ix := Unit) (Name := ℕ) (U := UR sig nD τ) (Lvl := ℕ) spec0 c (fun b => Wx m c (Proc.devRef .tc b)) : sProp 𝕄)
      = Pipeline.unscopedRest spec0 c (V m c) := by
  unfold Pipeline.unscopedRest
  refine bigSep_congr fun b hb => ?_
  have hb' := (Finset.mem_sdiff.mp hb).2
  beta_reduce
  rw [Wx_off m c b (fun h => hb' (h ▸ Finset.mem_image.mpr ⟨7, Finset.mem_univ _, rfl⟩))
    (fun h => hb' (h ▸ Finset.mem_image.mpr ⟨8, Finset.mem_univ _, rfl⟩))]

/-- The pipeline's arrays after the last point: every input's array at its entry contents, the two results' arrays at
    what the write-backs left. -/
private theorem arrays_exit (c : Dev nD) :
    ((dats m 0 c).arrays ((dats m 0 c).arrAt · cfg0.N) : sProp 𝕄)
      = iprop((((c : Thread nD τ).loc main_v0) ↦{fullShare.left} V m c main_v0) ∗ (((c : Thread nD τ).loc main_v0) ↦{fullShare.right} V m c main_v0)
          ∗ (((c : Thread nD τ).loc main_v6) ↦{fullShare} V m c main_v6) ∗ (((c : Thread nD τ).loc main_v7) ↦{fullShare} V m c main_v7)
          ∗ (((c : Thread nD τ).loc main_v3) ↦{fullShare} V m c main_v3) ∗ (((c : Thread nD τ).loc main_v2) ↦{fullShare} V m c main_v2)
          ∗ (((c : Thread nD τ).loc main_v8) ↦{fullShare} V m c main_v8)
          ∗ (((c : Thread nD τ).loc main_v9_0) ↦{fullShare} (dats m 0 c).arrAt 7 cfg0.N)
          ∗ (((c : Thread nD τ).loc main_v9_1) ↦{fullShare} (dats m 0 c).arrAt 8 cfg0.N)) := by
  rw [arrays_list]
  exact congrArg₂ BI.sep (congrArg (fun f => (((c : Thread nD τ).loc main_v0) ↦{fullShare.left} f : sProp 𝕄)) (arrN_in m c 0 rfl))
    (congrArg₂ BI.sep (congrArg (fun f => (((c : Thread nD τ).loc main_v0) ↦{fullShare.right} f : sProp 𝕄)) (arrN_in m c 1 rfl))
    (congrArg₂ BI.sep (congrArg (fun f => (((c : Thread nD τ).loc main_v6) ↦{fullShare} f : sProp 𝕄)) (arrN_in m c 2 rfl))
    (congrArg₂ BI.sep (congrArg (fun f => (((c : Thread nD τ).loc main_v7) ↦{fullShare} f : sProp 𝕄)) (arrN_in m c 3 rfl))
    (congrArg₂ BI.sep (congrArg (fun f => (((c : Thread nD τ).loc main_v3) ↦{fullShare} f : sProp 𝕄)) (arrN_in m c 4 rfl))
    (congrArg₂ BI.sep (congrArg (fun f => (((c : Thread nD τ).loc main_v2) ↦{fullShare} f : sProp 𝕄)) (arrN_in m c 5 rfl))
    (congrArg₂ BI.sep (congrArg (fun f => (((c : Thread nD τ).loc main_v8) ↦{fullShare} f : sProp 𝕄)) (arrN_in m c 6 rfl)) rfl))))))

/-- The unscoped buffers held at the exit contents: the eight arrays' buffers, then the bypassing rest. -/
private theorem held_exit (c : Dev nD) :
    (StableHlo.held (c : Thread nD τ) hostRefs (Wx m c) : sProp 𝕄)
      = iprop(iprop((((c : Thread nD τ).loc main_v0) ↦{fullShare} V m c main_v0) ∗ (((c : Thread nD τ).loc main_v6) ↦{fullShare} V m c main_v6)
          ∗ (((c : Thread nD τ).loc main_v7) ↦{fullShare} V m c main_v7) ∗ (((c : Thread nD τ).loc main_v3) ↦{fullShare} V m c main_v3)
          ∗ (((c : Thread nD τ).loc main_v2) ↦{fullShare} V m c main_v2) ∗ (((c : Thread nD τ).loc main_v8) ↦{fullShare} V m c main_v8)
          ∗ (((c : Thread nD τ).loc main_v9_0) ↦{fullShare} (dats m 0 c).arrAt 7 cfg0.N)
          ∗ (((c : Thread nD τ).loc main_v9_1) ↦{fullShare} (dats m 0 c).arrAt 8 cfg0.N)) ∗ Zr m c) := by
  rw [← unscopedBufs_eq_held c (Wx m c),
    Pipeline.unscopedBufs_split₀ cfgs 0 winFacts₀0.arr_unscoped c (fun b => Wx m c (Proc.devRef .tc b)), arrBufs_list, rest_Wx,
    Wx_off m c main_v0 (by decide) (by decide), Wx_off m c main_v6 (by decide) (by decide),
    Wx_off m c main_v7 (by decide) (by decide), Wx_off m c main_v3 (by decide) (by decide),
    Wx_off m c main_v2 (by decide) (by decide), Wx_off m c main_v8 (by decide) (by decide), Wx_7 m c, Wx_8 m c]

/-- ENTRY, the buffers' part: the embeddings' buffer split in its two halves, one per window on it; every other array
    whole; the rest bypassing. -/
private theorem entry_core (c : Dev nD) :
    (StableHlo.held (c : Thread nD τ) hostRefs (V0 m c) : sProp 𝕄)
      ⊢ iprop((dats m 0 c).arrays ((dats m 0 c).arrAt · 0) ∗ Zr m c) := by
  rw [← unscopedBufs_eq_held c (V0 m c),
    Pipeline.unscopedBufs_split₀ cfgs 0 winFacts₀0.arr_unscoped c (fun b => V0 m c (Proc.devRef .tc b)), arrBufs_list,
    show ((dats m 0 c).arrAt · 0) = fun w => V m c (Pipeline.arrRef spec0 w) from
      funext fun w => (show (dats m 0 c).arrAt w 0 = (dats m 0 c).A w from rfl).trans (A_eq m c w),
    arrays_list]
  iintro ⟨⟨H0, H6, H7, H3, H2, H8, H90, H91⟩, HZ⟩
  ihave H0 := (pointsTo_share (PosShare.mem_left_op_right fullShare)).1 $$ H0
  icases H0 with ⟨H0l, H0r⟩
  isplitr [HZ]
  · isplitl [H0l]; · iexact H0l
    isplitl [H0r]; · iexact H0r
    isplitl [H6]; · iexact H6
    isplitl [H7]; · iexact H7
    isplitl [H3]; · iexact H3
    isplitl [H2]; · iexact H2
    isplitl [H8]; · iexact H8
    isplitl [H90]; · iexact H90
    iexact H91
  iexact HZ

/-- EXIT, the buffers' part: the two halves of the embeddings' buffer, at the same contents, rejoin. -/
private theorem exit_core (c : Dev nD) :
    iprop((dats m 0 c).arrays ((dats m 0 c).arrAt · cfg0.N) ∗ Zr m c)
      ⊢ (StableHlo.held (c : Thread nD τ) hostRefs (Wx m c) : sProp 𝕄) := by
  rw [arrays_exit, held_exit]
  iintro ⟨⟨H0l, H0r, H6, H7, H3, H2, H8, H90, H91⟩, HZ⟩
  ihave H0 := (pointsTo_share (PosShare.mem_left_op_right fullShare)).2 $$ [H0l H0r]
  · isplitl [H0l] <;> iassumption
  isplitr [HZ]
  · isplitl [H0]; · iexact H0
    isplitl [H6]; · iexact H6
    isplitl [H7]; · iexact H7
    isplitl [H3]; · iexact H3
    isplitl [H2]; · iexact H2
    isplitl [H8]; · iexact H8
    isplitl [H90]; · iexact H90
    iexact H91
  iexact HZ

/-! ## The region -/

set_option backward.isDefEq.respectTransparency.types false in
/-- THE REGION: entered from the unscoped buffers at the contents the third stretch left, the embeddings' buffer
    split in two halves for the two windows on it; left with the two results' arrays at what the write-backs left. -/
private def reg0 : Pipeline.RegionSeg (pcfgs (F := F)) adm (dats (F := F) m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) hostRefs (StableHlo.after hostOps0_2 (Vc m c)) ∗ R c)
  post c := iprop(StableHlo.held (c : Thread nD τ) hostRefs (Wx m c) ∗ R c)
  X c := iprop(∃ r, prngReg c r)
  Y c := iprop(∃ r, prngReg c r)
  Z c := Zr m c
  hentry c := by
    rw [← V0_eq]
    iintro ⟨⟨Hh, HO, Hp⟩, -, -⟩
    ihave Ha := (entry_core m c) $$ Hh
    icases Ha with ⟨Ha, HZ⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩
      iexists Wt
      isplitr; · ipureintro; exact fun _ _ => Or.inl trivial
      iexact HO
    isplitl [Hp]; · iexact Hp
    iexact HZ
  hin c :=
    (show _ ⊢ Pipeline.ΦA spec0 c from by
      unfold Pipeline.ΦA
      iintro ⟨Hp, -, Hr⟩
      isplitl [Hr] <;> iassumption).trans (Hand.hin m c)
  hout c :=
    (Hand.hout m c).trans (by
      rw [Pipeline.ownSems0_none]; unfold Pipeline.ΦA
      iintro ⟨Hr, Hp⟩
      isplitl [Hp]; · iexact Hp
      isplitr; · iempintro
      iexact Hr)
  hexit c := by
    iintro ⟨Ha, HO, Hp, HZ⟩
    ihave Hh := (exit_core m c) $$ [Ha HZ]
    · isplitl [Ha] <;> iassumption
    imodintro
    isplitl [Hh]; · iexact Hh
    isplitl [HO]
    · unfold Pipeline.Dat.owesAt Pipeline.owesWithin
      icases HO with ⟨%Wt, -, HO⟩
      iexists Wt; iexact HO
    iexact Hp

/-- @main as its six segments. -/
private abbrev segs : List (Pipeline.Seg (pcfgs (F := F)) adm (dats (F := F) m) () defs₀ Variants.none Lz lvz) :=
  [ .host (hseg hostOps0 hostOps0_sub fresh0 (Va m)),
    .host (hseg hostOps0_1 hostOps0_1_sub fresh0_1 (Vb m)),
    .host (hseg hostOps0_2 hostOps0_2_sub fresh0_2 (Vc m)),
    .region (reg0 m),
    .host (hseg hostOps1 hostOps1_sub fresh1 (Wx m)),
    .host (hseg hostOps1_1 hostOps1_1_sub fresh1_1 (Vd m)) ]

set_option backward.isDefEq.respectTransparency.types false in
/-- THE RUN. Every weakly fair execution of @main terminates, faulting nowhere, and on each core the unscoped buffers
    end at the later host operations applied to a valuation `W` that is the region-entry contents except at the two
    results, which hold what the pipeline's write-backs left. -/
theorem run_main : θ_run defs (onTc (τ := τ) (main (F := F))) ⟨m, fun _ => 0, ρ⟩ (fun r => ∀ c : Dev nD,
    ∃ W : Valuation τ sig (Elt F),
      W (Proc.devRef .tc (Pipeline.arrRef spec0 7)) = (dats m 0 c).arrAt 7 cfg0.N
      ∧ W (Proc.devRef .tc (Pipeline.arrRef spec0 8)) = (dats m 0 c).arrAt 8 cfg0.N
      ∧ (∀ b : Ref sig .tc, b ≠ main_v9_0 → b ≠ main_v9_1 → W (Proc.devRef .tc b) = V m c b)
      ∧ ∀ b : Ref sig .tc, b.isScoped = false →
          r.2.mem ((c.tc : Thread nD τ).loc b) = StableHlo.after postOps W (Proc.devRef .tc b)) :=
  Pipeline.θ_run_regions_kit (pcfgs (F := F)) adm (dats (F := F) m) () cellOf_inj EP defs₀ Variants.none Lz lvz m ρ main (segs m)
    (fun c Q => by rw [main_chain, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (Va m c) ∗ R c))
    (Tₙ := fun c => StableHlo.held (c : Thread nD τ) hostRefs (StableHlo.after hostOps1_1 (Vd m c)))
    (hch := ⟨fun _ => .rfl, fun _ => .rfl, fun _ => .rfl, fun _ => .rfl, fun _ => .rfl, fun _ => .rfl, fun c => by
      show iprop(StableHlo.held (c : Thread nD τ) hostRefs (StableHlo.after hostOps1_1 (Vd m c)) ∗ R c) ⊢ _
      iintro ⟨Hh, HO, -⟩
      isplitl [Hh] <;> iassumption⟩)
    (hinit := by
      refine Pipeline.initEach Lz lvz fun c => ?_
      rw [show unscopedBufs c (fun b => m ((c : Thread nD τ).loc b)) = StableHlo.held (c : Thread nD τ) hostRefs (Va m c) from
        unscopedBufs_eq_held c (Va m c)]
      iintro ⟨⟨Hh, -, HO, -, Hp, -⟩, -⟩
      imodintro
      isplitl [Hh]; · iexact Hh
      isplitl [HO]; · iexists ∅; iexact HO
      iexists _; iexact Hp)
    (QY := fun c s => ∀ b : Ref sig .tc, b.isScoped = false →
      s.mem ((c.tc : Thread nD τ).loc b) = StableHlo.after postOps (Wx m c) (Proc.devRef .tc b))
    (hfin := fun c s' => by
      rw [← post_eq, ← unscopedBufs_eq_held]
      unfold unscopedBufs
      iintro ⟨Hh, HSI⟩
      ihave Hr := (pointsTo_read_all (Finset.univ.filter fun b : Ref sig .tc => ¬ b.isScoped) (fun b => (c.tc : Thread nD τ).loc b)
        (fun b => StableHlo.after postOps (Wx m c) (Proc.devRef .tc b)) s') $$ [Hh HSI]
      · isplitl [Hh] <;> iassumption
      icases Hr with ⟨%hr, HSI⟩
      imodintro
      isplitr
      · ipureintro
        exact fun b hb => hr b (Finset.mem_filter.mpr ⟨Finset.mem_univ _, by rw [hb]; exact Bool.false_ne_true⟩)
      iexact HSI)
    (hQ := fun s h c => ⟨Wx m c, Wx_7 m c, Wx_8 m c, Wx_off m c, h c⟩)

/-! ## What no host operation writes -/

/-- No operation of a stretch writes b: the stretch leaves b's contents. -/
private theorem keeps {ops : List (HloOp τ sig (Elt F))} {b : Ref sig .tc}
    (h : ops.Forall fun op => Proc.devRef (τ := τ) .tc b ∉ op.writes) (Vv : Valuation τ sig (Elt F)) :
    StableHlo.after ops Vv (Proc.devRef .tc b) = Vv (Proc.devRef .tc b) :=
  StableHlo.after_of_forall_not_mem ops Vv (List.forall_iff_forall_mem.mp h)

/-- Each operation writes its one result, which is another reference. -/
local macro "no_write" : tactic =>
  `(tactic| repeat' (first
    | apply And.intro
    | exact fun h => StableHlo.devRef_ne_of_ne (by decide) (Finset.mem_singleton.mp h)))

/-- A buffer none of the three earlier stretches writes enters the region as launched, -/
private theorem pre_keeps {b : Ref sig .tc}
    (h0 : (hostOps0 : List (HloOp τ sig (Elt F))).Forall fun op => Proc.devRef (τ := τ) .tc b ∉ op.writes)
    (h1 : (hostOps0_1 : List (HloOp τ sig (Elt F))).Forall fun op => Proc.devRef (τ := τ) .tc b ∉ op.writes)
    (h2 : (hostOps0_2 : List (HloOp τ sig (Elt F))).Forall fun op => Proc.devRef (τ := τ) .tc b ∉ op.writes)
    (c : Dev nD) : V m c b = m ((c : Thread nD τ).loc b) := by
  show StableHlo.after (List.flatten [hostOps0, hostOps0_1, hostOps0_2]) (Va m c) (Proc.devRef .tc b) = _
  rw [List.flatten_cons, StableHlo.after_append, List.flatten_cons, StableHlo.after_append, List.flatten_cons,
    List.flatten_nil, List.append_nil, keeps h2, keeps h1, keeps h0]

/-- and one none of the two later stretches writes ends as the region left it. -/
private theorem post_keeps {b : Ref sig .tc}
    (h1 : (hostOps1 : List (HloOp τ sig (Elt F))).Forall fun op => Proc.devRef (τ := τ) .tc b ∉ op.writes)
    (h2 : (hostOps1_1 : List (HloOp τ sig (Elt F))).Forall fun op => Proc.devRef (τ := τ) .tc b ∉ op.writes)
    (Wv : Valuation τ sig (Elt F)) : StableHlo.after postOps Wv (Proc.devRef .tc b) = Wv (Proc.devRef .tc b) := by
  show StableHlo.after (List.flatten [hostOps1, hostOps1_1]) Wv (Proc.devRef .tc b) = _
  rw [List.flatten_cons, StableHlo.after_append, List.flatten_cons, List.flatten_nil, List.append_nil, keeps h2, keeps h1]

/-- No host operation writes the first argument: it enters the region as launched, -/
theorem V_arg0 (c : Dev nD) : V m c main_arg0 = m ((c.tc : Thread nD τ).loc main_arg0) :=
  pre_keeps m (by no_write) (by no_write) (by no_write) c

/-- and so does the second; -/
theorem V_arg1 (c : Dev nD) : V m c main_arg1 = m ((c.tc : Thread nD τ).loc main_arg1) :=
  pre_keeps m (by no_write) (by no_write) (by no_write) c

/-- the later stretches leave the first argument as the region left it, -/
theorem post_arg0 (W : Valuation τ sig (Elt F)) :
    StableHlo.after postOps W (Proc.devRef .tc main_arg0) = W (Proc.devRef .tc main_arg0) :=
  post_keeps (by no_write) (by no_write) W

/-- and the second. -/
theorem post_arg1 (W : Valuation τ sig (Elt F)) :
    StableHlo.after postOps W (Proc.devRef .tc main_arg1) = W (Proc.devRef .tc main_arg1) :=
  post_keeps (by no_write) (by no_write) W

/-- The frame: the program runs and leaves both argument arrays as they were (no host operation writes them, and the
    region only reads through its windows). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨Wv, -, -, hoff, hall⟩ := h c
    refine ⟨?_, ?_⟩
    · rw [hall main_arg0 rfl, post_arg0 Wv, hoff main_arg0 (by decide) (by decide)]
      exact V_arg0 m c
    · rw [hall main_arg1 rfl, post_arg1 Wv, hoff main_arg1 (by decide) (by decide)]
      exact V_arg1 m c) (run_main m ρ)

end Cert.Kernel.Hand

end
-- ==== Proof.KData.lean ====
/-
  The distance kernel's launch, read once for both of its readings (the word-level one and the one over the
  extended reals): what the region finds in the arrays it is handed, the blocks of those arrays that each grid
  point sees, and what the two one-word accumulators hold after each point.

  The grid is 8 row blocks by 4 column blocks, walked row block by row block. A point (i, j) sees rows
  1024 i … 1024 i + 1023 of the embeddings, of the squared norms (as a column) and of the family rows, columns
  2048 j … 2048 j + 2047 of the embeddings, of the squared norms (as a row) and of the one-hot rows, and the
  constant matrix of ones. At j = 0 both accumulators are reset to zero; every point then adds its tile's sum of
  distances to the first and its tile's sum of distance times same-family indicator to the second; at j = 3 the two
  words are stored into the row block's entry of the two results. So after point n the accumulators hold
  the fold, from the last reset, of the points' contributions (`scr`), and the results' staging words hold
  the accumulators re-laid as 1×1×1.
-/
import proofs.«429911_j70497593196919_3_alg».proof.Proof.Gen.KernelIdeal.Launch
import proofs.«429911_j70497593196919_3_alg».proof.Proof.Gen.KernelIdeal.Skeleton
import proofs.«429911_j70497593196919_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The host operations before the region, in order: the table and the two reshapes, the one-hot rows, then the
    family rows, the squared norms in both layouts and the matrix of ones. -/
abbrev preOps : List (HloOp τ sig (Elt F)) := List.flatten [hostOps0, hostOps0_1, hostOps0_2]

/-- Core `c`'s buffers when the region is entered: the launch memory after those operations. -/
abbrev V0 (c : Dev nD) : Valuation τ sig (Elt F) := StableHlo.after preOps (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branch conditions over the grid -/

/-- "This is the row block's first column block": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the row block's last column block": the accumulators are stored into the results. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from a row block's last column block the two results' windows are idle and not written back. -/
theorem idleAt0_7 : ∀ t : Fin cfg0.N, ¬cond0_1 (grid0.coords t) → cfg0.idle 7 (grid0.coords t) = true := by decide +kernel
theorem idleAt0_8 : ∀ t : Fin cfg0.N, ¬cond0_1 (grid0.coords t) → cfg0.idle 8 (grid0.coords t) = true := by decide +kernel
theorem noFlush0_7 : ∀ t : Fin cfg0.N, ¬cond0_1 (grid0.coords t) → (cfg0.win 7).flush t = false := by decide +kernel
theorem noFlush0_8 : ∀ t : Fin cfg0.N, ¬cond0_1 (grid0.coords t) → (cfg0.win 8).flush t = false := by decide +kernel
/-- At a row block's last column block they are live. -/
theorem liveAt0_7 : ∀ t : Fin cfg0.N, cond0_1 (grid0.coords t) → cfg0.idle 7 (grid0.coords t) = false := by decide +kernel
theorem liveAt0_8 : ∀ t : Fin cfg0.N, cond0_1 (grid0.coords t) → cfg0.idle 8 (grid0.coords t) = false := by decide +kernel

/-! ## The staging and scratch memrefs the body is called with -/

abbrev ms0_0 (t : Fin cfg0.N) : Memref sig .tc .vmem S1024x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
/-- The two one-word accumulators: whole scoped buffers of the kernel's own. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view
/-- One staging buffer of each result window, through which its contents are stated. -/
abbrev VO0_7 : View sig .tc .vmem S1x1x1 .f32 := (Memref.whole cc0_stg7_0 : Memref sig .tc .vmem S1x1x1 .f32).view
abbrev VO0_8 : View sig .tc .vmem S1x1x1 .f32 := (Memref.whole cc0_stg8_0 : Memref sig .tc .vmem S1x1x1 .f32).view

/-- What the launch hands the region besides the windows: the two accumulators at anything, the generator register at
    some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## One point's contribution, and the accumulators point by point -/

/-- The first accumulator after a point, from what it held before and the point's blocks (row embeddings, column
    embeddings, row norms, column norms, ones): the tile's distances summed through the product with the matrix of
    ones, the 128 equal lanes summed and scaled back by 1/128, added on. -/
def acc0v (x0 : Vec F S1024x16 .f32) (x1 : Vec F S2048x16 .f32) (x2 : Vec F S1024x1 .f32) (x3 : Vec F S1x2048 .f32)
    (x6 : Vec F S2048x128 .f32) (s : Vec F S1x1 .f32) : Vec F S1x1 .f32 :=
  k0_pay1 s (k0_pay10 x0 x1 x2 x3 x6)

/-- The second accumulator after a point: the same with each distance first multiplied by the same-family indicator
    (family rows against one-hot rows). -/
def acc1v (x0 : Vec F S1024x16 .f32) (x1 : Vec F S2048x16 .f32) (x2 : Vec F S1024x1 .f32) (x3 : Vec F S1x2048 .f32)
    (x4 : Vec F S1024x64 .f32) (x5 : Vec F S2048x64 .f32) (x6 : Vec F S2048x128 .f32) (s : Vec F S1x1 .f32) : Vec F S1x1 .f32 :=
  k0_pay2 (k0_pay8 x0 x1 x2 x3 x4 x5) (k0_pay9 x6) s

/-- The same at grid point `t`, over the blocks the region's arrays have there. -/
def acc0 (c : Dev nD) (t : Fin cfg0.N) (s : Vec F S1x1 .f32) : Vec F S1x1 .f32 :=
  acc0v (iblk m c 0 t) (iblk m c 1 t) (iblk m c 2 t) (iblk m c 3 t) (iblk m c 6 t) s

def acc1 (c : Dev nD) (t : Fin cfg0.N) (s : Vec F S1x1 .f32) : Vec F S1x1 .f32 :=
  acc1v (iblk m c 0 t) (iblk m c 1 t) (iblk m c 2 t) (iblk m c 3 t) (iblk m c 4 t) (iblk m c 5 t) (iblk m c 6 t) s

/-- The seven input windows' staging memrefs, each whole at given contents. -/
abbrev inOwns (c : Dev nD) (arg2 : Memref sig .tc .vmem S1024x16 .f32) (arg3 : Memref sig .tc .vmem S2048x16 .f32)
    (arg4 : Memref sig .tc .vmem S1024x1 .f32) (arg5 : Memref sig .tc .vmem S1x2048 .f32) (arg6 : Memref sig .tc .vmem S1024x64 .f32)
    (arg7 : Memref sig .tc .vmem S2048x64 .f32) (arg8 : Memref sig .tc .vmem S2048x128 .f32)
    (x0 : Vec F S1024x16 .f32) (x1 : Vec F S2048x16 .f32) (x2 : Vec F S1024x1 .f32) (x3 : Vec F S1x2048 .f32)
    (x4 : Vec F S1024x64 .f32) (x5 : Vec F S2048x64 .f32) (x6 : Vec F S2048x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6)

/-- The two accumulators after the body at position `n`: reset (to the zero words) at the first column block of a
    row block, carried otherwise. -/
def scr (c : Dev nD) : (n : ℕ) → n < cfg0.N → Vec F S1x1 .f32 × Vec F S1x1 .f32
  | 0, hn => (acc0 m c ⟨0, hn⟩ (k0_pay5 (F := F)), acc1 m c ⟨0, hn⟩ (k0_pay6 (F := F)))
  | n + 1, hn =>
    if (n + 1) % 4 = 0 then (acc0 m c ⟨n + 1, hn⟩ (k0_pay5 (F := F)), acc1 m c ⟨n + 1, hn⟩ (k0_pay6 (F := F)))
    else (acc0 m c ⟨n + 1, hn⟩ (scr c n (Nat.lt_of_succ_lt hn)).1, acc1 m c ⟨n + 1, hn⟩ (scr c n (Nat.lt_of_succ_lt hn)).2)

theorem scr_reset (c : Dev nD) (t : Fin cfg0.N) (h0 : t.val % 4 = 0) :
    scr m c t.val t.isLt = (acc0 m c t (k0_pay5 (F := F)), acc1 m c t (k0_pay6 (F := F))) := by
  obtain ⟨n, hn⟩ := t
  cases n with
  | zero => rfl
  | succ n => exact (if_pos h0)

theorem scr_carry (c : Dev nD) (t : Fin cfg0.N) (h0 : ¬t.val % 4 = 0) :
    scr m c t.val t.isLt = (acc0 m c t (scr m c (t.val - 1) (Nat.lt_of_le_of_lt (Nat.sub_le _ _) t.isLt)).1,
      acc1 m c t (scr m c (t.val - 1) (Nat.lt_of_le_of_lt (Nat.sub_le _ _) t.isLt)).2) := by
  obtain ⟨n, hn⟩ := t
  cases n with
  | zero => exact absurd (Nat.zero_mod _) h0
  | succ n => exact (if_neg h0)

/-! ## The region's invariant and the proof data -/

/-- Before the first point the two accumulators hold anything; before any later point they hold what the point before
    left; the generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((scr m c n hn).1) ∗ owns (c : Thread nD τ) scM0_1 fullShare ((scr m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scr m c n hn).1) ∗ owns (c : Thread nD τ) scM0_1 fullShare ((scr m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scr m c (n - 1) (by omega)).1) ∗ owns (c : Thread nD τ) scM0_1 fullShare ((scr m c (n - 1) (by omega)).2)) ∗ (∃ r, prngReg c r)) := by
  cases n with
  | zero => exact absurd rfl hz
  | succ n => rfl

/-- The proof data of the one pipeline on core `c`. The embeddings are handed to the region twice (as row blocks and as
    column blocks): the two windows hold one half of that array each. After the body every input's buffer holds its
    block; the two results' buffers hold the accumulators re-laid (consulted only where they are stored). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (scr m c t.val t.isLt).1
    | ⟨8, _⟩ => k0_pay4 (scr m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay3 (scr m c t.val t.isLt).1 := by dsimp only [dats]
theorem after0_8 (c : Dev nD) (t : Fin cfg0.N) : (dats m 0 c).after 8 t = k0_pay4 (scr m c t.val t.isLt).2 := by dsimp only [dats]

end Cert.KernelIdeal.Hand

end
-- ==== Proof.KRun.lean ====
/-
  The kernel body run once at a grid point, in each of the three situations the grid meets, on any whole staging
  memrefs: which stores happen, and what the two accumulators and the two result words hold afterwards as
  functions of the seven input blocks and of what the accumulators held before.
-/
import proofs.«429911_j70497593196919_3_alg».proof.Proof.KData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of the body's loads and stores of the two-axis memrefs: zero along each axis. -/
private theorem hz2 : (![0, 0] : Fin 2 → Nat) = fun _ => 0 := funext fun a => by fin_cases a <;> rfl
/-- The same for the three-axis result words. -/
private theorem hz3 : (![0, 0, 0] : Fin 3 → Nat) = fun _ => 0 := funext fun a => by fin_cases a <;> rfl

/-- A store through the whole-shape rectangle at offset zero, made last, leaves its payload: whatever was there and
    whatever the earlier stores wrote. -/
private theorem read_store_unit {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hz inb y⟩),
    View.canon_cons_unit_zero hz]

set_option maxHeartbeats 1000000 in
/-- First column block of a row block: both accumulators are reset to zero and then take this tile's contribution;
    the results' staging words are not touched. -/
theorem kernelRun_A (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xi7 xi8 : Vec F S1x1x1 .f32) (E : Set ℕ) (K : PUnit → sProp 𝕄) :
    iprop(inOwns c arg2 arg3 arg4 arg5 arg6 arg7 arg8 x0 x1 x2 x3 x4 x5 x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
        ∗ (iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare (acc0v x0 x1 x2 x3 x6 (k0_pay5 (F := F))) ∗ owns (c : Thread nD τ) arg12 fullShare (acc1v x0 x1 x2 x3 x4 x5 x6 (k0_pay6 (F := F)))) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%ds0, %fs0, %hfs0, HS0⟩, ⟨%ds1, %fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; rotate_left
    · iexact HS0
    ipureintro
    sl_unfold_words
    rw [read_store_unit (S := S1x1) _ _ hz2]
    dsimp only
    rw [View.readCov_unit_zero (S := S1x1) _ hz2]
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  sl_unfold_words
  rw [read_store_unit (S := S1x1) _ _ hz2]
  dsimp only
  rw [View.readCov_unit_zero (S := S1x1) _ hz2]
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

set_option maxHeartbeats 1000000 in
/-- A middle column block: the accumulators take this tile's contribution on top of what they held; the results'
    staging words are not touched. -/
theorem kernelRun_B (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xs0 xs1 : Vec F S1x1 .f32) (xi7 xi8 : Vec F S1x1x1 .f32) (E : Set ℕ) (K : PUnit → sProp 𝕄) :
    iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare xs0 ∗ owns (c : Thread nD τ) arg12 fullShare xs1
        ∗ (iprop(inOwns c arg2 arg3 arg4 arg5 arg6 arg7 arg8 x0 x1 x2 x3 x4 x5 x6 ∗ owns (c : Thread nD τ) arg9 fullShare xi7 ∗ owns (c : Thread nD τ) arg10 fullShare xi8 ∗ owns (c : Thread nD τ) arg11 fullShare (acc0v x0 x1 x2 x3 x6 xs0) ∗ owns (c : Thread nD τ) arg12 fullShare (acc1v x0 x1 x2 x3 x4 x5 x6 xs1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%f7, %hf7, H7⟩, ⟨%f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hfs0; obtain rfl := harg12.eq_unread hfs1
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [HS0]
  · iexists _; isplitr; rotate_left
    · iexact HS0
    ipureintro
    rw [read_store_unit (S := S1x1) _ _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  rw [read_store_unit (S := S1x1) _ _ hz2]
  dsimp only
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

set_option maxHeartbeats 1000000 in
/-- Last column block of a row block: the accumulators take this tile's contribution and are then stored, re-laid
    as 1×1×1, into the two results' staging words. -/
theorem kernelRun_C (c : Dev nD) (i : grid0.Coords) (arg2 : Memref sig .tc .vmem S1024x16 .f32) (harg2 : arg2.IsWhole) (arg3 : Memref sig .tc .vmem S2048x16 .f32) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x64 .f32) (harg6 : arg6.IsWhole) (arg7 : Memref sig .tc .vmem S2048x64 .f32) (harg7 : arg7.IsWhole) (arg8 : Memref sig .tc .vmem S2048x128 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S1024x16 .f32) (x1 : Vec F S2048x16 .f32) (x2 : Vec F S1024x1 .f32) (x3 : Vec F S1x2048 .f32) (x4 : Vec F S1024x64 .f32) (x5 : Vec F S2048x64 .f32) (x6 : Vec F S2048x128 .f32) (xs0 xs1 : Vec F S1x1 .f32) (E : Set ℕ) (K : PUnit → sProp 𝕄) :
    iprop(inOwns c arg2 arg3 arg4 arg5 arg6 arg7 arg8 x0 x1 x2 x3 x4 x5 x6 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
        ∗ (iprop(inOwns c arg2 arg3 arg4 arg5 arg6 arg7 arg8 x0 x1 x2 x3 x4 x5 x6 ∗ owns (c : Thread nD τ) arg9 fullShare (k0_pay3 (acc0v x0 x1 x2 x3 x6 xs0)) ∗ owns (c : Thread nD τ) arg10 fullShare (k0_pay4 (acc1v x0 x1 x2 x3 x4 x5 x6 xs1)) ∗ owns (c : Thread nD τ) arg11 fullShare (acc0v x0 x1 x2 x3 x6 xs0) ∗ owns (c : Thread nD τ) arg12 fullShare (acc1v x0 x1 x2 x3 x4 x5 x6 xs1)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by

  simp only [cc0__kernel_eq_skeleton]; unfold cc0__kernel_skel
  simp only [k0_part1_eq_skeleton]; unfold k0_part1_skel
  unfold inOwns owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, %hf7, H7⟩, ⟨%d8, %f8, %hf8, H8⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  obtain rfl := harg11.eq_unread hfs0; obtain rfl := harg12.eq_unread hfs1
  sl_exec (disch := first | exact hc0 | exact hc1)
  sl_step
  iapply Hk
  isplitl [H0 H1 H2 H3 H4 H5 H6]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; · ipureintro; exact harg8.read_unread _
    iexact H6
  isplitl [H7]
  · iexists _; isplitr; rotate_left
    · iexact H7
    ipureintro
    sl_unfold_words
    rw [read_store_unit (S := S1x1x1) _ _ hz3, View.readCov_unit_zero (S := S1x1) _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  isplitl [H8]
  · iexists _; isplitr; rotate_left
    · iexact H8
    ipureintro
    sl_unfold_words
    rw [read_store_unit (S := S1x1x1) _ _ hz3, View.readCov_unit_zero (S := S1x1) _ hz2]
    dsimp only
    unfold acc1v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  isplitl [HS0]
  · iexists _; isplitr; rotate_left
    · iexact HS0
    ipureintro
    sl_unfold_words
    rw [read_store_unit (S := S1x1) _ _ hz2]
    dsimp only
    unfold acc0v
    simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]
  iexists _; isplitr; rotate_left
  · iexact HS1
  ipureintro
  sl_unfold_words
  rw [read_store_unit (S := S1x1) _ _ hz2]
  dsimp only
  unfold acc1v
  simp only [View.readAt_eq_ld, harg2.read_unread, harg3.read_unread, harg4.read_unread, harg5.read_unread, harg6.read_unread, harg7.read_unread, harg8.read_unread, harg11.read_unread, harg12.read_unread, View.ld_unit_zero (S := S1024x16) hz2, View.ld_unit_zero (S := S2048x16) hz2, View.ld_unit_zero (S := S1024x1) hz2, View.ld_unit_zero (S := S1x2048) hz2, View.ld_unit_zero (S := S1024x64) hz2, View.ld_unit_zero (S := S2048x64) hz2, View.ld_unit_zero (S := S2048x128) hz2, View.ld_unit_zero (S := S1x1) hz2]

end Cert.KernelIdeal.Hand

end
-- ==== Proof.KObl.lean ====
/-
  The body obligation of the launch rule for the distance kernel: at every grid point, from the region's invariant
  (the two accumulators at what the point before left) and the windows' staging buffers at what the pipeline hands
  over (each input at its block; the two results' words at whatever they held), the body runs to the invariant of the
  next point and the buffers at what the proof data says. By cases on where the point stands in its row block
  (first column block / a middle one / the last), each case the corresponding run of the body.
-/
import proofs.«429911_j70497593196919_3_alg».proof.Proof.KRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point, fetched there or not: a window whose index
    did not move since its last fetch still holds that block, the body only reading it. -/
theorem before0_0 (c : Dev nD) (t : Fin cfg0.N) (d) : (dats m 0 c).before 0 t d = iblk m c 0 t := by
  have hkeep : ∀ s, (cfg0.win 0).cut (cfg0.grid.coords s) ((dats m 0 c).after 0 s) = (dats m 0 c).blockOf 0 s := by
    intro s; rw [after0_0]; unfold Dat.blockOf iblk; rw [A_eq]
  rw [(dats m 0 c).before_in_eq_fetched 0 rfl (fun _ => rfl) (fun _ _ _ => rfl) hkeep t d]
  unfold Dat.fetched Dat.blockOf iblk; rw [A_eq]; rfl
theorem before0_1 (c : Dev nD) (t : Fin cfg0.N) (d) : (dats m 0 c).before 1 t d = iblk m c 1 t := by
  have hkeep : ∀ s, (cfg0.win 1).cut (cfg0.grid.coords s) ((dats m 0 c).after 1 s) = (dats m 0 c).blockOf 1 s := by
    intro s; rw [after0_1]; unfold Dat.blockOf iblk; rw [A_eq]
  rw [(dats m 0 c).before_in_eq_fetched 1 rfl (fun _ => rfl) (fun _ _ _ => rfl) hkeep t d]
  unfold Dat.fetched Dat.blockOf iblk; rw [A_eq]; rfl
theorem before0_2 (c : Dev nD) (t : Fin cfg0.N) (d) : (dats m 0 c).before 2 t d = iblk m c 2 t := by
  have hkeep : ∀ s, (cfg0.win 2).cut (cfg0.grid.coords s) ((dats m 0 c).after 2 s) = (dats m 0 c).blockOf 2 s := by
    intro s; rw [after0_2]; unfold Dat.blockOf iblk; rw [A_eq]
  rw [(dats m 0 c).before_in_eq_fetched 2 rfl (fun _ => rfl) (fun _ _ _ => rfl) hkeep t d]
  unfold Dat.fetched Dat.blockOf iblk; rw [A_eq]; rfl
theorem before0_3 (c : Dev nD) (t : Fin cfg0.N) (d) : (dats m 0 c).before 3 t d = iblk m c 3 t := by
  have hkeep : ∀ s, (cfg0.win 3).cut (cfg0.grid.coords s) ((dats m 0 c).after 3 s) = (dats m 0 c).blockOf 3 s := by
    intro s; rw [after0_3]; unfold Dat.blockOf iblk; rw [A_eq]
  rw [(dats m 0 c).before_in_eq_fetched 3 rfl (fun _ => rfl) (fun _ _ _ => rfl) hkeep t d]
  unfold Dat.fetched Dat.blockOf iblk; rw [A_eq]; rfl
theorem before0_4 (c : Dev nD) (t : Fin cfg0.N) (d) : (dats m 0 c).before 4 t d = iblk m c 4 t := by
  have hkeep : ∀ s, (cfg0.win 4).cut (cfg0.grid.coords s) ((dats m 0 c).after 4 s) = (dats m 0 c).blockOf 4 s := by
    intro s; rw [after0_4]; unfold Dat.blockOf iblk; rw [A_eq]
  rw [(dats m 0 c).before_in_eq_fetched 4 rfl (fun _ => rfl) (fun _ _ _ => rfl) hkeep t d]
  unfold Dat.fetched Dat.blockOf iblk; rw [A_eq]; rfl
theorem before0_5 (c : Dev nD) (t : Fin cfg0.N) (d) : (dats m 0 c).before 5 t d = iblk m c 5 t := by
  have hkeep : ∀ s, (cfg0.win 5).cut (cfg0.grid.coords s) ((dats m 0 c).after 5 s) = (dats m 0 c).blockOf 5 s := by
    intro s; rw [after0_5]; unfold Dat.blockOf iblk; rw [A_eq]
  rw [(dats m 0 c).before_in_eq_fetched 5 rfl (fun _ => rfl) (fun _ _ _ => rfl) hkeep t d]
  unfold Dat.fetched Dat.blockOf iblk; rw [A_eq]; rfl
theorem before0_6 (c : Dev nD) (t : Fin cfg0.N) (d) : (dats m 0 c).before 6 t d = iblk m c 6 t := by
  have hkeep : ∀ s, (cfg0.win 6).cut (cfg0.grid.coords s) ((dats m 0 c).after 6 s) = (dats m 0 c).blockOf 6 s := by
    intro s; rw [after0_6]; unfold Dat.blockOf iblk; rw [A_eq]
  rw [(dats m 0 c).before_in_eq_fetched 6 rfl (fun _ => rfl) (fun _ _ _ => rfl) hkeep t d]
  unfold Dat.fetched Dat.blockOf iblk; rw [A_eq]; rfl

/-! ## The body at a point -/

/-- What the pipeline hands the body at point `t`: the invariant, what the core owes, and each of the nine
    windows' current staging buffers at what it then holds. -/
private def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it takes back: the invariant of the next point, the same debt, and each buffer at what the body leaves. -/
private def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An input window is live at every point: the body hands its buffer back at the block it read. -/
private theorem leaves_in0 (c : Dev nD) (t : Fin cfg0.N) :
    (dats m 0 c).leavesExact 0 t = owns (c : Thread nD τ) (ms0_0 t) fullShare (iblk m c 0 t) := by
  rw [← after0_0 m c t]
private theorem leaves_in1 (c : Dev nD) (t : Fin cfg0.N) :
    (dats m 0 c).leavesExact 1 t = owns (c : Thread nD τ) (ms0_1 t) fullShare (iblk m c 1 t) := by
  rw [← after0_1 m c t]
private theorem leaves_in2 (c : Dev nD) (t : Fin cfg0.N) :
    (dats m 0 c).leavesExact 2 t = owns (c : Thread nD τ) (ms0_2 t) fullShare (iblk m c 2 t) := by
  rw [← after0_2 m c t]
private theorem leaves_in3 (c : Dev nD) (t : Fin cfg0.N) :
    (dats m 0 c).leavesExact 3 t = owns (c : Thread nD τ) (ms0_3 t) fullShare (iblk m c 3 t) := by
  rw [← after0_3 m c t]
private theorem leaves_in4 (c : Dev nD) (t : Fin cfg0.N) :
    (dats m 0 c).leavesExact 4 t = owns (c : Thread nD τ) (ms0_4 t) fullShare (iblk m c 4 t) := by
  rw [← after0_4 m c t]
private theorem leaves_in5 (c : Dev nD) (t : Fin cfg0.N) :
    (dats m 0 c).leavesExact 5 t = owns (c : Thread nD τ) (ms0_5 t) fullShare (iblk m c 5 t) := by
  rw [← after0_5 m c t]
private theorem leaves_in6 (c : Dev nD) (t : Fin cfg0.N) :
    (dats m 0 c).leavesExact 6 t = owns (c : Thread nD τ) (ms0_6 t) fullShare (iblk m c 6 t) := by
  rw [← after0_6 m c t]

/-- At a row block's last column block the two results' windows are live: their words are what the body stored. -/
private theorem leaves_out7 (c : Dev nD) (t : Fin cfg0.N) (hc1 : cond0_1 (grid0.coords t)) :
    (dats m 0 c).leavesExact 7 t = owns (c : Thread nD τ) (ms0_7 t) fullShare (k0_pay3 (scr m c t.val t.isLt).1) := by
  rw [← after0_7 m c t]; unfold Dat.leavesExact; rw [liveAt0_7 t hc1]
private theorem leaves_out8 (c : Dev nD) (t : Fin cfg0.N) (hc1 : cond0_1 (grid0.coords t)) :
    (dats m 0 c).leavesExact 8 t = owns (c : Thread nD τ) (ms0_8 t) fullShare (k0_pay4 (scr m c t.val t.isLt).2) := by
  rw [← after0_8 m c t]; unfold Dat.leavesExact; rw [liveAt0_8 t hc1]

/-- At any position the invariant holds the two accumulators at some contents and the generator register at
    some state. -/
private theorem PhiS_some (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  by_cases hz : n = 0
  · rw [PhiS_zero m c n h hz, PhiA0_eq]
  · rw [PhiS_pos m c n h hz]
    iintro ⟨⟨HS0, HS1⟩, Hg⟩
    isplitl [HS0 HS1]
    · isplitl [HS0]
      · iexists _; iexact HS0
      · iexists _; iexact HS1
    · iexact Hg

/-- The accumulators after a point, component by component, over the point's blocks: reset at a row block's first
    column block, carried on at the others. -/
private theorem scr_first_fst (c : Dev nD) (t : Fin cfg0.N) (h0 : t.val % 4 = 0) :
    (scr m c t.val t.isLt).1 = acc0v (iblk m c 0 t) (iblk m c 1 t) (iblk m c 2 t) (iblk m c 3 t) (iblk m c 6 t) (k0_pay5 (F := F)) := by
  rw [scr_reset m c t h0]; unfold acc0; rfl
private theorem scr_first_snd (c : Dev nD) (t : Fin cfg0.N) (h0 : t.val % 4 = 0) :
    (scr m c t.val t.isLt).2 = acc1v (iblk m c 0 t) (iblk m c 1 t) (iblk m c 2 t) (iblk m c 3 t) (iblk m c 4 t) (iblk m c 5 t) (iblk m c 6 t) (k0_pay6 (F := F)) := by
  rw [scr_reset m c t h0]; unfold acc1; rfl
private theorem scr_next_fst (c : Dev nD) (t : Fin cfg0.N) (h0 : ¬t.val % 4 = 0) :
    (scr m c t.val t.isLt).1 = acc0v (iblk m c 0 t) (iblk m c 1 t) (iblk m c 2 t) (iblk m c 3 t) (iblk m c 6 t) (scr m c (t.val - 1) (Nat.lt_of_le_of_lt (Nat.sub_le _ _) t.isLt)).1 := by
  rw [scr_carry m c t h0]; unfold acc0; rfl
private theorem scr_next_snd (c : Dev nD) (t : Fin cfg0.N) (h0 : ¬t.val % 4 = 0) :
    (scr m c t.val t.isLt).2 = acc1v (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).2 := by
  rw [scr_carry m c t h0]; unfold acc1; rfl

set_option maxHeartbeats 4800000 in
/-- A row block's first column block: whatever the accumulators held, the body resets them and adds the tile's
    contribution; the results' words go back as they came. -/
private theorem body_first (c : Dev nD) (t : Fin cfg0.N) (h0 : t.val % 4 = 0) :
    bodyPre m c t ⊢ wp frame (wpE (defs₀ (F := F)) Variants.none c none) Set.univ (bodyAt0 t) (fun _ => bodyPost m c t) := by
  have hc0 : cond0_0 (grid0.coords t) := (hcond0_0 t).mpr h0
  have hc1 : ¬cond0_1 (grid0.coords t) := fun h => by have := (hcond0_1 t).mp h; omega
  unfold bodyPre bodyPost bodyAt0
  simp only [before0_0, before0_1, before0_2, before0_3, before0_4, before0_5, before0_6]
  rw [leaves_in0, leaves_in1, leaves_in2, leaves_in3, leaves_in4, leaves_in5, leaves_in6,
    Dat.leavesExact_idle (dats m 0 c) 7 t (idleAt0_7 t hc1) (noFlush0_7 t hc1),
    Dat.leavesExact_idle (dats m 0 c) 8 t (idleAt0_8 t hc1) (noFlush0_8 t hc1)]
  rw [show (dats m 0 c).owesAt () t.succ = (dats m 0 c).owesAt () t.castSucc from rfl]
  rw [show (dats m 0 c).Φ t.succ = PhiS m c (t.val + 1) t.isLt from rfl, PhiS_succ, scr_first_fst m c t h0, scr_first_snd m c t h0, PhiS_castSucc m c t]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HI' := (PhiS_some m c t.val (Nat.le_of_lt t.isLt)) $$ HI
  icases HI' with ⟨⟨HS0, HS1⟩, Hg⟩
  iapply (kernelRun_A c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) ((dats m 0 c).before 7 t d7) ((dats m 0 c).before 8 t d8) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; iexact H7
  · iexists d8; iexact H8

set_option maxHeartbeats 4800000 in
/-- A middle column block: the accumulators hold what the point before left and take the tile's contribution on top;
    the results' words go back as they came. -/
private theorem body_middle (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by
  have hc0 : ¬cond0_0 (grid0.coords t) := fun h => h0 ((hcond0_0 t).mp h)
  have hc1 : ¬cond0_1 (grid0.coords t) := fun h => h1 ((hcond0_1 t).mp h)
  have hz : t.val ≠ 0 := by omega
  unfold bodyPre bodyPost bodyAt0
  simp only [before0_0, before0_1, before0_2, before0_3, before0_4, before0_5, before0_6]
  rw [leaves_in0, leaves_in1, leaves_in2, leaves_in3, leaves_in4, leaves_in5, leaves_in6,
    Dat.leavesExact_idle (dats m 0 c) 7 t (idleAt0_7 t hc1) (noFlush0_7 t hc1),
    Dat.leavesExact_idle (dats m 0 c) 8 t (idleAt0_8 t hc1) (noFlush0_8 t hc1)]
  rw [show (dats m 0 c).owesAt () t.succ = (dats m 0 c).owesAt () t.castSucc from rfl]
  rw [show (dats m 0 c).Φ t.succ = PhiS m c (t.val + 1) t.isLt from rfl, PhiS_succ, scr_next_fst m c t h0, scr_next_snd m c t h0,
    PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun_B c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).1 (scr m c (t.val - 1) (Nat.lt_of_le_of_lt (Nat.sub_le _ _) t.isLt)).2
    ((dats m 0 c).before 7 t d7) ((dats m 0 c).before 8 t d8) Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [H8]; · iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists d7; iexact H7
  · iexists d8; iexact H8

set_option maxHeartbeats 4800000 in
/-- A row block's last column block: the accumulators take the tile's contribution on top of what the point before
    left, and the two results' words are stored from them. -/
private theorem body_last (c : Dev nD) (t : Fin cfg0.N) (h1 : t.val % 4 = 3) :
    bodyPre m c t ⊢ wp frame (wpE (defs₀ (F := F)) Variants.none c none) Set.univ (bodyAt0 t) (fun _ => bodyPost m c t) := by
  have h0 : ¬t.val % 4 = 0 := by omega
  have hc0 : ¬cond0_0 (grid0.coords t) := fun h => h0 ((hcond0_0 t).mp h)
  have hc1 : cond0_1 (grid0.coords t) := (hcond0_1 t).mpr h1
  have hz : t.val ≠ 0 := by omega
  unfold bodyPre bodyPost bodyAt0
  simp only [before0_0, before0_1, before0_2, before0_3, before0_4, before0_5, before0_6]
  rw [leaves_in0, leaves_in1, leaves_in2, leaves_in3, leaves_in4, leaves_in5, leaves_in6,
    leaves_out7 m c t hc1, leaves_out8 m c t hc1]
  rw [show (dats m 0 c).owesAt () t.succ = (dats m 0 c).owesAt () t.castSucc from rfl]
  rw [show (dats m 0 c).Φ t.succ = PhiS m c (t.val + 1) t.isLt from rfl, PhiS_succ, scr_next_fst m c t h0, scr_next_snd m c t h0,
    PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernelRun_C c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t)
    scM0_0 (Memref.isWhole_whole _) scM0_1 (Memref.isWhole_whole _) hc0 hc1
    (iblk m c 0 t) (iblk m c 1 t) (iblk m c 2 t) (iblk m c 3 t) (iblk m c 4 t) (iblk m c 5 t) (iblk m c 6 t) (scr m c (t.val - 1) (Nat.lt_of_le_of_lt (Nat.sub_le _ _) t.isLt)).1 (scr m c (t.val - 1) (Nat.lt_of_le_of_lt (Nat.sub_le _ _) t.isLt)).2 Set.univ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists ((dats m 0 c).before 7 t d7); iexact H7
  isplitl [H8]; · iexists ((dats m 0 c).before 8 t d8); iexact H8
  isplitl [HS0]; · iexact HS0
  isplitl [HS1]; · iexact HS1
  iintro ⟨⟨H0, H1, H2, H3, H4, H5, H6⟩, H7, H8, HS0, HS1⟩
  isplitl [HS0 HS1 Hg]
  · isplitl [HS0 HS1]
    · isplitl [HS0]
      · iexact HS0
      · iexact HS1
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexact H7
  · iexact H8

/-- The body at any point, by where the point stands in its row block. -/
private theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact body_first m c t h0
  · by_cases h1 : t.val % 4 = 3
    · exact body_last m c t h1
    · exact body_middle m c t h0 h1

/-- The library's body obligation, at every point. -/
theorem body_obligation (c : Dev nD) : BodyObligation (dats (F := F) m 0 c) (defs₀ (F := F)) Variants.none () Set.univ := by
  intro t
  rw [bigSep_W0, bigSep_W0]
  exact sound_body m c t

/-- What the launch hands the region is the invariant before the first point. -/
theorem hin (c : Dev nD) : Pipeline.ΦA spec0 c ⊢ (dats m 0 c).Φ 0 := by
  have h : (dats m 0 c).Φ 0 = PhiS m c 0 (Nat.zero_le _) := rfl
  rw [h, PhiS_zero m c 0 _ rfl]

/-- After the last point the invariant gives it back: the accumulators' contents are forgotten. -/
theorem hout (c : Dev nD) : (dats m 0 c).Φ (Fin.last cfg0.N) ⊢ Pipeline.ΦA spec0 c := by
  have hN : cfg0.N = 32 := N_0
  have hpos : (Fin.last cfg0.N).val ≠ 0 := by rw [Fin.val_last]; omega
  have h : (dats m 0 c).Φ (Fin.last cfg0.N) = PhiS m c (Fin.last cfg0.N).val (Nat.le_of_lt_succ (Fin.last cfg0.N).isLt) := rfl
  rw [h, PhiS_pos m c _ _ hpos, PhiA0_eq]
  iintro ⟨⟨HS0, HS1⟩, Hg⟩
  isplitl [HS0 HS1]
  · isplitl [HS0]
    · iexists _; iexact HS0
    · iexists _; iexact HS1
  · iexact Hg

end Cert.KernelIdeal.Hand

end
-- ==== Proof.KLaunch.lean ====
/-
  The launch of the distance program: @main is three stretches of host operations, the kernel region, and two
  more stretches. The region's arrays are handed to the pipeline at entry (the embeddings, which two windows read,
  split in two halves) and taken back at exit with the two results' arrays at what the write-backs left; the host
  stretches run over the unscoped buffers held at a valuation. Concluded: every weakly fair execution terminates,
  and the final memory is the later stretches applied to the region-entry contents with the two results replaced.
-/
import proofs.«429911_j70497593196919_3_alg».proof.Proof.KObl
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the region: the two results summed over the row blocks, the same-family count from the
    one-hot column sums, the closing arithmetic, and the final clamp at zero. -/
abbrev postOps : List (HloOp τ sig (Elt F)) := List.flatten [hostOps1, hostOps1_1]

/-! ## The buffers the host stretches run within -/

/-- The TensorCore's unscoped references, as device buffers. -/
private def hostRefs : Finset (DevRef τ sig) := (StableHlo.tcRefs τ sig).filter fun b => ¬ b.isScoped

omit [FloatOps F] in
/-- A core's unscoped buffers at a valuation are that set held at it. -/
private theorem unscopedBufs_eq_held (c : Dev nD) (Vv : Valuation τ sig (Elt F)) :
    (unscopedBufs c (fun b => Vv (Proc.devRef .tc b)) : sProp 𝕄) = StableHlo.held (c : Thread nD τ) hostRefs Vv := by
  unfold unscopedBufs StableHlo.held hostRefs StableHlo.tcRefs
  rw [Finset.filter_map, bigSep_map]
  rfl

omit [FloatOps F] in
/-- A host operation names no scoped buffer: one on TensorCore references stays within that set. -/
private theorem bufs_sub_hostRefs (op : HloOp τ sig (Elt F)) (h : op.bufs ⊆ StableHlo.tcRefs τ sig) : op.bufs ⊆ hostRefs :=
  fun b hb => Finset.mem_filter.mpr ⟨h hb, by rw [op.no_scoped b hb]; exact Bool.false_ne_true⟩

/-! ## The parameters of the launch -/

/-- The pipeline library's algebra is the whole user component. -/
private abbrev EP : Emb (UR sig nD τ) (MT nD τ sig Unit (Elt F) ℕ (UR sig nD τ) ℕ) := emb₁
/-- No core owes another anything: no level is assigned. -/
private abbrev Lz : GSem nD τ sig → Finset Unit := fun _ => ∅
private abbrev lvz : GSem nD τ sig → Unit → ℕ := fun _ _ => 0
/-- No prefetched table. -/
private abbrev adm : (p : Fin 1) → (pcfgs (F := F) p).Adm := fun p => (cfgs p).toPCfg_adm

/-- What rides beside the buffers through every stretch: the core owing nothing, the generator register at some state. -/
private abbrev R (c : Dev nD) : sProp 𝕄 :=
  iprop((∃ Wt, owes (c : Thread nD τ) (0 : CellTallies nD τ sig Unit) Wt) ∗ ∃ r, prngReg c r)

/-! ## The contents between the stretches -/

/-- Core c's buffers at launch, -/
private abbrev Va (c : Dev nD) : Valuation τ sig (Elt F) := fun b => m (c, b)
/-- after the table and the two reshapes, -/
private abbrev Vb (c : Dev nD) : Valuation τ sig (Elt F) := StableHlo.after hostOps0 (Va m c)
/-- and after the one-hot rows. -/
private abbrev Vc (c : Dev nD) : Valuation τ sig (Elt F) := StableHlo.after hostOps0_1 (Vb m c)

/-- The region is entered at the contents the third stretch leaves. -/
private theorem V0_eq (c : Dev nD) : V0 m c = StableHlo.after hostOps0_2 (Vc m c) := by
  show StableHlo.after (List.flatten [hostOps0, hostOps0_1, hostOps0_2]) _ = _
  rw [List.flatten_cons, StableHlo.after_append, List.flatten_cons, StableHlo.after_append, List.flatten_cons,
    List.flatten_nil, List.append_nil]

/-- The region-exit contents: the entry contents with the two results' arrays at what the write-backs left. -/
private def Wx (c : Dev nD) : Valuation τ sig (Elt F) :=
  Function.update (Function.update (V0 m c) (Proc.devRef .tc main_v9_0) ((dats m 0 c).arrAt 7 cfg0.N))
    (Proc.devRef .tc main_v9_1) ((dats m 0 c).arrAt 8 cfg0.N)

private theorem Wx_7 (c : Dev nD) : Wx m c (Proc.devRef .tc (Pipeline.arrRef spec0 7)) = (dats m 0 c).arrAt 7 cfg0.N := by
  show Wx m c (Proc.devRef .tc main_v9_0) = _
  unfold Wx
  rw [Function.update_of_ne (StableHlo.devRef_ne_of_ne (by decide)), Function.update_self]

private theorem Wx_8 (c : Dev nD) : Wx m c (Proc.devRef .tc (Pipeline.arrRef spec0 8)) = (dats m 0 c).arrAt 8 cfg0.N := by
  show Wx m c (Proc.devRef .tc main_v9_1) = _
  unfold Wx
  rw [Function.update_self]

private theorem Wx_off (c : Dev nD) (b : Ref sig .tc) (h7 : b ≠ main_v9_0) (h8 : b ≠ main_v9_1) :
    Wx m c (Proc.devRef .tc b) = V m c b := by
  unfold Wx
  rw [Function.update_of_ne (StableHlo.devRef_ne_of_ne h8), Function.update_of_ne (StableHlo.devRef_ne_of_ne h7)]

-- the exit contents are read through the three lemmas above only
attribute [local irreducible] Wx

/-- After the region's exit, -/
private abbrev Vd (c : Dev nD) : Valuation τ sig (Elt F) := StableHlo.after hostOps1 (Wx m c)

private theorem post_eq (c : Dev nD) : StableHlo.after postOps (Wx m c) = StableHlo.after hostOps1_1 (Vd m c) := by
  show StableHlo.after (List.flatten [hostOps1, hostOps1_1]) _ = _
  rw [List.flatten_cons, StableHlo.after_append, List.flatten_cons, List.flatten_nil, List.append_nil]

/-! ## The host stretches -/

/-- A stretch of operations over the unscoped buffers held at a valuation, the rest of the state riding along. -/
private def hseg (ops : List (HloOp τ sig (Elt F))) (hsub : ops.Forall fun op => op.bufs ⊆ StableHlo.tcRefs τ sig)
    (hf : ∀ op ∈ ops, op.fresh = ∅) (Vs : Dev nD → Valuation τ sig (Elt F)) :
    Pipeline.HostSeg (Name := ℕ) (U := UR sig nD τ) (pcfgs (F := F)) defs₀ Variants.none Lz lvz :=
  Pipeline.HostSeg.ofOps _ _ _ _ _ hostRefs ops
    (fun op h => bufs_sub_hostRefs op ((List.forall_iff_forall_mem.mp hsub) op h)) hf Vs R

private theorem fresh0 : ∀ op ∈ (hostOps0 : List (HloOp τ sig (Elt F))), op.fresh = ∅ :=
  List.forall_iff_forall_mem.mp (by repeat' constructor)
private theorem fresh0_1 : ∀ op ∈ (hostOps0_1 : List (HloOp τ sig (Elt F))), op.fresh = ∅ :=
  List.forall_iff_forall_mem.mp (by repeat' constructor)
private theorem fresh0_2 : ∀ op ∈ (hostOps0_2 : List (HloOp τ sig (Elt F))), op.fresh = ∅ :=
  List.forall_iff_forall_mem.mp (by repeat' constructor)
private theorem fresh1 : ∀ op ∈ (hostOps1 : List (HloOp τ sig (Elt F))), op.fresh = ∅ :=
  List.forall_iff_forall_mem.mp (by repeat' constructor)
private theorem fresh1_1 : ∀ op ∈ (hostOps1_1 : List (HloOp τ sig (Elt F))), op.fresh = ∅ :=
  List.forall_iff_forall_mem.mp (by repeat' constructor)

/-! ## The windows' arrays, buffer by buffer -/

/-- The eight distinct buffers behind the nine windows, each whole at the full share. -/
private theorem arrBufs_list (c : Dev nD) (Vf : (b : Ref sig .tc) → Buf (Elt F) ((c : Thread nD τ).loc b)) :
    (Pipeline.arrBufs spec0 c Vf : sProp 𝕄)
      = iprop((((c : Thread nD τ).loc main_v0) ↦{fullShare} Vf main_v0) ∗ (((c : Thread nD τ).loc main_v6) ↦{fullShare} Vf main_v6)
          ∗ (((c : Thread nD τ).loc main_v7) ↦{fullShare} Vf main_v7) ∗ (((c : Thread nD τ).loc main_v3) ↦{fullShare} Vf main_v3)
          ∗ (((c : Thread nD τ).loc main_v2) ↦{fullShare} Vf main_v2) ∗ (((c : Thread nD τ).loc main_v8) ↦{fullShare} Vf main_v8)
          ∗ (((c : Thread nD τ).loc main_v9_0) ↦{fullShare} Vf main_v9_0) ∗ (((c : Thread nD τ).loc main_v9_1) ↦{fullShare} Vf main_v9_1)) := by
  unfold Pipeline.arrBufs
  exact bigSep_eq_bigSepL_of_eq [main_v0, main_v6, main_v7, main_v3, main_v2, main_v8, main_v9_0, main_v9_1] (by decide) (by decide) _

/-- The pipeline's arrays, window by window: the embeddings' buffer at its left half for the row blocks and at its
    right half for the column blocks, every other array whole at the full share. -/
private theorem arrays_list (c : Dev nD) (Fa : (w : Fin cfg0.W) → Buf (Elt F) ((cfg0.win w).arr.view.loc (c : Thread nD τ))) :
    ((dats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v6) ↦{fullShare} Fa 2) ∗ (((c : Thread nD τ).loc main_v7) ↦{fullShare} Fa 3)
          ∗ (((c : Thread nD τ).loc main_v3) ↦{fullShare} Fa 4) ∗ (((c : Thread nD τ).loc main_v2) ↦{fullShare} Fa 5)
          ∗ (((c : Thread nD τ).loc main_v8) ↦{fullShare} Fa 6) ∗ (((c : Thread nD τ).loc main_v9_0) ↦{fullShare} Fa 7)
          ∗ (((c : Thread nD τ).loc main_v9_1) ↦{fullShare} Fa 8)) := by
  unfold Dat.arrays
  rw [bigSep_congr (Ψ := fun w : Fin cfg0.W => ((cfg0.win w).arr.view.loc (c : Thread nD τ) ↦{(dats m 0 c).share w} Fa w : sProp 𝕄))
    fun w _ => by rw [(arr_whole0 w).set_eq_univ], bigSep_W0]
  rfl

/-- The buffers that are no window's array bypass the region. -/
private abbrev Zr (c : Dev nD) : sProp 𝕄 :=
  Pipeline.unscopedRest (Ix := Unit) (Name := ℕ) (U := UR sig nD τ) (Lvl := ℕ) spec0 c (V m c)

/-- An input window's array is never written: after the last point it holds its entry contents. -/
private theorem arrN_in (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The buffers that bypass the region are none of the two results: they are read alike off the exit contents. -/
private theorem rest_Wx (c : Dev nD) :
    (Pipeline.unscopedRest (Ix := Unit) (Name := ℕ) (U := UR sig nD τ) (Lvl := ℕ) spec0 c (fun b => Wx m c (Proc.devRef .tc b)) : sProp 𝕄)
      = Pipeline.unscopedRest spec0 c (V m c) := by
  unfold Pipeline.unscopedRest
  refine bigSep_congr fun b hb => ?_
  have hb' := (Finset.mem_sdiff.mp hb).2
  beta_reduce
  rw [Wx_off m c b (fun h => hb' (h ▸ Finset.mem_image.mpr ⟨7, Finset.mem_univ _, rfl⟩))
    (fun h => hb' (h ▸ Finset.mem_image.mpr ⟨8, Finset.mem_univ _, rfl⟩))]

/-- The pipeline's arrays after the last point: every input's array at its entry contents, the two results' arrays at
    what the write-backs left. -/
private theorem arrays_exit (c : Dev nD) :
    ((dats m 0 c).arrays ((dats m 0 c).arrAt · cfg0.N) : sProp 𝕄)
      = iprop((((c : Thread nD τ).loc main_v0) ↦{fullShare.left} V m c main_v0) ∗ (((c : Thread nD τ).loc main_v0) ↦{fullShare.right} V m c main_v0)
          ∗ (((c : Thread nD τ).loc main_v6) ↦{fullShare} V m c main_v6) ∗ (((c : Thread nD τ).loc main_v7) ↦{fullShare} V m c main_v7)
          ∗ (((c : Thread nD τ).loc main_v3) ↦{fullShare} V m c main_v3) ∗ (((c : Thread nD τ).loc main_v2) ↦{fullShare} V m c main_v2)
          ∗ (((c : Thread nD τ).loc main_v8) ↦{fullShare} V m c main_v8)
          ∗ (((c : Thread nD τ).loc main_v9_0) ↦{fullShare} (dats m 0 c).arrAt 7 cfg0.N)
          ∗ (((c : Thread nD τ).loc main_v9_1) ↦{fullShare} (dats m 0 c).arrAt 8 cfg0.N)) := by
  rw [arrays_list]
  exact congrArg₂ BI.sep (congrArg (fun f => (((c : Thread nD τ).loc main_v0) ↦{fullShare.left} f : sProp 𝕄)) (arrN_in m c 0 rfl))
    (congrArg₂ BI.sep (congrArg (fun f => (((c : Thread nD τ).loc main_v0) ↦{fullShare.right} f : sProp 𝕄)) (arrN_in m c 1 rfl))
    (congrArg₂ BI.sep (congrArg (fun f => (((c : Thread nD τ).loc main_v6) ↦{fullShare} f : sProp 𝕄)) (arrN_in m c 2 rfl))
    (congrArg₂ BI.sep (congrArg (fun f => (((c : Thread nD τ).loc main_v7) ↦{fullShare} f : sProp 𝕄)) (arrN_in m c 3 rfl))
    (congrArg₂ BI.sep (congrArg (fun f => (((c : Thread nD τ).loc main_v3) ↦{fullShare} f : sProp 𝕄)) (arrN_in m c 4 rfl))
    (congrArg₂ BI.sep (congrArg (fun f => (((c : Thread nD τ).loc main_v2) ↦{fullShare} f : sProp 𝕄)) (arrN_in m c 5 rfl))
    (congrArg₂ BI.sep (congrArg (fun f => (((c : Thread nD τ).loc main_v8) ↦{fullShare} f : sProp 𝕄)) (arrN_in m c 6 rfl)) rfl))))))

/-- The unscoped buffers held at the exit contents: the eight arrays' buffers, then the bypassing rest. -/
private theorem held_exit (c : Dev nD) :
    (StableHlo.held (c : Thread nD τ) hostRefs (Wx m c) : sProp 𝕄)
      = iprop(iprop((((c : Thread nD τ).loc main_v0) ↦{fullShare} V m c main_v0) ∗ (((c : Thread nD τ).loc main_v6) ↦{fullShare} V m c main_v6)
          ∗ (((c : Thread nD τ).loc main_v7) ↦{fullShare} V m c main_v7) ∗ (((c : Thread nD τ).loc main_v3) ↦{fullShare} V m c main_v3)
          ∗ (((c : Thread nD τ).loc main_v2) ↦{fullShare} V m c main_v2) ∗ (((c : Thread nD τ).loc main_v8) ↦{fullShare} V m c main_v8)
          ∗ (((c : Thread nD τ).loc main_v9_0) ↦{fullShare} (dats m 0 c).arrAt 7 cfg0.N)
          ∗ (((c : Thread nD τ).loc main_v9_1) ↦{fullShare} (dats m 0 c).arrAt 8 cfg0.N)) ∗ Zr m c) := by
  rw [← unscopedBufs_eq_held c (Wx m c),
    Pipeline.unscopedBufs_split₀ cfgs 0 winFacts₀0.arr_unscoped c (fun b => Wx m c (Proc.devRef .tc b)), arrBufs_list, rest_Wx,
    Wx_off m c main_v0 (by decide) (by decide), Wx_off m c main_v6 (by decide) (by decide),
    Wx_off m c main_v7 (by decide) (by decide), Wx_off m c main_v3 (by decide) (by decide),
    Wx_off m c main_v2 (by decide) (by decide), Wx_off m c main_v8 (by decide) (by decide), Wx_7 m c, Wx_8 m c]

/-- ENTRY, the buffers' part: the embeddings' buffer split in its two halves, one per window on it; every other array
    whole; the rest bypassing. -/
private theorem entry_core (c : Dev nD) :
    (StableHlo.held (c : Thread nD τ) hostRefs (V0 m c) : sProp 𝕄)
      ⊢ iprop((dats m 0 c).arrays ((dats m 0 c).arrAt · 0) ∗ Zr m c) := by
  rw [← unscopedBufs_eq_held c (V0 m c),
    Pipeline.unscopedBufs_split₀ cfgs 0 winFacts₀0.arr_unscoped c (fun b => V0 m c (Proc.devRef .tc b)), arrBufs_list,
    show ((dats m 0 c).arrAt · 0) = fun w => V m c (Pipeline.arrRef spec0 w) from
      funext fun w => (show (dats m 0 c).arrAt w 0 = (dats m 0 c).A w from rfl).trans (A_eq m c w),
    arrays_list]
  iintro ⟨⟨H0, H6, H7, H3, H2, H8, H90, H91⟩, HZ⟩
  ihave H0 := (pointsTo_share (PosShare.mem_left_op_right fullShare)).1 $$ H0
  icases H0 with ⟨H0l, H0r⟩
  isplitr [HZ]
  · isplitl [H0l]; · iexact H0l
    isplitl [H0r]; · iexact H0r
    isplitl [H6]; · iexact H6
    isplitl [H7]; · iexact H7
    isplitl [H3]; · iexact H3
    isplitl [H2]; · iexact H2
    isplitl [H8]; · iexact H8
    isplitl [H90]; · iexact H90
    iexact H91
  iexact HZ

/-- EXIT, the buffers' part: the two halves of the embeddings' buffer, at the same contents, rejoin. -/
private theorem exit_core (c : Dev nD) :
    iprop((dats m 0 c).arrays ((dats m 0 c).arrAt · cfg0.N) ∗ Zr m c)
      ⊢ (StableHlo.held (c : Thread nD τ) hostRefs (Wx m c) : sProp 𝕄) := by
  rw [arrays_exit, held_exit]
  iintro ⟨⟨H0l, H0r, H6, H7, H3, H2, H8, H90, H91⟩, HZ⟩
  ihave H0 := (pointsTo_share (PosShare.mem_left_op_right fullShare)).2 $$ [H0l H0r]
  · isplitl [H0l] <;> iassumption
  isplitr [HZ]
  · isplitl [H0]; · iexact H0
    isplitl [H6]; · iexact H6
    isplitl [H7]; · iexact H7
    isplitl [H3]; · iexact H3
    isplitl [H2]; · iexact H2
    isplitl [H8]; · iexact H8
    isplitl [H90]; · iexact H90
    iexact H91
  iexact HZ

/-! ## The region -/

set_option backward.isDefEq.respectTransparency.types false in
/-- THE REGION: entered from the unscoped buffers at the contents the third stretch left, the embeddings' buffer
    split in two halves for the two windows on it; left with the two results' arrays at what the write-backs left. -/
private def reg0 : Pipeline.RegionSeg (pcfgs (F := F)) adm (dats (F := F) m) () defs₀ Variants.none Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) hostRefs (StableHlo.after hostOps0_2 (Vc m c)) ∗ R c)
  post c := iprop(StableHlo.held (c : Thread nD τ) hostRefs (Wx m c) ∗ R c)
  X c := iprop(∃ r, prngReg c r)
  Y c := iprop(∃ r, prngReg c r)
  Z c := Zr m c
  hentry c := by
    rw [← V0_eq]
    iintro ⟨⟨Hh, HO, Hp⟩, -, -⟩
    ihave Ha := (entry_core m c) $$ Hh
    icases Ha with ⟨Ha, HZ⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩
      iexists Wt
      isplitr; · ipureintro; exact fun _ _ => Or.inl trivial
      iexact HO
    isplitl [Hp]; · iexact Hp
    iexact HZ
  hin c :=
    (show _ ⊢ Pipeline.ΦA spec0 c from by
      unfold Pipeline.ΦA
      iintro ⟨Hp, -, Hr⟩
      isplitl [Hr] <;> iassumption).trans (Hand.hin m c)
  hout c :=
    (Hand.hout m c).trans (by
      rw [Pipeline.ownSems0_none]; unfold Pipeline.ΦA
      iintro ⟨Hr, Hp⟩
      isplitl [Hp]; · iexact Hp
      isplitr; · iempintro
      iexact Hr)
  hexit c := by
    iintro ⟨Ha, HO, Hp, HZ⟩
    ihave Hh := (exit_core m c) $$ [Ha HZ]
    · isplitl [Ha] <;> iassumption
    imodintro
    isplitl [Hh]; · iexact Hh
    isplitl [HO]
    · unfold Pipeline.Dat.owesAt Pipeline.owesWithin
      icases HO with ⟨%Wt, -, HO⟩
      iexists Wt; iexact HO
    iexact Hp

/-- @main as its six segments. -/
private abbrev segs : List (Pipeline.Seg (pcfgs (F := F)) adm (dats (F := F) m) () defs₀ Variants.none Lz lvz) :=
  [ .host (hseg hostOps0 hostOps0_sub fresh0 (Va m)),
    .host (hseg hostOps0_1 hostOps0_1_sub fresh0_1 (Vb m)),
    .host (hseg hostOps0_2 hostOps0_2_sub fresh0_2 (Vc m)),
    .region (reg0 m),
    .host (hseg hostOps1 hostOps1_sub fresh1 (Wx m)),
    .host (hseg hostOps1_1 hostOps1_1_sub fresh1_1 (Vd m)) ]

set_option backward.isDefEq.respectTransparency.types false in
/-- THE RUN. Every weakly fair execution of @main terminates, faulting nowhere, and on each core the unscoped buffers
    end at the later host operations applied to a valuation `W` that is the region-entry contents except at the two
    results, which hold what the pipeline's write-backs left. -/
theorem run_main : θ_run defs (onTc (τ := τ) (main (F := F))) ⟨m, fun _ => 0, ρ⟩ (fun r => ∀ c : Dev nD,
    ∃ W : Valuation τ sig (Elt F),
      W (Proc.devRef .tc (Pipeline.arrRef spec0 7)) = (dats m 0 c).arrAt 7 cfg0.N
      ∧ W (Proc.devRef .tc (Pipeline.arrRef spec0 8)) = (dats m 0 c).arrAt 8 cfg0.N
      ∧ (∀ b : Ref sig .tc, b ≠ main_v9_0 → b ≠ main_v9_1 → W (Proc.devRef .tc b) = V m c b)
      ∧ ∀ b : Ref sig .tc, b.isScoped = false →
          r.2.mem ((c.tc : Thread nD τ).loc b) = StableHlo.after postOps W (Proc.devRef .tc b)) :=
  Pipeline.θ_run_regions_kit (pcfgs (F := F)) adm (dats (F := F) m) () cellOf_inj EP defs₀ Variants.none Lz lvz m ρ main (segs m)
    (fun c Q => by rw [main_chain, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (Va m c) ∗ R c))
    (Tₙ := fun c => StableHlo.held (c : Thread nD τ) hostRefs (StableHlo.after hostOps1_1 (Vd m c)))
    (hch := ⟨fun _ => .rfl, fun _ => .rfl, fun _ => .rfl, fun _ => .rfl, fun _ => .rfl, fun _ => .rfl, fun c => by
      show iprop(StableHlo.held (c : Thread nD τ) hostRefs (StableHlo.after hostOps1_1 (Vd m c)) ∗ R c) ⊢ _
      iintro ⟨Hh, HO, -⟩
      isplitl [Hh] <;> iassumption⟩)
    (hinit := by
      refine Pipeline.initEach Lz lvz fun c => ?_
      rw [show unscopedBufs c (fun b => m ((c : Thread nD τ).loc b)) = StableHlo.held (c : Thread nD τ) hostRefs (Va m c) from
        unscopedBufs_eq_held c (Va m c)]
      iintro ⟨⟨Hh, -, HO, -, Hp, -⟩, -⟩
      imodintro
      isplitl [Hh]; · iexact Hh
      isplitl [HO]; · iexists ∅; iexact HO
      iexists _; iexact Hp)
    (QY := fun c s => ∀ b : Ref sig .tc, b.isScoped = false →
      s.mem ((c.tc : Thread nD τ).loc b) = StableHlo.after postOps (Wx m c) (Proc.devRef .tc b))
    (hfin := fun c s' => by
      rw [← post_eq, ← unscopedBufs_eq_held]
      unfold unscopedBufs
      iintro ⟨Hh, HSI⟩
      ihave Hr := (pointsTo_read_all (Finset.univ.filter fun b : Ref sig .tc => ¬ b.isScoped) (fun b => (c.tc : Thread nD τ).loc b)
        (fun b => StableHlo.after postOps (Wx m c) (Proc.devRef .tc b)) s') $$ [Hh HSI]
      · isplitl [Hh] <;> iassumption
      icases Hr with ⟨%hr, HSI⟩
      imodintro
      isplitr
      · ipureintro
        exact fun b hb => hr b (Finset.mem_filter.mpr ⟨Finset.mem_univ _, by rw [hb]; exact Bool.false_ne_true⟩)
      iexact HSI)
    (hQ := fun s h c => ⟨Wx m c, Wx_7 m c, Wx_8 m c, Wx_off m c, h c⟩)

/-! ## What no host operation writes -/

/-- No operation of a stretch writes b: the stretch leaves b's contents. -/
private theorem keeps {ops : List (HloOp τ sig (Elt F))} {b : Ref sig .tc}
    (h : ops.Forall fun op => Proc.devRef (τ := τ) .tc b ∉ op.writes) (Vv : Valuation τ sig (Elt F)) :
    StableHlo.after ops Vv (Proc.devRef .tc b) = Vv (Proc.devRef .tc b) :=
  StableHlo.after_of_forall_not_mem ops Vv (List.forall_iff_forall_mem.mp h)

/-- Each operation writes its one result, which is another reference. -/
local macro "no_write" : tactic =>
  `(tactic| repeat' (first
    | apply And.intro
    | exact fun h => StableHlo.devRef_ne_of_ne (by decide) (Finset.mem_singleton.mp h)))

/-- A buffer none of the three earlier stretches writes enters the region as launched, -/
private theorem pre_keeps {b : Ref sig .tc}
    (h0 : (hostOps0 : List (HloOp τ sig (Elt F))).Forall fun op => Proc.devRef (τ := τ) .tc b ∉ op.writes)
    (h1 : (hostOps0_1 : List (HloOp τ sig (Elt F))).Forall fun op => Proc.devRef (τ := τ) .tc b ∉ op.writes)
    (h2 : (hostOps0_2 : List (HloOp τ sig (Elt F))).Forall fun op => Proc.devRef (τ := τ) .tc b ∉ op.writes)
    (c : Dev nD) : V m c b = m ((c : Thread nD τ).loc b) := by
  show StableHlo.after (List.flatten [hostOps0, hostOps0_1, hostOps0_2]) (Va m c) (Proc.devRef .tc b) = _
  rw [List.flatten_cons, StableHlo.after_append, List.flatten_cons, StableHlo.after_append, List.flatten_cons,
    List.flatten_nil, List.append_nil, keeps h2, keeps h1, keeps h0]

/-- and one none of the two later stretches writes ends as the region left it. -/
private theorem post_keeps {b : Ref sig .tc}
    (h1 : (hostOps1 : List (HloOp τ sig (Elt F))).Forall fun op => Proc.devRef (τ := τ) .tc b ∉ op.writes)
    (h2 : (hostOps1_1 : List (HloOp τ sig (Elt F))).Forall fun op => Proc.devRef (τ := τ) .tc b ∉ op.writes)
    (Wv : Valuation τ sig (Elt F)) : StableHlo.after postOps Wv (Proc.devRef .tc b) = Wv (Proc.devRef .tc b) := by
  show StableHlo.after (List.flatten [hostOps1, hostOps1_1]) Wv (Proc.devRef .tc b) = _
  rw [List.flatten_cons, StableHlo.after_append, List.flatten_cons, List.flatten_nil, List.append_nil, keeps h2, keeps h1]

/-- No host operation writes the first argument: it enters the region as launched, -/
theorem V_arg0 (c : Dev nD) : V m c main_arg0 = m ((c.tc : Thread nD τ).loc main_arg0) :=
  pre_keeps m (by no_write) (by no_write) (by no_write) c

/-- and so does the second; -/
theorem V_arg1 (c : Dev nD) : V m c main_arg1 = m ((c.tc : Thread nD τ).loc main_arg1) :=
  pre_keeps m (by no_write) (by no_write) (by no_write) c

/-- the later stretches leave the first argument as the region left it, -/
theorem post_arg0 (W : Valuation τ sig (Elt F)) :
    StableHlo.after postOps W (Proc.devRef .tc main_arg0) = W (Proc.devRef .tc main_arg0) :=
  post_keeps (by no_write) (by no_write) W

/-- and the second. -/
theorem post_arg1 (W : Valuation τ sig (Elt F)) :
    StableHlo.after postOps W (Proc.devRef .tc main_arg1) = W (Proc.devRef .tc main_arg1) :=
  post_keeps (by no_write) (by no_write) W

/-- The frame: the program runs and leaves both argument arrays as they were (no host operation writes them, and the
    region only reads through its windows). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨Wv, -, -, hoff, hall⟩ := h c
    refine ⟨?_, ?_⟩
    · rw [hall main_arg0 rfl, post_arg0 Wv, hoff main_arg0 (by decide) (by decide)]
      exact V_arg0 m c
    · rw [hall main_arg1 rfl, post_arg1 Wv, hoff main_arg1 (by decide) (by decide)]
      exact V_arg1 m c) (run_main m ρ)

end Cert.KernelIdeal.Hand

end
-- ==== Proof.KVArr.lean ====
/-
  The two results after the run: entry i of each is what the corresponding accumulator held after the last column
  block of row block i (grid point 4 i + 3), the only point of that row block at which the result's word is written
  back; the eight row blocks write eight different entries.
-/
import proofs.«429911_j70497593196919_3_alg».proof.Proof.KData
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

open Cert.KernelIdeal.Hand

variable {F : FTy → Type} [FloatOps F]
variable (m : (ℓ : Loc nD τ sig) → Buf (Elt F) ℓ) (c : Dev nD)

/-- A one-by-one block has a single index. -/
private theorem idx11_eq (a b : S1x1.Idx) : a = b :=
  funext fun d => Fin.ext <| match d with
    | ⟨0, _⟩ => by show (a 0).val = (b 0).val; have ha : (a 0).val < 1 := (a 0).isLt; have hb : (b 0).val < 1 := (b 0).isLt; omega
    | ⟨1, _⟩ => by show (a 1).val = (b 1).val; have ha : (a 1).val < 1 := (a 1).isLt; have hb : (b 1).val < 1 := (b 1).isLt; omega

/-- The accumulators after a point depend on the point's number only. -/
private theorem scr_congr {n n' : ℕ} (e : n = n') (h : n < cfg0.N) (h' : n' < cfg0.N) : scr m c n h = scr m c n' h' := by
  subst e; rfl

/-- The two results' windows sit, at grid point t, on row block t / 4 and on the one block of the two unit axes. -/
private theorem idx7 : ∀ t : Fin cfg0.N, win0_7.index t (0 : Fin 3) = t.val / 4 ∧ win0_7.index t (1 : Fin 3) = 0
    ∧ win0_7.index t (2 : Fin 3) = 0 :=
  (by decide +kernel : ∀ t : Fin grid0.N, _)
private theorem idx8 : ∀ t : Fin cfg0.N, win0_8.index t (0 : Fin 3) = t.val / 4 ∧ win0_8.index t (1 : Fin 3) = 0
    ∧ win0_8.index t (2 : Fin 3) = 0 :=
  (by decide +kernel : ∀ t : Fin grid0.N, _)

/-- The first result as one function of its index: entry (i, ·, ·) is the first accumulator after point 4 i + 3. -/
private abbrev G7 : S8x1x1.Idx → F .f32 := fun j =>
  (scr m c (4 * (j 0).val + 3) (lt_of_lt_of_eq (by have : (j 0).val < 8 := (j 0).isLt; omega : 4 * (j 0).val + 3 < 32) N_0.symm)).1 (ix2 0 0)
/-- The second result likewise, from the second accumulator. -/
private abbrev G8 : S8x1x1.Idx → F .f32 := fun j =>
  (scr m c (4 * (j 0).val + 3) (lt_of_lt_of_eq (by have : (j 0).val < 8 := (j 0).isLt; omega : 4 * (j 0).val + 3 < 32) N_0.symm)).2 (ix2 0 0)

/-- What a row block's last point writes back into the first result is that result's function read through the
    point's block: the re-laid accumulator has one entry, and 4 (t / 4) + 3 = t when t ≡ 3 (mod 4). -/
private theorem flushed7_eq (t : Fin cfg0.N) (hf : (cfg0.win 7).flush t = true) :
    (dats m 0 c).flushed 7 t = ((cfg0.win 7).blk t).view.read (Elt F) (G7 m c) := by
  have h3 : t.val % 4 = 3 := (flush0_7 t).mp hf
  obtain ⟨e0, -, -⟩ := idx7 t
  show (cfg0.win 7).cut (grid0.coords t) ((dats m 0 c).after 7 t) = _
  rw [after0_7]
  funext j
  rw [View.read_apply]
  have hj : (j 0).val < 1 := (j 0).isLt
  have hv : ((((cfg0.win 7).blk t).view.emb j) 0).val = win0_7.index t 0 * 1 + 1 * (j 0).val := rfl
  have hn : 4 * ((((cfg0.win 7).blk t).view.emb j) 0).val + 3 = t.val := by rw [hv, e0]; omega
  show k0_pay3 (scr m c t.val t.isLt).1 j = G7 m c (((cfg0.win 7).blk t).view.emb j)
  unfold k0_pay3 shapeCast
  exact (congrArg (scr m c t.val t.isLt).1 (idx11_eq _ _)).trans
    (congrArg (fun p : Vec F S1x1 .f32 × Vec F S1x1 .f32 => p.1 (ix2 0 0)) (scr_congr m c hn _ _)).symm

/-- What a row block's last point writes back into the second result is that result's function read through the
    point's block: the re-laid accumulator has one entry, and 4 (t / 4) + 3 = t when t ≡ 3 (mod 4). -/
private theorem flushed8_eq (t : Fin cfg0.N) (hf : (cfg0.win 8).flush t = true) :
    (dats m 0 c).flushed 8 t = ((cfg0.win 8).blk t).view.read (Elt F) (G8 m c) := by
  have h3 : t.val % 4 = 3 := (flush0_8 t).mp hf
  obtain ⟨e0, -, -⟩ := idx8 t
  show (cfg0.win 8).cut (grid0.coords t) ((dats m 0 c).after 8 t) = _
  rw [after0_8]
  funext j
  rw [View.read_apply]
  have hj : (j 0).val < 1 := (j 0).isLt
  have hv : ((((cfg0.win 8).blk t).view.emb j) 0).val = win0_8.index t 0 * 1 + 1 * (j 0).val := rfl
  have hn : 4 * ((((cfg0.win 8).blk t).view.emb j) 0).val + 3 = t.val := by rw [hv, e0]; omega
  show k0_pay4 (scr m c t.val t.isLt).2 j = G8 m c (((cfg0.win 8).blk t).view.emb j)
  unfold k0_pay4 shapeCast
  exact (congrArg (scr m c t.val t.isLt).2 (idx11_eq _ _)).trans
    (congrArg (fun p : Vec F S1x1 .f32 × Vec F S1x1 .f32 => p.2 (ix2 0 0)) (scr_congr m c hn _ _)).symm

theorem arr7 (i : Fin 8) :
    ((dats m 0 c).arrAt 7 cfg0.N : S8x1x1.Idx → F .f32) (ix3 i 0 0) = (scr m c (4 * i.val + 3) (lt_of_lt_of_eq (by omega : 4 * i.val + 3 < 32) N_0.symm)).1 (ix2 0 0) := by
  have hi : i.val < 8 := i.isLt
  let t : Fin cfg0.N := ⟨4 * i.val + 3, lt_of_lt_of_eq (by omega : 4 * i.val + 3 < 32) N_0.symm⟩
  have ht : t.val = 4 * i.val + 3 := rfl
  have hf : (cfg0.win 7).flush t = true := (flush0_7 t).mpr (by rw [ht]; omega)
  obtain ⟨e0, e1, e2⟩ := idx7 t
  refine (dats m 0 c).arrAt_apply_of_mem 7 (G7 m c) (flushed7_eq m c) cfg0.N t (ix3 i 0 0) t.isLt hf ?_
  show ix3 i 0 0 ∈ ((View.whole main_v9_0).slice (win0_7.rect t)).set
  rw [View.set_slice_whole, Rect.mem_set_unit]
  intro a
  match a with
  | ⟨0, _⟩ => show win0_7.index t 0 * 1 ≤ i.val ∧ i.val < win0_7.index t 0 * 1 + 1; rw [e0, ht]; omega
  | ⟨1, _⟩ => show win0_7.index t 1 * 1 ≤ 0 ∧ 0 < win0_7.index t 1 * 1 + 1; rw [e1]; omega
  | ⟨2, _⟩ => show win0_7.index t 2 * 1 ≤ 0 ∧ 0 < win0_7.index t 2 * 1 + 1; rw [e2]; omega

theorem arr8 (i : Fin 8) :
    ((dats m 0 c).arrAt 8 cfg0.N : S8x1x1.Idx → F .f32) (ix3 i 0 0) = (scr m c (4 * i.val + 3) (lt_of_lt_of_eq (by omega : 4 * i.val + 3 < 32) N_0.symm)).2 (ix2 0 0) := by
  have hi : i.val < 8 := i.isLt
  let t : Fin cfg0.N := ⟨4 * i.val + 3, lt_of_lt_of_eq (by omega : 4 * i.val + 3 < 32) N_0.symm⟩
  have ht : t.val = 4 * i.val + 3 := rfl
  have hf : (cfg0.win 8).flush t = true := (flush0_8 t).mpr (by rw [ht]; omega)
  obtain ⟨e0, e1, e2⟩ := idx8 t
  refine (dats m 0 c).arrAt_apply_of_mem 8 (G8 m c) (flushed8_eq m c) cfg0.N t (ix3 i 0 0) t.isLt hf ?_
  show ix3 i 0 0 ∈ ((View.whole main_v9_1).slice (win0_8.rect t)).set
  rw [View.set_slice_whole, Rect.mem_set_unit]
  intro a
  match a with
  | ⟨0, _⟩ => show win0_8.index t 0 * 1 ≤ i.val ∧ i.val < win0_8.index t 0 * 1 + 1; rw [e0, ht]; omega
  | ⟨1, _⟩ => show win0_8.index t 1 * 1 ≤ 0 ∧ 0 < win0_8.index t 1 * 1 + 1; rw [e1]; omega
  | ⟨2, _⟩ => show win0_8.index t 2 * 1 ≤ 0 ∧ 0 < win0_8.index t 2 * 1 + 1; rw [e2]; omega

end Cert.KernelIdeal.HandValue

end
-- ==== Proof.Spec.lean ====
/-
  What both programs compute, as mathematics over the reals.

  The inputs are 8192 points of ℝ¹⁶ (16 sequences of 512, read in row-major order) and for each point a codon
  index in 0 … 63. With `fam` the 64 × 64 same-family table, the loss is built from three sums over all ordered
  pairs (r, s) of points:

      S_d  = Σ dist(r, s),      S_ds = Σ dist(r, s) · fam(ix r, ix s),      S_s = Σ fam(ix r, ix s),

  where dist(r, s) = √max(|x_r|² + |x_s|² − 2 ⟨x_r, x_s⟩, 0) is the Euclidean distance computed from the squared
  norms and the inner product, and then

      loss = max( S_ds / (S_s + ε) − ½ · (S_d − S_ds) / ((N − S_s) + ε) + 1 , 0 ),      N = 8192².

  The closing arithmetic (`closing`) is the same expression in both programs, on the same literal words, so it is
  carried as one function of the three sums and never opened.
-/
import Idealize.ShloMosaic.PureOps.Ideal
import Idealize.ShloMosaic.Lib.ValueIdx

noncomputable section

namespace Cert.Spec

open Idealize.ShloMosaic

abbrev S16x512x16 : Shape := ⟨3, ![16, 512, 16]⟩
abbrev S16x512 : Shape := ⟨2, ![16, 512]⟩
abbrev S_ : Shape := ⟨0, ![]⟩

/-- Point `r` of the 8192 (sequence `r / 512`, position `r % 512`), coordinate `k`, of the embeddings array. -/
def embOf (a : FVec Ideal S16x512x16 .f32) (r : Fin 8192) (k : Fin 16) : EReal :=
  a (ValueIdx.ix3 (⟨r.val / 512, by omega⟩ : Fin 16) (⟨r.val % 512, Nat.mod_lt _ (by norm_num)⟩ : Fin 512) k)

/-- Point `r`'s codon index word. -/
def idxOf (a : IVec S16x512 32) (r : Fin 8192) : BitVec 32 :=
  a (ValueIdx.ix2 (⟨r.val / 512, by omega⟩ : Fin 16) (⟨r.val % 512, Nat.mod_lt _ (by norm_num)⟩ : Fin 512))

section Reals

variable (x : Fin 8192 → Fin 16 → ℝ) (ix : Fin 8192 → Fin 64) (fam : Fin 64 → Fin 64 → ℝ)

/-- |x_r|². -/
def sqn (r : Fin 8192) : ℝ := ∑ k : Fin 16, x r k * x r k
/-- ⟨x_r, x_s⟩. -/
def dotp (r s : Fin 8192) : ℝ := ∑ k : Fin 16, x r k * x s k
/-- The distance between points `r` and `s`, from the norms and the inner product, clamped at zero before the root. -/
def dist (r s : Fin 8192) : ℝ := Real.sqrt (max (sqn x r + sqn x s - 2 * dotp x r s) 0)

/-- Σ over all ordered pairs of the distance. -/
def sumDist : ℝ := ∑ r : Fin 8192, ∑ s : Fin 8192, dist x r s
/-- Σ over all ordered pairs of the distance times the same-family indicator. -/
def sumDistSame : ℝ := ∑ r : Fin 8192, ∑ s : Fin 8192, dist x r s * fam (ix r) (ix s)
/-- Σ over all ordered pairs of the same-family indicator. -/
def sumSame : ℝ := ∑ r : Fin 8192, ∑ s : Fin 8192, fam (ix r) (ix s)

end Reals

/-- The loss from the three sums, on the extended reals, with the programs' own literal words:
    ε = f32(1e-10), N = 2²⁶, ½, 1, 0. -/
def closing (sd sds ss : EReal) : EReal :=
  max ((Ideal.div sds (ss + Ideal.ofBits .f32 0x2EDBE6FF#32)
        - Ideal.ofBits .f32 0x3F000000#32 * Ideal.div (sd - sds) ((Ideal.ofBits .f32 0x4C800000#32 - ss) + Ideal.ofBits .f32 0x2EDBE6FF#32))
       + Ideal.ofBits .f32 0x3F800000#32)
    (Ideal.ofBits .f32 0x00000000#32)

/-- The inputs are finite and the indices in range: the embeddings are (coercions of) reals `x`, and every index word
    is the numeral of some `ix r < 64`. -/
structure Decoded (a0 : FVec Ideal S16x512x16 .f32) (a1 : IVec S16x512 32) where
  x : Fin 8192 → Fin 16 → ℝ
  ix : Fin 8192 → Fin 64
  hx : ∀ r k, embOf a0 r k = ((x r k : ℝ) : EReal)
  hix : ∀ r, idxOf a1 r = BitVec.ofNat 32 (ix r).val

/-- The loss as a function of decoded inputs and the table. -/
def loss (fam : Fin 64 → Fin 64 → ℝ) {a0 : FVec Ideal S16x512x16 .f32} {a1 : IVec S16x512 32} (d : Decoded a0 a1) : EReal :=
  closing ((sumDist d.x : ℝ) : EReal) ((sumDistSame d.x d.ix fam : ℝ) : EReal) ((sumSame d.ix fam : ℝ) : EReal)

end Cert.Spec

end
-- ==== Proof.Math.lean ====
/-
  The arithmetic both programs' value proofs lean on, over the reals, with no program in sight: sums over all
  8192 points split into row blocks and column blocks, 128 equal lanes summed and scaled back, the same-family
  lookup written as products of one-hot rows with the table, the count identity for the total of the lookup,
  and the guarded square root.
-/
import proofs.«429911_j70497593196919_3_alg».proof.Proof.Spec
import Mathlib.Algebra.BigOperators.Fin
import Mathlib.Algebra.BigOperators.Ring.Finset
import Mathlib.Analysis.SpecialFunctions.Pow.Real
import Mathlib.Data.EReal.Operations

noncomputable section

namespace Cert.Math

open Cert.Spec

/-- The coercion of a finite real sum into the extended reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- 128 equal lanes summed, then scaled by 1/128, give the lane back. -/
theorem lanes (y : ℝ) : (∑ _l : Fin 128, y) * (1 / 128) = y := by
  rw [Finset.sum_const, Finset.card_univ, Fintype.card_fin, nsmul_eq_mul]
  push_cast
  ring

/-- The same on the extended reals, for a finite lane. -/
theorem lanes_ereal (y : ℝ) : (∑ _l : Fin 128, ((y : ℝ) : EReal)) * (((1 / 128 : ℝ) : ℝ) : EReal) = ((y : ℝ) : EReal) := by
  rw [← coe_sum Finset.univ (fun _ : Fin 128 => y), ← EReal.coe_mul, lanes]

/-- `m` blocks of `n` exhaust `m * n` points: the pair (block, place in the block) runs once over every point. -/
private theorem blocks {m n N : ℕ} (h : m * n = N) (g : Fin N → ℝ)
    (hb : ∀ (i : Fin m) (p : Fin n), n * i.val + p.val < N) :
    ∑ i : Fin m, ∑ p : Fin n, g ⟨n * i.val + p.val, hb i p⟩ = ∑ r : Fin N, g r := by
  subst h
  rw [← Fintype.sum_prod_type']
  refine Fintype.sum_equiv finProdFinEquiv _ _ ?_
  rintro ⟨i, p⟩
  refine congrArg g (Fin.ext ?_)
  simp only [finProdFinEquiv_apply_val]
  omega

/-- 8 row blocks of 1024 exhaust the 8192 points. -/
theorem rowBlocks (g : Fin 8192 → ℝ) :
    ∑ i : Fin 8, ∑ p : Fin 1024, g ⟨1024 * i.val + p.val, by omega⟩ = ∑ r : Fin 8192, g r := by
  exact blocks (m := 8) (n := 1024) (by norm_num) g (fun i p => by omega)

/-- 4 column blocks of 2048 exhaust the 8192 points. -/
theorem colBlocks (g : Fin 8192 → ℝ) :
    ∑ j : Fin 4, ∑ q : Fin 2048, g ⟨2048 * j.val + q.val, by omega⟩ = ∑ s : Fin 8192, g s := by
  exact blocks (m := 4) (n := 2048) (by norm_num) g (fun j q => by omega)

/-- A sum over all ordered pairs, tile by tile: row block, column block, row in the block, column in the block. -/
theorem tiles (f : Fin 8192 → Fin 8192 → ℝ) :
    ∑ i : Fin 8, ∑ j : Fin 4, ∑ p : Fin 1024, ∑ q : Fin 2048, f ⟨1024 * i.val + p.val, by omega⟩ ⟨2048 * j.val + q.val, by omega⟩
      = ∑ r : Fin 8192, ∑ s : Fin 8192, f r s := by
  rw [← rowBlocks (fun r => ∑ s : Fin 8192, f r s)]
  refine Finset.sum_congr rfl (fun i _ => ?_)
  rw [Finset.sum_comm]
  refine Finset.sum_congr rfl (fun p _ => ?_)
  exact colBlocks (fun s => f ⟨1024 * i.val + p.val, by omega⟩ s)

/-- The table looked up at two indices is the product of the first index's one-hot row with the table, then with the
    second index's one-hot row. -/
theorem onehot_lookup (fam : Fin 64 → Fin 64 → ℝ) (a b : Fin 64) :
    ∑ k : Fin 64, (∑ l : Fin 64, (if a = l then (1 : ℝ) else 0) * fam l k) * (if b = k then (1 : ℝ) else 0) = fam a b := by
  simp only [ite_mul, one_mul, zero_mul, mul_ite, mul_one, mul_zero, Finset.sum_ite_eq, Finset.mem_univ, if_true]

/-- The total of the lookup over all ordered pairs of points, from the 64 counts of each index value. -/
theorem counts (ix : Fin 8192 → Fin 64) (fam : Fin 64 → Fin 64 → ℝ) :
    ∑ a : Fin 64, ∑ b : Fin 64, fam a b * ((∑ r : Fin 8192, if ix r = a then (1 : ℝ) else 0) * (∑ s : Fin 8192, if ix s = b then (1 : ℝ) else 0))
      = sumSame ix fam := by
  unfold sumSame
  simp_rw [Finset.sum_mul_sum, Finset.mul_sum]
  -- bring the two sums over points outside the two sums over index values
  conv_lhs =>
    enter [2, a]
    rw [Finset.sum_comm]
  rw [Finset.sum_comm]
  refine Finset.sum_congr rfl (fun r _ => ?_)
  conv_lhs =>
    enter [2, a]
    rw [Finset.sum_comm]
  rw [Finset.sum_comm]
  refine Finset.sum_congr rfl (fun s _ => ?_)
  -- only the index values of the two points survive
  simp only [ite_mul, one_mul, zero_mul, mul_ite, mul_one, mul_zero, Finset.sum_ite_eq, Finset.mem_univ, if_true]

/-- The root taken only where the argument is positive, with 0 elsewhere, is the root (of a non-negative number). -/
theorem sqrt_guarded (d : ℝ) (hd : 0 ≤ d) : (if 0 < d then Real.sqrt (if 0 < d then d else 1) else 0) = Real.sqrt d := by
  by_cases h : 0 < d
  · simp only [h, if_true]
  · have h0 : d = 0 := le_antisymm (not_lt.mp h) hd
    subst h0
    simp only [lt_irrefl, if_false, Real.sqrt_zero]

/-- The clamped squared distance is non-negative. -/
theorem d2_nonneg (x : Fin 8192 → Fin 16 → ℝ) (r s : Fin 8192) : 0 ≤ max (sqn x r + sqn x s - 2 * dotp x r s) 0 :=
  le_max_right _ _

end Cert.Math

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.KVPre.lean ====
/-
  What the region finds in its arrays, over the extended reals, when the inputs are finite and the indices in range:
  the embeddings as 8192 points of 16 coordinates, the squared norms as a column and as a row, the one-hot rows of the
  indices, the family rows (row `ix r` of the table), the matrix of ones, and the table itself. Each is read off the
  host operations before the region, one operation at a time, at an index.
-/
import proofs.«429911_j70497593196919_3_alg».proof.Proof.KData
import proofs.«429911_j70497593196919_3_alg».proof.Proof.Spec
import proofs.«429911_j70497593196919_3_alg».proof.Proof.Math
import proofs.«429911_j70497593196919_3_alg».proof.Proof.LibRowOps
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

open Cert.KernelIdeal.Hand

/-- The same-family table as real numbers: entry (a, b) is word 64 a + b of the printed constant. -/
def famK (a b : Fin 64) : ℝ := (Ideal.ofBits .f32 (lit0 ⟨64 * a.val + b.val, by omega⟩)).toReal

/-- Each of the 4096 words of the printed table is the pattern of 1 or the pattern of 0. -/
private theorem lit0_words : ∀ i : Fin 4096, lit0 i = 0x3F800000#32 ∨ lit0 i = 0x00000000#32 := by decide +kernel

/-- The f32 pattern 0x3F800000 denotes the real number 1. -/
private theorem ofBits_one_f32 : Ideal.ofBits .f32 0x3F800000#32 = ((1 : ℝ) : EReal) := by
  simp [Ideal.ofBits, Ideal.ieee, -EReal.coe_mul]; norm_num

/-- Every word of the table is the pattern of 1 or of 0, so its value is the real number `famK a b`. -/
theorem famK_coe (a b : Fin 64) : Ideal.ofBits .f32 (lit0 ⟨64 * a.val + b.val, by omega⟩) = ((famK a b : ℝ) : EReal) := by
  unfold famK
  rcases lit0_words ⟨64 * a.val + b.val, by omega⟩ with h | h
  · rw [h, ofBits_one_f32, EReal.toReal_coe]
  · rw [h, Ideal.ofBits_zero_f32, EReal.toReal_zero, EReal.coe_zero]

/-- The table as the array of the values its words denote, in row-major order. -/
private def tab : FVec Ideal S64x64 .f32 := fun i => Ideal.ofBits .f32 (lit0 (S64x64.rowMajor i))

/-- Entry (a, b) of that array is the real number `famK a b`. -/
private theorem tab_apply (a b : Fin 64) : tab (ix2 a b) = ((famK a b : ℝ) : EReal) := by
  show Ideal.ofBits .f32 (lit0 (S64x64.rowMajor (ix2 a b))) = _
  have hi : (S64x64.rowMajor (ix2 a b) : Fin 4096) = (⟨64 * a.val + b.val, by omega⟩ : Fin 4096) :=
    Fin.ext (by rw [Shape.rowMajor_val_two]; show a.val * 64 + b.val = 64 * a.val + b.val; omega)
  rw [hi]
  exact famK_coe a b

variable (m : (ℓ : Loc nD τ sig) → Buf (Elt Ideal) ℓ) (c : Dev nD)
  (d : Cert.Spec.Decoded (m ((c.tc : Thread nD τ).loc main_arg0)) (m ((c.tc : Thread nD τ).loc main_arg1)))

/-- The two argument arrays as the launch memory holds them. -/
private abbrev A0 : S16x512x16.Idx → EReal := m ((c.tc : Thread nD τ).loc main_arg0)
private abbrev A1 : S16x512.Idx → BitVec 32 := m ((c.tc : Thread nD τ).loc main_arg1)

/-- The table constant as the first host operation writes it. -/
private theorem e_cst : (V m c main_cst : S64x64.Idx → EReal) = tab := by
  dsimp only [V, V0, preOps]
  simp only [hostOps0, hostOps0_1, hostOps0_2, List.flatten_cons, List.flatten_nil, List.append_nil, List.cons_append, List.nil_append]
  after_results
  rfl

/-- The embeddings array after its reshape. -/
private theorem e_v0 : (V m c main_v0 : S8192x16.Idx → EReal) = shapeCast S8192x16 (A0 m c) shapeCasts_S16x512x16_S8192x16 := by
  dsimp only [V, V0, preOps]
  simp only [hostOps0, hostOps0_1, hostOps0_2, List.flatten_cons, List.flatten_nil, List.append_nil, List.cons_append, List.nil_append]
  after_results
  rfl

/-- The one-hot rows as the host operations build them: the index column broadcast along the rows, compared for equality
    with the column numbers, the bit widened to a float. -/
private def oneHot : FVec Ideal S8192x64 .f32 :=
  uitofp .f32 (cmpi .eq
    (broadcastInDim S8192x64 ![0, 1] bcast_S8192x1_S8192x64_0_1
      (broadcastInDim S8192x1 ![0] bcast_S8192_S8192x1_0 (shapeCast S8192 (A1 m c) shapeCasts_S16x512_S8192)))
    (broadcastInDim S8192x64 ![0, 1] bcast_S1x64_S8192x64_0_1 (iotaInDim S1x64 32 1)))

private theorem e_v2 : (V m c main_v2 : S8192x64.Idx → EReal) = oneHot m c := by
  dsimp only [V, V0, preOps]
  simp only [hostOps0, hostOps0_1, hostOps0_2, List.flatten_cons, List.flatten_nil, List.append_nil, List.cons_append, List.nil_append]
  after_results
  rfl

private theorem e_v3 : (V m c main_v3 : S8192x64.Idx → EReal)
    = Host.dotGeneral dot_S8192x64_S64x64_S8192x64_1_0_0_1_n_n (some .fp32) (oneHot m c) tab := by
  dsimp only [V, V0, preOps]
  simp only [hostOps0, hostOps0_1, hostOps0_2, List.flatten_cons, List.flatten_nil, List.append_nil, List.cons_append, List.nil_append]
  after_results
  rfl

/-- The squared norms as the host operations build them: the re-laid embeddings squared entrywise and summed along each row,
    from the constant 0. -/
private def sqnV : FVec Ideal S8192 .f32 :=
  Host.reduceAdd
    (mulf (shapeCast S8192x16 (A0 m c) shapeCasts_S16x512x16_S8192x16 : FVec Ideal S8192x16 .f32)
      (shapeCast S8192x16 (A0 m c) shapeCasts_S16x512x16_S8192x16))
    (constant S_ .f32 0x00000000#32) reducesTo_S8192x16_S8192_d1 h_S_

private theorem e_v6 : (V m c main_v6 : S8192x1.Idx → EReal) = shapeCast S8192x1 (sqnV m c) shapeCasts_S8192_S8192x1 := by
  dsimp only [V, V0, preOps]
  simp only [hostOps0, hostOps0_1, hostOps0_2, List.flatten_cons, List.flatten_nil, List.append_nil, List.cons_append, List.nil_append]
  after_results
  rfl

private theorem e_v7 : (V m c main_v7 : S1x8192.Idx → EReal) = shapeCast S1x8192 (sqnV m c) shapeCasts_S8192_S1x8192 := by
  dsimp only [V, V0, preOps]
  simp only [hostOps0, hostOps0_1, hostOps0_2, List.flatten_cons, List.flatten_nil, List.append_nil, List.cons_append, List.nil_append]
  after_results
  rfl

private theorem e_v8 : (V m c main_v8 : S2048x128.Idx → EReal)
    = broadcastInDim S2048x128 ![] bcast_S_S2048x128 (constant (F := Ideal) S_ .f32 0x3F800000#32) := by
  dsimp only [V, V0, preOps]
  simp only [hostOps0, hostOps0_1, hostOps0_2, List.flatten_cons, List.flatten_nil, List.append_nil, List.cons_append, List.nil_append]
  after_results

/-- The embeddings re-laid as 8192 × 16. -/
theorem V_v0 (r : Fin 8192) (k : Fin 16) : (V m c main_v0 : S8192x16.Idx → EReal) (ix2 r k) = ((d.x r k : ℝ) : EReal) := by
  rw [e_v0, ← d.hx r k]
  unfold Cert.Spec.embOf
  exact shapeCast_apply _ _ _ _ (by
    rw [Shape.rowMajor_val_three, Shape.rowMajor_val_two]
    show ((r.val / 512) * 512 + r.val % 512) * 16 + k.val = r.val * 16 + k.val
    omega)

/-- Row `r` of the squared norms is the sum of the squares of point `r`'s coordinates. -/
private theorem sqnV_apply (r : Fin 8192) : sqnV m c (ix1 r) = ((Cert.Spec.sqn d.x r : ℝ) : EReal) := by
  have hR : S8192x16.Reduces [1] S8192 := by decide
  show Ideal.hostReduceAdd reducesTo_S8192x16_S8192_d1
      (mulf (shapeCast S8192x16 (A0 m c) shapeCasts_S16x512x16_S8192x16 : FVec Ideal S8192x16 .f32)
        (shapeCast S8192x16 (A0 m c) shapeCasts_S16x512x16_S8192x16)) (Ideal.ofBits .f32 0x00000000#32) (ix1 r) = _
  rw [Ideal.hostReduceAdd_single _ hR, Ideal.ofBits_zero_f32, zero_add]
  unfold Cert.Spec.sqn
  rw [Cert.Math.coe_sum]
  refine Finset.sum_congr rfl fun k _ => ?_
  have hl : hR.lift (ix1 r) k = ix2 r k :=
    funext fun b => Fin.ext (by match b with | ⟨0, _⟩ => rfl | ⟨1, _⟩ => rfl)
  rw [hl]
  show shapeCast S8192x16 (A0 m c) shapeCasts_S16x512x16_S8192x16 (ix2 r k)
      * shapeCast S8192x16 (A0 m c) shapeCasts_S16x512x16_S8192x16 (ix2 r k) = _
  rw [← e_v0, V_v0 m c d r k, EReal.coe_mul]

/-- The squared norms as a column, -/
theorem V_v6 (r : Fin 8192) : (V m c main_v6 : S8192x1.Idx → EReal) (ix2 r 0) = ((Cert.Spec.sqn d.x r : ℝ) : EReal) := by
  rw [e_v6, ← sqnV_apply m c d r]
  exact shapeCast_apply _ _ _ _ (by
    rw [Shape.rowMajor_val_one, Shape.rowMajor_val_two]
    show r.val = r.val * 1 + 0
    omega)

/-- and as a row. -/
theorem V_v7 (s : Fin 8192) : (V m c main_v7 : S1x8192.Idx → EReal) (ix2 0 s) = ((Cert.Spec.sqn d.x s : ℝ) : EReal) := by
  rw [e_v7, ← sqnV_apply m c d s]
  exact shapeCast_apply _ _ _ _ (by
    rw [Shape.rowMajor_val_one, Shape.rowMajor_val_two]
    show s.val = 0 * 8192 + s.val
    omega)

/-- Entry (r, a) of the one-hot rows is the bit "point r's index word is the numeral a", as a number. -/
private theorem oneHot_apply (r : Fin 8192) (a : Fin 64) :
    oneHot m c (ix2 r a)
      = (((IntOp.cmpi .eq (Cert.Spec.idxOf (A1 m c) r) (BitVec.ofNat 32 a.val)).toNat : ℝ) : EReal) := by
  have h1 : broadcastInDim S8192x64 ![0, 1] bcast_S8192x1_S8192x64_0_1
      (broadcastInDim S8192x1 ![0] bcast_S8192_S8192x1_0 (shapeCast S8192 (A1 m c) shapeCasts_S16x512_S8192)) (ix2 r a)
      = Cert.Spec.idxOf (A1 m c) r := by
    have hb : ∀ v : S8192.Idx → BitVec 32, broadcastInDim S8192x64 ![0, 1] bcast_S8192x1_S8192x64_0_1
        (broadcastInDim S8192x1 ![0] bcast_S8192_S8192x1_0 v) (ix2 r a) = v (ix1 r) := by
      intro v
      simp only [broadcastInDim]
      congr 1
      funext b
      match b with
      | ⟨0, _⟩ => rfl
    refine Eq.trans (hb _) ?_
    unfold Cert.Spec.idxOf
    exact shapeCast_apply _ _ _ _ (by
      rw [Shape.rowMajor_val_two, Shape.rowMajor_val_one]
      show (r.val / 512) * 512 + r.val % 512 = r.val
      omega)
  have h2 : broadcastInDim S8192x64 ![0, 1] bcast_S1x64_S8192x64_0_1 (iotaInDim S1x64 32 1) (ix2 r a) = BitVec.ofNat 32 a.val := rfl
  show FloatOps.uitofp (F := Ideal) .f32 (IntOp.cmpi .eq
      (broadcastInDim S8192x64 ![0, 1] bcast_S8192x1_S8192x64_0_1
        (broadcastInDim S8192x1 ![0] bcast_S8192_S8192x1_0 (shapeCast S8192 (A1 m c) shapeCasts_S16x512_S8192)) (ix2 r a))
      (broadcastInDim S8192x64 ![0, 1] bcast_S1x64_S8192x64_0_1 (iotaInDim S1x64 32 1) (ix2 r a))) = _
  rw [h1, h2]
  rfl

/-- The one-hot rows: 1 at the point's index, 0 elsewhere. -/
theorem V_v2 (r : Fin 8192) (a : Fin 64) : (V m c main_v2 : S8192x64.Idx → EReal) (ix2 r a) = (((if d.ix r = a then (1 : ℝ) else 0) : ℝ) : EReal) := by
  rw [e_v2, oneHot_apply]
  have hw : Cert.Spec.idxOf (A1 m c) r = BitVec.ofNat 32 (d.ix r).val := d.hix r
  rw [hw]
  have hr := (d.ix r).isLt
  have ha := a.isLt
  show (((BitVec.ofBool (BitVec.ofNat 32 (d.ix r).val == BitVec.ofNat 32 a.val)).toNat : ℝ) : EReal) = _
  by_cases h : d.ix r = a
  · rw [if_pos h, h, beq_self_eq_true, show (BitVec.ofBool true).toNat = 1 from rfl, Nat.cast_one]
  · rw [if_neg h]
    have hne : BitVec.ofNat 32 (d.ix r).val ≠ BitVec.ofNat 32 a.val := by
      intro e
      apply h
      apply Fin.ext
      have e' := congrArg BitVec.toNat e
      simp only [BitVec.toNat_ofNat] at e'
      omega
    rw [beq_eq_false_iff_ne.mpr hne, show (BitVec.ofBool false).toNat = 0 from rfl, Nat.cast_zero]

/-- The family rows: the one-hot rows times the table pick row `ix r` of the table. -/
theorem V_v3 (r : Fin 8192) (k : Fin 64) : (V m c main_v3 : S8192x64.Idx → EReal) (ix2 r k) = ((famK (d.ix r) k : ℝ) : EReal) := by
  rw [e_v3]
  refine (Cert.LibRowOps.dotGeneral_plain_apply dot_S8192x64_S64x64_S8192x64_1_0_0_1_n_n rfl (some .fp32) (oneHot m c) tab r k).trans ?_
  have h1 : ∀ l : Fin 64, oneHot m c (ix2 r l) = (((if d.ix r = l then (1 : ℝ) else 0 : ℝ)) : EReal) := fun l => by
    rw [← e_v2]; exact V_v2 m c d r l
  rw [Finset.sum_congr rfl (fun l _ => by rw [h1 l, tab_apply l k, ← EReal.coe_mul]), ← Cert.Math.coe_sum]
  congr 1
  simp only [ite_mul, one_mul, zero_mul, Finset.sum_ite_eq, Finset.mem_univ, if_true]

/-- The matrix of ones. -/
theorem V_v8 (q : Fin 2048) (l : Fin 128) : (V m c main_v8 : S2048x128.Idx → EReal) (ix2 q l) = ((1 : ℝ) : EReal) := by
  rw [e_v8]
  show Ideal.ofBits .f32 0x3F800000#32 = _
  exact ofBits_one_f32

/-- The table. -/
theorem V_cst (a b : Fin 64) : (V m c main_cst : S64x64.Idx → EReal) (ix2 a b) = ((famK a b : ℝ) : EReal) := by
  rw [e_cst]
  exact tab_apply a b

end Cert.KernelIdeal.HandValue

end
-- ==== Proof.KVDist.lean ====
/-
  One tile of the distance matrix, entry by entry, over the extended reals when the blocks hold real numbers: the
  inner products of 1024 row points with 2048 column points (16 coordinates each), combined with the squared norms
  into the clamped squared distance, its root, and the root times the same-family indicator (the inner product of a
  family row with a one-hot row, 64 entries each).
-/
import proofs.«429911_j70497593196919_3_alg».proof.Proof.Gen.KernelIdeal.Skeleton
import proofs.«429911_j70497593196919_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

/-! ## A product with the right operand contracted on its last axis -/

section RowsByRows
variable {M K N : ℕ}

private theorem rr_lhs_0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

private theorem rr_lhs_1 (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

private theorem rr_rhs_0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

private theorem rr_rhs_1 (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- The contraction at `(p, q)`: the sum over `k : Fin K` of `l (p, k) * r (q, k)`. -/
private theorem rr_sum (l : (⟨2, ![M, K]⟩ : Shape).Idx → EReal) (r : (⟨2, ![N, K]⟩ : Shape).Idx → EReal) (p : Fin M) (q : Fin N) :
    ∑ c : (DotDims.transposedRhs M K N).contr.Idx,
        l ((DotDims.transposedRhs M K N).lhsIdx (ix2 p q) c) * r ((DotDims.transposedRhs M K N).rhsIdx (ix2 p q) c)
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rr_lhs_0 _ _
      | ⟨1, _⟩ => exact (rr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rr_rhs_0 _ _
      | ⟨1, _⟩ => exact (rr_rhs_1 _ _).trans hk)
  rw [el, er]

/-- A product into the zero accumulator, for a dimension record that contracts axis 1 of both operands. -/
private theorem matmul_rr_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    matmul d prec l r (constant ⟨2, ![M, N]⟩ .f32 0x00000000#32) (ix2 p q) = ∑ k : Fin K, l (ix2 p k) * r (ix2 q k) := by
  subst hd
  simp only [matmul]
  rw [Ideal.matmul_constant_zero_apply]
  exact rr_sum l r p q

end RowsByRows

private theorem dot16_eq : dot_S1024x16_S2048x16_S1024x2048_1_1_0_0_n_n = DotDims.transposedRhs 1024 16 2048 := rfl
private theorem dot64_eq : dot_S1024x64_S2048x64_S1024x2048_1_1_0_0_n_n = DotDims.transposedRhs 1024 64 2048 := rfl

/-! ## Small facts: a column broadcast along the rows, sums of coercions, the literal words -/

/-- A `[a, 1]` array broadcast to `[a, b]` reads, at `(p, c)`, the operand's row `p`. -/
private theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The coercion to the extended reals commutes with a finite sum. -/
private theorem coe_fsum {n : ℕ} (f : Fin n → ℝ) : ((∑ k, f k : ℝ) : EReal) = ∑ k, ((f k : ℝ) : EReal) := by
  induction n with
  | zero => simp
  | succ m ih => rw [Fin.sum_univ_castSucc, Fin.sum_univ_castSucc, EReal.coe_add, ih]

/-- The word `0x40000000` is the real number two. -/
private theorem ofBits_two_f32 : Ideal.ofBits .f32 0x40000000#32 = ((2 : ℝ) : EReal) := by
  simp [Ideal.ofBits, Ideal.ieee, -EReal.coe_mul]; norm_num

/-- The root of a clamped real: the clamp keeps the radicand non-negative, so the root is the real root. -/
private theorem sqrt_clamp (t : ℝ) : Ideal.sqrt (max ((t : ℝ) : EReal) 0) = ((Real.sqrt (max t 0) : ℝ) : EReal) := by
  have e : max ((t : ℝ) : EReal) 0 = ((max t 0 : ℝ) : EReal) := by
    rw [← EReal.coe_zero]; exact (EReal.coe_strictMono.monotone.map_max).symm
  rw [e, Ideal.sqrt_coe, if_neg (not_lt.mpr (le_max_right t 0))]

/-- The inner products of the kernel's products, as coerced real sums. -/
private theorem rr_real {M K N : ℕ} {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂)
    (A : Fin M → Fin K → ℝ) (B : Fin N → Fin K → ℝ) (hl : ∀ p k, l (ix2 p k) = ((A p k : ℝ) : EReal))
    (hr : ∀ q k, r (ix2 q k) = ((B q k : ℝ) : EReal)) (p : Fin M) (q : Fin N) :
    matmul d prec l r (constant ⟨2, ![M, N]⟩ .f32 0x00000000#32) (ix2 p q) = ((∑ k : Fin K, A p k * B q k : ℝ) : EReal) := by
  rw [matmul_rr_apply d hd, coe_fsum]
  exact Finset.sum_congr rfl fun k _ => by rw [hl, hr, EReal.coe_mul]

variable (X0 : Fin 1024 → Fin 16 → ℝ) (X1 : Fin 2048 → Fin 16 → ℝ) (X2 : Fin 1024 → ℝ) (X3 : Fin 2048 → ℝ)
  (X4 : Fin 1024 → Fin 64 → ℝ) (X5 : Fin 2048 → Fin 64 → ℝ)
  (x0 : Vec Ideal S1024x16 .f32) (x1 : Vec Ideal S2048x16 .f32) (x2 : Vec Ideal S1024x1 .f32) (x3 : Vec Ideal S1x2048 .f32)
  (x4 : Vec Ideal S1024x64 .f32) (x5 : Vec Ideal S2048x64 .f32)

/-- Entry (p, q) of the tile of distances: √max(|row p|² + |column q|² − 2 ⟨row p, column q⟩, 0). -/
theorem pay7_apply (h0 : ∀ p k, x0 (ix2 p k) = ((X0 p k : ℝ) : EReal)) (h1 : ∀ q k, x1 (ix2 q k) = ((X1 q k : ℝ) : EReal))
    (h2 : ∀ p, x2 (ix2 p 0) = ((X2 p : ℝ) : EReal)) (h3 : ∀ q, x3 (ix2 0 q) = ((X3 q : ℝ) : EReal)) (p : Fin 1024) (q : Fin 2048) :
    k0_pay7 (F := Ideal) x0 x1 x2 x3 (ix2 p q)
      = ((Real.sqrt (max (X2 p + X3 q - 2 * ∑ k : Fin 16, X0 p k * X1 q k) 0) : ℝ) : EReal) := by
  have hm : matmul (F := Ideal) (φ₁ := .f32) (φ₂ := .f32) dot_S1024x16_S2048x16_S1024x2048_1_1_0_0_n_n (some .fp32)
      (shapeCast S1024x16 x0 shapeCasts_S1024x16_S1024x16) (shapeCast S2048x16 x1 shapeCasts_S2048x16_S2048x16)
      (constant (F := Ideal) S1024x2048 .f32 0x00000000#32) (ix2 p q) = ((∑ k : Fin 16, X0 p k * X1 q k : ℝ) : EReal) := by
    rw [shapeCast_self, shapeCast_self]
    exact rr_real _ dot16_eq _ x0 x1 X0 X1 h0 h1 p q
  have hr : broadcastTo S1024x2048 (shapeCast S1024x1 x2 shapeCasts_S1024x1_S1024x1) broadcasts_S1024x1_S1024x2048 (ix2 p q)
      = ((X2 p : ℝ) : EReal) := by
    rw [shapeCast_self]
    exact (bcast_col_apply x2 _ p q).trans (h2 p)
  have hc : broadcastTo S1024x2048 (shapeCast S1x2048 x3 shapeCasts_S1x2048_S1x2048) broadcasts_S1x2048_S1024x2048 (ix2 p q)
      = ((X3 q : ℝ) : EReal) := by
    rw [shapeCast_self]
    exact (broadcastTo_1b_ab_apply x3 _ p q).trans (h3 q)
  unfold k0_pay7
  show Ideal.sqrt (max
      (broadcastTo S1024x2048 (shapeCast S1024x1 x2 shapeCasts_S1024x1_S1024x1) broadcasts_S1024x1_S1024x2048 (ix2 p q)
        + broadcastTo S1024x2048 (shapeCast S1x2048 x3 shapeCasts_S1x2048_S1x2048) broadcasts_S1x2048_S1024x2048 (ix2 p q)
        - Ideal.ofBits .f32 0x40000000#32
          * matmul (F := Ideal) (φ₁ := .f32) (φ₂ := .f32) dot_S1024x16_S2048x16_S1024x2048_1_1_0_0_n_n (some .fp32)
              (shapeCast S1024x16 x0 shapeCasts_S1024x16_S1024x16) (shapeCast S2048x16 x1 shapeCasts_S2048x16_S2048x16)
              (constant (F := Ideal) S1024x2048 .f32 0x00000000#32) (ix2 p q))
      (Ideal.ofBits .f32 0x00000000#32)) = _
  rw [hm, hr, hc, ofBits_two_f32, Ideal.ofBits_zero_f32, ← EReal.coe_add, ← EReal.coe_mul, ← EReal.coe_sub]
  exact sqrt_clamp _

/-- Entry (p, q) of the tile of distances times the same-family indicator ⟨family row p, one-hot row q⟩. -/
theorem pay8_apply (h0 : ∀ p k, x0 (ix2 p k) = ((X0 p k : ℝ) : EReal)) (h1 : ∀ q k, x1 (ix2 q k) = ((X1 q k : ℝ) : EReal))
    (h2 : ∀ p, x2 (ix2 p 0) = ((X2 p : ℝ) : EReal)) (h3 : ∀ q, x3 (ix2 0 q) = ((X3 q : ℝ) : EReal))
    (h4 : ∀ p k, x4 (ix2 p k) = ((X4 p k : ℝ) : EReal)) (h5 : ∀ q k, x5 (ix2 q k) = ((X5 q k : ℝ) : EReal)) (p : Fin 1024) (q : Fin 2048) :
    k0_pay8 (F := Ideal) x0 x1 x2 x3 x4 x5 (ix2 p q)
      = ((Real.sqrt (max (X2 p + X3 q - 2 * ∑ k : Fin 16, X0 p k * X1 q k) 0) * ∑ k : Fin 64, X4 p k * X5 q k : ℝ) : EReal) := by
  have hm : matmul (F := Ideal) (φ₁ := .bf16) (φ₂ := .bf16) dot_S1024x64_S2048x64_S1024x2048_1_1_0_0_n_n none
      (truncf (F := Ideal) (φ := .f32) .bf16 (shapeCast S1024x64 x4 shapeCasts_S1024x64_S1024x64) bitsLt_bf16_f32)
      (truncf (F := Ideal) (φ := .f32) .bf16 (shapeCast S2048x64 x5 shapeCasts_S2048x64_S2048x64) bitsLt_bf16_f32)
      (constant (F := Ideal) S1024x2048 .f32 0x00000000#32) (ix2 p q) = ((∑ k : Fin 64, X4 p k * X5 q k : ℝ) : EReal) := by
    rw [shapeCast_self, shapeCast_self]
    exact rr_real _ dot64_eq _ _ _ X4 X5 (fun a k => h4 a k) (fun b k => h5 b k) p q
  unfold k0_pay8
  show k0_pay7 (F := Ideal) x0 x1 x2 x3 (ix2 p q)
      * matmul (F := Ideal) (φ₁ := .bf16) (φ₂ := .bf16) dot_S1024x64_S2048x64_S1024x2048_1_1_0_0_n_n none
          (truncf (F := Ideal) (φ := .f32) .bf16 (shapeCast S1024x64 x4 shapeCasts_S1024x64_S1024x64) bitsLt_bf16_f32)
          (truncf (F := Ideal) (φ := .f32) .bf16 (shapeCast S2048x64 x5 shapeCasts_S2048x64_S2048x64) bitsLt_bf16_f32)
          (constant (F := Ideal) S1024x2048 .f32 0x00000000#32) (ix2 p q) = _
  rw [hm, pay7_apply X0 X1 X2 X3 x0 x1 x2 x3 h0 h1 h2 h3 p q, ← EReal.coe_mul]

end Cert.KernelIdeal.HandValue

end
-- ==== Proof.KVSum.lean ====
/-
  A tile summed into an accumulator, over the extended reals when the tile holds real numbers: the tile times the
  2048 × 128 matrix of ones puts the row sum in each of 128 lanes; the lanes are summed, then the 1024 rows; the total
  (128 times the tile's sum) is scaled by 1/128 and added to the accumulator. So the accumulator grows by exactly the
  sum of the tile's entries.
-/
import proofs.«429911_j70497593196919_3_alg».proof.Proof.Gen.KernelIdeal.Skeleton
import proofs.«429911_j70497593196919_3_alg».proof.Proof.LibRowOps
import proofs.«429911_j70497593196919_3_alg».proof.Proof.Math
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

/-- The f32 word 0x3C000000 has exponent field 120 and an empty fraction: it is 2⁻⁷, the real 1/128. -/
private theorem ofBits_inv128 : Ideal.ofBits .f32 0x3C000000#32 = (((1 : ℝ) / 128 : ℝ) : EReal) := by
  simp [Ideal.ofBits, Ideal.ieee, -EReal.coe_mul]; norm_num

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the 128 lanes of a `[1024, 128]` array, at row `p`. -/
private theorem laneSum_apply (w : FVec Ideal S1024x128 .f32) (p : Fin 1024) :
    multiReduction (F := Ideal) .add [1] S1024 w 0x00000000#32 reduces_S1024x128_S1024 (.inl rfl) rfl (ix1 p)
      = ∑ l : Fin 128, w (ix2 p l) := by
  refine (Ideal.multiReduction_add_single w _ reduces_S1024x128_S1024 (.inl rfl) rfl (ix1 p)).trans ?_
  refine Finset.sum_congr rfl fun l _ => congrArg w (funext fun a => Fin.ext ?_)
  match a with
  | ⟨0, _⟩ => rfl
  | ⟨1, _⟩ => rfl

/-- The sum over the 1024 rows of a `[1024, 1]` column. -/
private theorem rowSum_apply (w : FVec Ideal S1024x1 .f32) :
    multiReduction (F := Ideal) .add [0] S1 w 0x00000000#32 reduces_S1024x1_S1 (.inl rfl) rfl (ix1 0)
      = ∑ p : Fin 1024, w (ix2 p 0) := by
  refine (Ideal.multiReduction_add_single w _ reduces_S1024x1_S1 (.inl rfl) rfl (ix1 0)).trans ?_
  refine Finset.sum_congr rfl fun p _ => congrArg w (funext fun a => Fin.ext ?_)
  match a with
  | ⟨0, _⟩ => rfl
  | ⟨1, _⟩ => rfl

/-- The chain from the product already formed, read at its one index: the accumulator plus the lane-and-row total
    times the scale word. -/
private theorem chain_read (s : Vec Ideal S1x1 .f32) (w : FVec Ideal S1024x128 .f32) :
    k0_pay1 (F := Ideal) s w (ix2 0 0)
      = s (ix2 0 0) + (∑ p : Fin 1024, ∑ l : Fin 128, w (ix2 p l)) * Ideal.ofBits .f32 0x3C000000#32 := by
  unfold k0_pay1
  refine (congrFun (shapeCast_self _ _) _).trans ?_
  refine congrArg (fun t => s (ix2 0 0) + t * Ideal.ofBits .f32 0x3C000000#32) ?_
  refine (shapeCast_a_1a_apply _ shapeCasts_S1_S1x1 0 0).trans ?_
  refine (rowSum_apply _).trans ?_
  refine Finset.sum_congr rfl fun p _ => ?_
  refine (shapeCast_a_a1_apply _ shapeCasts_S1024_S1024x1 p 0).trans ?_
  exact laneSum_apply w p

/-- 128 equal finite lanes per row, summed over the rows and scaled by 1/128, give the sum of the rows' values. -/
private theorem lanes_total (R : Fin 1024 → ℝ) :
    (∑ p : Fin 1024, ∑ _l : Fin 128, ((R p : ℝ) : EReal)) * (((1 : ℝ) / 128 : ℝ) : EReal) = ((∑ p : Fin 1024, R p : ℝ) : EReal) := by
  have e : (∑ p : Fin 1024, ∑ _l : Fin 128, ((R p : ℝ) : EReal)) = ((∑ p : Fin 1024, ∑ _l : Fin 128, R p : ℝ) : EReal) := by
    rw [Cert.Math.coe_sum]
    exact Finset.sum_congr rfl fun p _ => (Cert.Math.coe_sum Finset.univ (fun _ : Fin 128 => R p)).symm
  rw [e, ← EReal.coe_mul, Finset.sum_mul]
  exact congrArg _ (Finset.sum_congr rfl fun p _ => Cert.Math.lanes (R p))

/-- The chain from a product whose every lane of row `p` holds the finite value `R p`: the accumulator grows by the
    sum of the `R p`. -/
private theorem chain_apply (s : Vec Ideal S1x1 .f32) (w : FVec Ideal S1024x128 .f32) (R : Fin 1024 → ℝ) (S : ℝ)
    (hw : ∀ p l, w (ix2 p l) = ((R p : ℝ) : EReal)) (hs : s (ix2 0 0) = ((S : ℝ) : EReal)) :
    k0_pay1 (F := Ideal) s w (ix2 0 0) = ((S + ∑ p : Fin 1024, R p : ℝ) : EReal) := by
  rw [chain_read, hs, ofBits_inv128, EReal.coe_add, ← lanes_total R]
  exact congrArg (fun t => ((S : ℝ) : EReal) + t * (((1 : ℝ) / 128 : ℝ) : EReal))
    (Finset.sum_congr rfl fun p _ => Finset.sum_congr rfl fun l _ => hw p l)

/-- The product's dimension record is the plain `[M, K] × [K, N]` one. -/
private theorem dot_plain :
    dot_S1024x2048_S2048x128_S1024x128_1_0_0_1_n_n = DotDims.plain 1024 2048 128 := rfl

variable (T : Fin 1024 → Fin 2048 → ℝ) (v : FVec Ideal S1024x2048 .f32) (x6 : Vec Ideal S2048x128 .f32)
  (s : Vec Ideal S1x1 .f32) (S : ℝ)

/-- The tile times the matrix of ones, into the zero accumulator: every lane of row `p` holds the row's sum. -/
private theorem ones_product (hv : ∀ p q, v (ix2 p q) = ((T p q : ℝ) : EReal)) (h6 : ∀ q l, x6 (ix2 q l) = ((1 : ℝ) : EReal))
    (p : Fin 1024) (l : Fin 128) :
    matmul dot_S1024x2048_S2048x128_S1024x128_1_0_0_1_n_n (some .fp32) v (k0_pay9 x6) (constant S1024x128 .f32 0x00000000#32) (ix2 p l)
      = ((∑ q : Fin 2048, T p q : ℝ) : EReal) := by
  refine (Cert.LibRowOps.matmul_plain_apply _ dot_plain (some .fp32) v (k0_pay9 x6) p l).trans ?_
  rw [Cert.Math.coe_sum]
  refine Finset.sum_congr rfl fun q _ => ?_
  have e9 : k0_pay9 (F := Ideal) x6 (ix2 q l) = ((1 : ℝ) : EReal) := by
    unfold k0_pay9
    exact (congrFun (shapeCast_self _ _) _).trans (h6 q l)
  rw [hv p q, e9, ← EReal.coe_mul, mul_one]

/-- The first accumulator's update, from the tile's product with the ones already formed. -/
theorem pay1_apply (hv : ∀ p q, v (ix2 p q) = ((T p q : ℝ) : EReal)) (h6 : ∀ q l, x6 (ix2 q l) = ((1 : ℝ) : EReal))
    (hs : s (ix2 0 0) = ((S : ℝ) : EReal)) :
    k0_pay1 (F := Ideal) s (matmul dot_S1024x2048_S2048x128_S1024x128_1_0_0_1_n_n (some .fp32) v (k0_pay9 x6) (constant S1024x128 .f32 0x00000000#32)) (ix2 0 0)
      = ((S + ∑ p : Fin 1024, ∑ q : Fin 2048, T p q : ℝ) : EReal) :=
  chain_apply s _ (fun p => ∑ q : Fin 2048, T p q) S (ones_product T v x6 hv h6) hs

/-- The second accumulator's update (it forms the product with the ones itself). -/
theorem pay2_apply (hv : ∀ p q, v (ix2 p q) = ((T p q : ℝ) : EReal)) (h6 : ∀ q l, x6 (ix2 q l) = ((1 : ℝ) : EReal))
    (hs : s (ix2 0 0) = ((S : ℝ) : EReal)) :
    k0_pay2 (F := Ideal) v (k0_pay9 x6) s (ix2 0 0)
      = ((S + ∑ p : Fin 1024, ∑ q : Fin 2048, T p q : ℝ) : EReal) :=
  pay1_apply T v x6 s S hv h6 hs

end Cert.KernelIdeal.HandValue

end
-- ==== Proof.KVScr.lean ====
/-
  The accumulators in closed form. At grid point 4 i + j the body sees row block i and column block j of the region's
  arrays; by the tile lemmas each point adds to the first accumulator the sum of the distances between the 1024 rows
  and the 2048 columns of its tile, and to the second the sum of those distances times the same-family indicator; the
  reset at j = 0 starts both from zero. So after the row block's last point they hold the sums over all 8192 columns.
-/
import proofs.«429911_j70497593196919_3_alg».proof.Proof.KVPre
import proofs.«429911_j70497593196919_3_alg».proof.Proof.KVDist
import proofs.«429911_j70497593196919_3_alg».proof.Proof.KVSum

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

open Cert.KernelIdeal.Hand Cert.Spec

variable (m : (ℓ : Loc nD τ sig) → Buf (Elt Ideal) ℓ) (c : Dev nD)
  (d : Cert.Spec.Decoded (m ((c.tc : Thread nD τ).loc main_arg0)) (m ((c.tc : Thread nD τ).loc main_arg1)))

/-- Row `p` of row block `i`, column `q` of column block `j`, as points of the 8192. -/
abbrev rowPt (i : Fin 8) (p : Fin 1024) : Fin 8192 := ⟨1024 * i.val + p.val, by omega⟩
abbrev colPt (j : Fin 4) (q : Fin 2048) : Fin 8192 := ⟨2048 * j.val + q.val, by omega⟩

/-- The block indices of the seven input windows at a grid point, decided once over the grid: the row windows sit at
    the point's row block `t / 4`, the column windows at its column block `t % 4`, the matrix of ones is whole. -/
private theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = t.val % 4 ∧ win0_5.index t (1 : Fin 2) = 0
    ∧ win0_6.index t (0 : Fin 2) = 0 ∧ win0_6.index t (1 : Fin 2) = 0 :=
  (by decide +kernel : ∀ t : Fin grid0.N, _)

/-! ## The seven blocks at point 4 i + j, entry by entry -/

/-- Row block `i` of the embeddings. -/
private theorem blk0_apply (t : Fin cfg0.N) (i : Fin 8) (j : Fin 4) (ht : t.val = 4 * i.val + j.val) (p : Fin 1024) (k : Fin 16) :
    (iblk m c 0 t : Vec Ideal S1024x16 .f32) (ix2 p k) = ((d.x (rowPt i p) k : ℝ) : EReal) := by
  obtain ⟨e0, e1, -⟩ := idx_facts t
  rw [← V_v0 m c d (rowPt i p) k]
  unfold iblk
  rw [View.read_apply]
  show V m c main_v0 _ = V m c main_v0 _
  congr 1
  funext a
  apply Fin.ext
  match a with
  | ⟨0, _⟩ => show win0_0.index t (0 : Fin 2) * 1024 + 1 * p.val = 1024 * i.val + p.val; rw [e0, ht]; omega
  | ⟨1, _⟩ => show win0_0.index t (1 : Fin 2) * 16 + 1 * k.val = k.val; rw [e1]; omega

/-- Column block `j` of the embeddings. -/
private theorem blk1_apply (t : Fin cfg0.N) (i : Fin 8) (j : Fin 4) (ht : t.val = 4 * i.val + j.val) (q : Fin 2048) (k : Fin 16) :
    (iblk m c 1 t : Vec Ideal S2048x16 .f32) (ix2 q k) = ((d.x (colPt j q) k : ℝ) : EReal) := by
  obtain ⟨-, -, e0, e1, -⟩ := idx_facts t
  rw [← V_v0 m c d (colPt j q) k]
  unfold iblk
  rw [View.read_apply]
  show V m c main_v0 _ = V m c main_v0 _
  congr 1
  funext a
  apply Fin.ext
  match a with
  | ⟨0, _⟩ => show win0_1.index t (0 : Fin 2) * 2048 + 1 * q.val = 2048 * j.val + q.val; rw [e0, ht]; omega
  | ⟨1, _⟩ => show win0_1.index t (1 : Fin 2) * 16 + 1 * k.val = k.val; rw [e1]; omega

/-- Row block `i` of the squared norms (a column). -/
private theorem blk2_apply (t : Fin cfg0.N) (i : Fin 8) (j : Fin 4) (ht : t.val = 4 * i.val + j.val) (p : Fin 1024) :
    (iblk m c 2 t : Vec Ideal S1024x1 .f32) (ix2 p 0) = ((sqn d.x (rowPt i p) : ℝ) : EReal) := by
  obtain ⟨-, -, -, -, e0, e1, -⟩ := idx_facts t
  rw [← V_v6 m c d (rowPt i p)]
  unfold iblk
  rw [View.read_apply]
  show V m c main_v6 _ = V m c main_v6 _
  congr 1
  funext a
  apply Fin.ext
  match a with
  | ⟨0, _⟩ => show win0_2.index t (0 : Fin 2) * 1024 + 1 * p.val = 1024 * i.val + p.val; rw [e0, ht]; omega
  | ⟨1, _⟩ => show win0_2.index t (1 : Fin 2) * 1 + 1 * 0 = 0; rw [e1]

/-- Column block `j` of the squared norms (a row). -/
private theorem blk3_apply (t : Fin cfg0.N) (i : Fin 8) (j : Fin 4) (ht : t.val = 4 * i.val + j.val) (q : Fin 2048) :
    (iblk m c 3 t : Vec Ideal S1x2048 .f32) (ix2 0 q) = ((sqn d.x (colPt j q) : ℝ) : EReal) := by
  obtain ⟨-, -, -, -, -, -, e0, e1, -⟩ := idx_facts t
  rw [← V_v7 m c d (colPt j q)]
  unfold iblk
  rw [View.read_apply]
  show V m c main_v7 _ = V m c main_v7 _
  congr 1
  funext a
  apply Fin.ext
  match a with
  | ⟨0, _⟩ => show win0_3.index t (0 : Fin 2) * 1 + 1 * 0 = 0; rw [e0]
  | ⟨1, _⟩ => show win0_3.index t (1 : Fin 2) * 2048 + 1 * q.val = 2048 * j.val + q.val; rw [e1, ht]; omega

/-- Row block `i` of the family rows. -/
private theorem blk4_apply (t : Fin cfg0.N) (i : Fin 8) (j : Fin 4) (ht : t.val = 4 * i.val + j.val) (p : Fin 1024) (k : Fin 64) :
    (iblk m c 4 t : Vec Ideal S1024x64 .f32) (ix2 p k) = ((famK (d.ix (rowPt i p)) k : ℝ) : EReal) := by
  obtain ⟨-, -, -, -, -, -, -, -, e0, e1, -⟩ := idx_facts t
  rw [← V_v3 m c d (rowPt i p) k]
  unfold iblk
  rw [View.read_apply]
  show V m c main_v3 _ = V m c main_v3 _
  congr 1
  funext a
  apply Fin.ext
  match a with
  | ⟨0, _⟩ => show win0_4.index t (0 : Fin 2) * 1024 + 1 * p.val = 1024 * i.val + p.val; rw [e0, ht]; omega
  | ⟨1, _⟩ => show win0_4.index t (1 : Fin 2) * 64 + 1 * k.val = k.val; rw [e1]; omega

/-- Column block `j` of the one-hot rows. -/
private theorem blk5_apply (t : Fin cfg0.N) (i : Fin 8) (j : Fin 4) (ht : t.val = 4 * i.val + j.val) (q : Fin 2048) (k : Fin 64) :
    (iblk m c 5 t : Vec Ideal S2048x64 .f32) (ix2 q k) = (((if d.ix (colPt j q) = k then (1 : ℝ) else 0) : ℝ) : EReal) := by
  obtain ⟨-, -, -, -, -, -, -, -, -, -, e0, e1, -⟩ := idx_facts t
  rw [← V_v2 m c d (colPt j q) k]
  unfold iblk
  rw [View.read_apply]
  show V m c main_v2 _ = V m c main_v2 _
  congr 1
  funext a
  apply Fin.ext
  match a with
  | ⟨0, _⟩ => show win0_5.index t (0 : Fin 2) * 2048 + 1 * q.val = 2048 * j.val + q.val; rw [e0, ht]; omega
  | ⟨1, _⟩ => show win0_5.index t (1 : Fin 2) * 64 + 1 * k.val = k.val; rw [e1]; omega

/-- The matrix of ones, whole at every point. -/
private theorem blk6_apply (t : Fin cfg0.N) (q : Fin 2048) (l : Fin 128) :
    (iblk m c 6 t : Vec Ideal S2048x128 .f32) (ix2 q l) = ((1 : ℝ) : EReal) := by
  obtain ⟨-, -, -, -, -, -, -, -, -, -, -, -, e0, e1⟩ := idx_facts t
  rw [← V_v8 m c q l]
  unfold iblk
  rw [View.read_apply]
  show V m c main_v8 _ = V m c main_v8 _
  congr 1
  funext a
  apply Fin.ext
  match a with
  | ⟨0, _⟩ => show win0_6.index t (0 : Fin 2) * 2048 + 1 * q.val = q.val; rw [e0]; omega
  | ⟨1, _⟩ => show win0_6.index t (1 : Fin 2) * 128 + 1 * l.val = l.val; rw [e1]; omega

/-- The two accumulators' reset words are zero. -/
private theorem pay5_zero : (k0_pay5 (F := Ideal)) (ix2 0 0) = ((0 : ℝ) : EReal) := by
  unfold k0_pay5
  rw [shapeCast_self]
  show Ideal.ofBits .f32 0x00000000#32 = _
  rw [Ideal.ofBits_zero_f32, EReal.coe_zero]

private theorem pay6_zero : (k0_pay6 (F := Ideal)) (ix2 0 0) = ((0 : ℝ) : EReal) := by
  unfold k0_pay6
  rw [shapeCast_self]
  show Ideal.ofBits .f32 0x00000000#32 = _
  rw [Ideal.ofBits_zero_f32, EReal.coe_zero]

/-! ## One point's contribution -/

/-- At point 4 i + j the first accumulator grows by the sum of the distances over tile (i, j). -/
private theorem acc0_apply (t : Fin cfg0.N) (i : Fin 8) (j : Fin 4) (ht : t.val = 4 * i.val + j.val)
    (s : Vec Ideal S1x1 .f32) (S : ℝ) (hs : s (ix2 0 0) = ((S : ℝ) : EReal)) :
    acc0 m c t s (ix2 0 0)
      = ((S + ∑ p : Fin 1024, ∑ q : Fin 2048, dist d.x (rowPt i p) (colPt j q) : ℝ) : EReal) := by
  unfold acc0 acc0v k0_pay10
  exact pay1_apply (fun p q => dist d.x (rowPt i p) (colPt j q))
    (k0_pay7 (F := Ideal) (iblk m c 0 t) (iblk m c 1 t) (iblk m c 2 t) (iblk m c 3 t)) (iblk m c 6 t) s S
    (fun p q => pay7_apply (fun p k => d.x (rowPt i p) k) (fun q k => d.x (colPt j q) k)
      (fun p => sqn d.x (rowPt i p)) (fun q => sqn d.x (colPt j q))
      (iblk m c 0 t) (iblk m c 1 t) (iblk m c 2 t) (iblk m c 3 t)
      (blk0_apply m c d t i j ht) (blk1_apply m c d t i j ht) (blk2_apply m c d t i j ht) (blk3_apply m c d t i j ht) p q)
    (blk6_apply m c t) hs

/-- A family row against a one-hot row picks the table's entry at the two indices. -/
private theorem fam_onehot (a b : Fin 64) : ∑ k : Fin 64, famK a k * (if b = k then (1 : ℝ) else 0) = famK a b := by
  simp only [mul_ite, mul_one, mul_zero, Finset.sum_ite_eq, Finset.mem_univ, if_true]

/-- At point 4 i + j the second accumulator grows by the sum over tile (i, j) of distance times same-family indicator. -/
private theorem acc1_apply (t : Fin cfg0.N) (i : Fin 8) (j : Fin 4) (ht : t.val = 4 * i.val + j.val)
    (s : Vec Ideal S1x1 .f32) (S : ℝ) (hs : s (ix2 0 0) = ((S : ℝ) : EReal)) :
    acc1 m c t s (ix2 0 0)
      = ((S + ∑ p : Fin 1024, ∑ q : Fin 2048,
            dist d.x (rowPt i p) (colPt j q) * famK (d.ix (rowPt i p)) (d.ix (colPt j q)) : ℝ) : EReal) := by
  unfold acc1 acc1v
  exact pay2_apply (fun p q => dist d.x (rowPt i p) (colPt j q) * famK (d.ix (rowPt i p)) (d.ix (colPt j q)))
    (k0_pay8 (F := Ideal) (iblk m c 0 t) (iblk m c 1 t) (iblk m c 2 t) (iblk m c 3 t) (iblk m c 4 t) (iblk m c 5 t)) (iblk m c 6 t) s S
    (fun p q => (pay8_apply (fun p k => d.x (rowPt i p) k) (fun q k => d.x (colPt j q) k)
      (fun p => sqn d.x (rowPt i p)) (fun q => sqn d.x (colPt j q))
      (fun p k => famK (d.ix (rowPt i p)) k) (fun q k => if d.ix (colPt j q) = k then (1 : ℝ) else 0)
      (iblk m c 0 t) (iblk m c 1 t) (iblk m c 2 t) (iblk m c 3 t) (iblk m c 4 t) (iblk m c 5 t)
      (blk0_apply m c d t i j ht) (blk1_apply m c d t i j ht) (blk2_apply m c d t i j ht) (blk3_apply m c d t i j ht)
      (blk4_apply m c d t i j ht) (blk5_apply m c d t i j ht) p q).trans
        (congrArg (fun r : ℝ => ((dist d.x (rowPt i p) (colPt j q) * r : ℝ) : EReal))
          (fam_onehot (d.ix (rowPt i p)) (d.ix (colPt j q)))))
    (blk6_apply m c t) hs

/-! ## The accumulators along a row block -/

/-- At the row block's first column block both accumulators start from zero. -/
private theorem scr_first (i : Fin 8) (n : ℕ) (hn : n < cfg0.N) (ht : n = 4 * i.val + (0 : Fin 4).val) :
    (scr m c n hn).1 (ix2 0 0)
        = ((0 + ∑ p : Fin 1024, ∑ q : Fin 2048, dist d.x (rowPt i p) (colPt 0 q) : ℝ) : EReal)
    ∧ (scr m c n hn).2 (ix2 0 0)
        = ((0 + ∑ p : Fin 1024, ∑ q : Fin 2048,
              dist d.x (rowPt i p) (colPt 0 q) * famK (d.ix (rowPt i p)) (d.ix (colPt 0 q)) : ℝ) : EReal) := by
  have e : scr m c n hn = (acc0 m c ⟨n, hn⟩ (k0_pay5 (F := Ideal)), acc1 m c ⟨n, hn⟩ (k0_pay6 (F := Ideal))) :=
    scr_reset m c ⟨n, hn⟩ (by show n % 4 = 0; rw [ht]; show (4 * i.val + 0) % 4 = 0; omega)
  rw [e]
  exact ⟨acc0_apply m c d ⟨n, hn⟩ i 0 ht (k0_pay5 (F := Ideal)) 0 pay5_zero,
    acc1_apply m c d ⟨n, hn⟩ i 0 ht (k0_pay6 (F := Ideal)) 0 pay6_zero⟩

/-- At a later column block they carry what the point before left and add the tile's sums. -/
private theorem scr_next (i : Fin 8) (j : Fin 4) (hj : j.val ≠ 0) (n : ℕ) (hn : n + 1 < cfg0.N) (hn' : n < cfg0.N)
    (ht : n + 1 = 4 * i.val + j.val) (S0 S1 : ℝ)
    (h0 : (scr m c n hn').1 (ix2 0 0) = ((S0 : ℝ) : EReal)) (h1 : (scr m c n hn').2 (ix2 0 0) = ((S1 : ℝ) : EReal)) :
    (scr m c (n + 1) hn).1 (ix2 0 0)
        = ((S0 + ∑ p : Fin 1024, ∑ q : Fin 2048, dist d.x (rowPt i p) (colPt j q) : ℝ) : EReal)
    ∧ (scr m c (n + 1) hn).2 (ix2 0 0)
        = ((S1 + ∑ p : Fin 1024, ∑ q : Fin 2048,
              dist d.x (rowPt i p) (colPt j q) * famK (d.ix (rowPt i p)) (d.ix (colPt j q)) : ℝ) : EReal) := by
  have e : scr m c (n + 1) hn
      = (acc0 m c ⟨n + 1, hn⟩ (scr m c n hn').1, acc1 m c ⟨n + 1, hn⟩ (scr m c n hn').2) :=
    if_neg (by omega : ¬(n + 1) % 4 = 0)
  rw [e]
  exact ⟨acc0_apply m c d ⟨n + 1, hn⟩ i j ht (scr m c n hn').1 S0 h0,
    acc1_apply m c d ⟨n + 1, hn⟩ i j ht (scr m c n hn').2 S1 h1⟩

/-- After the row block's last column block: the sums over all four column blocks. -/
private theorem scr_last (i : Fin 8) (h3 : 4 * i.val + 3 < cfg0.N) :
    (scr m c (4 * i.val + 3) h3).1 (ix2 0 0)
        = ((∑ j : Fin 4, ∑ p : Fin 1024, ∑ q : Fin 2048, dist d.x (rowPt i p) (colPt j q) : ℝ) : EReal)
    ∧ (scr m c (4 * i.val + 3) h3).2 (ix2 0 0)
        = ((∑ j : Fin 4, ∑ p : Fin 1024, ∑ q : Fin 2048,
              dist d.x (rowPt i p) (colPt j q) * famK (d.ix (rowPt i p)) (d.ix (colPt j q)) : ℝ) : EReal) := by
  have hN : cfg0.N = 32 := N_0
  obtain ⟨a0, b0⟩ := scr_first m c d i (4 * i.val + 0) (by omega) rfl
  obtain ⟨a1, b1⟩ := scr_next m c d i 1 (by decide) (4 * i.val + 0) (by omega) (by omega) rfl _ _ a0 b0
  obtain ⟨a2, b2⟩ := scr_next m c d i 2 (by decide) (4 * i.val + 1) (by omega) (by omega) rfl _ _ a1 b1
  obtain ⟨a3, b3⟩ := scr_next m c d i 3 (by decide) (4 * i.val + 2) (by omega) (by omega) rfl _ _ a2 b2
  refine ⟨a3.trans ?_, b3.trans ?_⟩
  · rw [Fin.sum_univ_four, zero_add]
  · rw [Fin.sum_univ_four, zero_add]

theorem scr_last_fst (i : Fin 8) :
    (scr m c (4 * i.val + 3) (lt_of_lt_of_eq (by omega : 4 * i.val + 3 < 32) N_0.symm)).1 (ix2 0 0)
      = ((∑ j : Fin 4, ∑ p : Fin 1024, ∑ q : Fin 2048, dist d.x (rowPt i p) (colPt j q) : ℝ) : EReal) := by
  exact (scr_last m c d i _).1

theorem scr_last_snd (i : Fin 8) :
    (scr m c (4 * i.val + 3) (lt_of_lt_of_eq (by omega : 4 * i.val + 3 < 32) N_0.symm)).2 (ix2 0 0)
      = ((∑ j : Fin 4, ∑ p : Fin 1024, ∑ q : Fin 2048,
            dist d.x (rowPt i p) (colPt j q) * famK (d.ix (rowPt i p)) (d.ix (colPt j q)) : ℝ) : EReal) := by
  exact (scr_last m c d i _).2

end Cert.KernelIdeal.HandValue

end
-- ==== Proof.KVTail.lean ====
/-
  The host operations after the region, and the kernel program's result: the two results are summed over the eight
  row blocks, the total of the same-family indicator is computed from the 64 column sums of the one-hot rows, and
  the closing arithmetic gives the loss. With the results' entries and the region-entry arrays read as real numbers,
  the three sums are the three sums of the specification.
-/
import proofs.«429911_j70497593196919_3_alg».proof.Proof.KVArr
import proofs.«429911_j70497593196919_3_alg».proof.Proof.KVScr
import Idealize.ShloMosaic.Lib.IdealHost

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.ValueIdx

open Cert.KernelIdeal.Hand Cert.Spec

variable (m : (ℓ : Loc nD τ sig) → Buf (Elt Ideal) ℓ) (c : Dev nD)
  (d : Cert.Spec.Decoded (m ((c.tc : Thread nD τ).loc main_arg0)) (m ((c.tc : Thread nD τ).loc main_arg1)))

/-- The host operations after the region. -/
abbrev tailOps : List (HloOp τ sig (Elt Ideal)) := List.flatten [hostOps1, hostOps1_1]

/-! ## The operations as functions of the four arrays they read -/

/-- The sum of a result's eight entries. -/
private def total8 (x : FVec Ideal S8x1x1 .f32) : FVec Ideal Cert.KernelIdeal.S_ .f32 :=
  Host.reduceAdd x (constant (F := Ideal) Cert.KernelIdeal.S_ .f32 0x00000000#32) reducesTo_S8x1x1_S_d0_1_2 h_S_

/-- The 64 column sums of the one-hot rows: how many points carry each index value. -/
private def counts64 (y : FVec Ideal S8192x64 .f32) : FVec Ideal S64 .f32 :=
  Host.reduceAdd y (constant (F := Ideal) Cert.KernelIdeal.S_ .f32 0x00000000#32) reducesTo_S8192x64_S64_d0 h_S_

/-- The table times the outer product of the counts with themselves, summed over all 64 × 64 entries. -/
private def sameTotal (t : FVec Ideal S64x64 .f32) (y : FVec Ideal S8192x64 .f32) : FVec Ideal Cert.KernelIdeal.S_ .f32 :=
  Host.reduceAdd
    (mulf t
      (mulf (broadcastInDim S64x64 ![0, 1] bcast_S64x1_S64x64_0_1 (broadcastInDim S64x1 ![0] bcast_S64_S64x1_0 (counts64 y)))
        (broadcastInDim S64x64 ![0, 1] bcast_S1x64_S64x64_0_1 (broadcastInDim S1x64 ![1] bcast_S64_S1x64_1 (counts64 y)))))
    (constant (F := Ideal) Cert.KernelIdeal.S_ .f32 0x00000000#32) reducesTo_S64x64_S_d0_1 h_S_

/-- The closing arithmetic on the three scalars, operation by operation. -/
private def closeOps (A B C : FVec Ideal Cert.KernelIdeal.S_ .f32) : FVec Ideal Cert.KernelIdeal.S_ .f32 :=
  maximumf
    (addf
      (subf
        (Host.divf B (addf C (constant (F := Ideal) Cert.KernelIdeal.S_ .f32 0x2EDBE6FF#32)))
        (mulf (constant (F := Ideal) Cert.KernelIdeal.S_ .f32 0x3F000000#32)
          (Host.divf (subf A B)
            (addf (subf (constant (F := Ideal) Cert.KernelIdeal.S_ .f32 0x4C800000#32) C) (constant (F := Ideal) Cert.KernelIdeal.S_ .f32 0x2EDBE6FF#32)))))
      (constant (F := Ideal) Cert.KernelIdeal.S_ .f32 0x3F800000#32))
    (constant (F := Ideal) Cert.KernelIdeal.S_ .f32 0x00000000#32)

/-- At its one index the closing arithmetic is the specification's, on the same literal words. -/
private theorem closeOps_apply (A B C : FVec Ideal Cert.KernelIdeal.S_ .f32) (i : Cert.KernelIdeal.S_.Idx) :
    closeOps A B C i = Cert.Spec.closing (A i) (B i) (C i) := rfl

set_option maxHeartbeats 1000000 in
/-- The program's result is the closing arithmetic on the two results' totals and the table's total against the counts. -/
private theorem tail_term (W : Valuation τ sig (Elt Ideal)) :
    (StableHlo.after tailOps W (Proc.devRef .tc main_v29) : Cert.KernelIdeal.S_.Idx → EReal)
      = closeOps (total8 (W (Proc.devRef .tc main_v9_0))) (total8 (W (Proc.devRef .tc main_v9_1)))
          (sameTotal (W (Proc.devRef .tc main_cst)) (W (Proc.devRef .tc main_v2))) := by
  simp only [tailOps, hostOps1, hostOps1_1, List.flatten_cons, List.flatten_nil, List.append_nil, List.cons_append, List.nil_append]
  after_results_simp
  rfl

/-! ## Sums over the shapes' indices -/

/-- An index of the 8 × 1 × 1 results is its first coordinate. -/
private def idxEquiv8 : S8x1x1.Idx ≃ Fin 8 where
  toFun j := j 0
  invFun k := ix3 k 0 0
  left_inv j := by
    funext a
    match a with
    | ⟨0, _⟩ => rfl
    | ⟨1, _⟩ => exact (show (0 : Fin 1) = (j 1 : Fin 1) from (Fin.eq_zero _).symm)
    | ⟨2, _⟩ => exact (show (0 : Fin 1) = (j 2 : Fin 1) from (Fin.eq_zero _).symm)
  right_inv _ := rfl

/-- The total of a result is the sum of its eight entries. -/
private theorem total8_apply (x : FVec Ideal S8x1x1 .f32) (i : Cert.KernelIdeal.S_.Idx) :
    total8 x i = ∑ k : Fin 8, x (ix3 k 0 0) := by
  unfold total8
  rw [hostReduceAdd_apply, Ideal.hostReduceAdd_total _ (fun b => b.elim0), constant_apply, Ideal.ofBits_zero_f32, zero_add]
  exact (Equiv.sum_comp idxEquiv8.symm x).symm

/-- A count is the sum of its column of the one-hot rows. -/
private theorem counts64_apply (y : FVec Ideal S8192x64 .f32) (a : Fin 64) :
    counts64 y (ix1 a) = ∑ r : Fin 8192, y (ix2 r a) := by
  unfold counts64
  rw [hostReduceAdd_apply, Ideal.hostReduceAdd_single reducesTo_S8192x64_S64_d0 (by decide : S8192x64.Reduces [0] S64),
    constant_apply, Ideal.ofBits_zero_f32, zero_add]
  refine Finset.sum_congr rfl (fun r _ => congrArg y ?_)
  funext b
  match b with
  | ⟨0, _⟩ => rfl
  | ⟨1, _⟩ => rfl

/-- The table's total against the counts, as a double sum over the index values. -/
private theorem sameTotal_apply (t : FVec Ideal S64x64 .f32) (y : FVec Ideal S8192x64 .f32) (i : Cert.KernelIdeal.S_.Idx) :
    sameTotal t y i
      = ∑ a : Fin 64, ∑ b : Fin 64, t (ix2 a b) * ((∑ r : Fin 8192, y (ix2 r a)) * (∑ s : Fin 8192, y (ix2 s b))) := by
  unfold sameTotal
  rw [hostReduceAdd_apply, Ideal.hostReduceAdd_total _ (fun b => b.elim0), constant_apply, Ideal.ofBits_zero_f32, zero_add, sum_idx2]
  refine Finset.sum_congr rfl (fun a _ => Finset.sum_congr rfl (fun b _ => ?_))
  rw [mulf_apply, mulf_apply,
    broadcastInDim_apply ![0, 1] bcast_S64x1_S64x64_0_1 _ (ix2 a b) (ix2 a 0) (fun e => by match e with | ⟨0, _⟩ => rfl | ⟨1, _⟩ => rfl),
    broadcastInDim_apply ![0] bcast_S64_S64x1_0 _ (ix2 a (0 : Fin 1)) (ix1 a) (fun e => by match e with | ⟨0, _⟩ => rfl),
    broadcastInDim_apply ![0, 1] bcast_S1x64_S64x64_0_1 _ (ix2 a b) (ix2 0 b) (fun e => by match e with | ⟨0, _⟩ => rfl | ⟨1, _⟩ => rfl),
    broadcastInDim_apply ![1] bcast_S64_S1x64_1 _ (ix2 (0 : Fin 1) b) (ix1 b) (fun e => by match e with | ⟨0, _⟩ => rfl),
    counts64_apply, counts64_apply]

/-! ## The three sums -/

/-- The first result's total is the sum of the distances over all ordered pairs. -/
private theorem total_fst (x : FVec Ideal S8x1x1 .f32) (hx : x = ((dats m 0 c).arrAt 7 cfg0.N : S8x1x1.Idx → EReal))
    (i : Cert.KernelIdeal.S_.Idx) : total8 x i = ((sumDist d.x : ℝ) : EReal) := by
  rw [total8_apply]
  calc ∑ k : Fin 8, x (ix3 k 0 0)
      = ∑ k : Fin 8, ((∑ j : Fin 4, ∑ p : Fin 1024, ∑ q : Fin 2048, dist d.x (rowPt k p) (colPt j q) : ℝ) : EReal) :=
        Finset.sum_congr rfl (fun k _ => (congrFun hx (ix3 k 0 0)).trans ((arr7 m c k).trans (scr_last_fst m c d k)))
    _ = ((∑ k : Fin 8, ∑ j : Fin 4, ∑ p : Fin 1024, ∑ q : Fin 2048, dist d.x (rowPt k p) (colPt j q) : ℝ) : EReal) :=
        (Cert.Math.coe_sum _ _).symm
    _ = ((sumDist d.x : ℝ) : EReal) := congrArg _ (Cert.Math.tiles (fun r s => dist d.x r s))

/-- The second result's total is the sum of the distances times the same-family indicator. -/
private theorem total_snd (x : FVec Ideal S8x1x1 .f32) (hx : x = ((dats m 0 c).arrAt 8 cfg0.N : S8x1x1.Idx → EReal))
    (i : Cert.KernelIdeal.S_.Idx) : total8 x i = ((sumDistSame d.x d.ix famK : ℝ) : EReal) := by
  rw [total8_apply]
  calc ∑ k : Fin 8, x (ix3 k 0 0)
      = ∑ k : Fin 8, ((∑ j : Fin 4, ∑ p : Fin 1024, ∑ q : Fin 2048,
            dist d.x (rowPt k p) (colPt j q) * famK (d.ix (rowPt k p)) (d.ix (colPt j q)) : ℝ) : EReal) :=
        Finset.sum_congr rfl (fun k _ => (congrFun hx (ix3 k 0 0)).trans ((arr8 m c k).trans (scr_last_snd m c d k)))
    _ = ((∑ k : Fin 8, ∑ j : Fin 4, ∑ p : Fin 1024, ∑ q : Fin 2048,
            dist d.x (rowPt k p) (colPt j q) * famK (d.ix (rowPt k p)) (d.ix (colPt j q)) : ℝ) : EReal) :=
        (Cert.Math.coe_sum _ _).symm
    _ = ((sumDistSame d.x d.ix famK : ℝ) : EReal) :=
        congrArg _ (Cert.Math.tiles (fun r s => dist d.x r s * famK (d.ix r) (d.ix s)))

/-- The table's total against the counts of the one-hot rows is the sum of the same-family indicator. -/
private theorem total_same (t : FVec Ideal S64x64 .f32) (y : FVec Ideal S8192x64 .f32)
    (ht : t = (V m c main_cst : S64x64.Idx → EReal)) (hy : y = (V m c main_v2 : S8192x64.Idx → EReal))
    (i : Cert.KernelIdeal.S_.Idx) : sameTotal t y i = ((sumSame d.ix famK : ℝ) : EReal) := by
  rw [sameTotal_apply]
  calc ∑ a : Fin 64, ∑ b : Fin 64, t (ix2 a b) * ((∑ r : Fin 8192, y (ix2 r a)) * (∑ s : Fin 8192, y (ix2 s b)))
      = ∑ a : Fin 64, ∑ b : Fin 64, ((famK a b * ((∑ r : Fin 8192, if d.ix r = a then (1 : ℝ) else 0)
            * (∑ s : Fin 8192, if d.ix s = b then (1 : ℝ) else 0)) : ℝ) : EReal) := by
        refine Finset.sum_congr rfl (fun a _ => Finset.sum_congr rfl (fun b _ => ?_))
        rw [EReal.coe_mul, EReal.coe_mul, Cert.Math.coe_sum, Cert.Math.coe_sum, ht, hy, V_cst m c a b]
        refine congrArg₂ (· * ·) rfl (congrArg₂ (· * ·) ?_ ?_)
        · exact Finset.sum_congr rfl (fun r _ => V_v2 m c d r a)
        · exact Finset.sum_congr rfl (fun s _ => V_v2 m c d s b)
    _ = ((∑ a : Fin 64, ∑ b : Fin 64, famK a b * ((∑ r : Fin 8192, if d.ix r = a then (1 : ℝ) else 0)
            * (∑ s : Fin 8192, if d.ix s = b then (1 : ℝ) else 0)) : ℝ) : EReal) := by
        rw [Cert.Math.coe_sum]
        exact Finset.sum_congr rfl (fun a _ => (Cert.Math.coe_sum _ _).symm)
    _ = ((sumSame d.ix famK : ℝ) : EReal) := congrArg _ (Cert.Math.counts d.ix famK)

/-- The program's result, from any valuation that is the region-entry contents except at the two results, which hold
    what the write-backs left: the loss of the specification, at the table `famK`. -/
theorem kernel_value (W : Valuation τ sig (Elt Ideal))
    (h7 : W (Proc.devRef .tc (Pipeline.arrRef spec0 7)) = (dats m 0 c).arrAt 7 cfg0.N)
    (h8 : W (Proc.devRef .tc (Pipeline.arrRef spec0 8)) = (dats m 0 c).arrAt 8 cfg0.N)
    (hW : ∀ b : Ref sig .tc, b ≠ main_v9_0 → b ≠ main_v9_1 → W (Proc.devRef .tc b) = V m c b) :
    (StableHlo.after tailOps W (Proc.devRef .tc main_v29) : S_.Idx → EReal) = fun _ => Cert.Spec.loss famK d := by
  rw [tail_term W]
  funext i
  rw [closeOps_apply]
  unfold Cert.Spec.loss
  rw [total_fst m c d _ h7 i, total_snd m c d _ h8 i,
    total_same m c d _ _ (hW main_cst (by decide) (by decide)) (hW main_v2 (by decide) (by decide)) i]

end Cert.KernelIdeal.HandValue

end
-- ==== Proof.RTerm.lean ====
/-
  The reference program's value as a pure function of its two arguments, in three parts:
  one let per operation of @main, in program order, each the pure function the operation's
  line applies to the values of its operands; the two calls of @_where and the call
  of @relu are written out at the place of the call.
-/
import proofs.«429911_j70497593196919_3_alg».proof.ReferenceIdeal

set_option synthInstance.maxSize 4096

noncomputable section

namespace Cert.ReferenceIdeal.Hand

open Idealize.ShloMosaic Idealize.SL.Sem
open Cert.ReferenceIdeal

variable {F : FTy → Type} [FloatOps F]
variable [Facts]
open Facts₀ Facts

/-- The first half of @main, a function of %arg0 alone: %0, %2 … %20. -/
noncomputable def refDist (a0 : FVec F S16x512x16 .f32) : FVec F S8192x8192 .f32 :=
  let main_v0 : FVec F S8192x16 .f32 := shapeCast S8192x16 a0 shapeCasts_S16x512x16_S8192x16
  let main_v2 : FVec F S8192x16 .f32 := mulf main_v0 main_v0
  let main_cst_0 : FVec F S_ .f32 := constant S_ .f32 0x00000000#32
  let main_v3 : FVec F S8192 .f32 := (fun x v => Host.reduceAdd x v reducesTo_S8192x16_S8192_d1 h_S_) main_v2 main_cst_0
  let main_v4 : FVec F S8192x1 .f32 := broadcastInDim S8192x1 ![0] bcast_S8192_S8192x1_0 main_v3
  let main_v5 : FVec F S1x8192 .f32 := broadcastInDim S1x8192 ![1] bcast_S8192_S1x8192_1 main_v3
  let main_v6 : FVec F S8192x8192 .f32 := broadcastInDim S8192x8192 ![0, 1] bcast_S8192x1_S8192x8192_0_1 main_v4
  let main_v7 : FVec F S8192x8192 .f32 := broadcastInDim S8192x8192 ![0, 1] bcast_S1x8192_S8192x8192_0_1 main_v5
  let main_v8 : FVec F S8192x8192 .f32 := addf main_v6 main_v7
  let main_v9 : FVec F S16x8192 .f32 := (transpose S16x8192 [1, 0] · transposes_S8192x16_S16x8192_1_0) main_v0
  let main_v10 : FVec F S8192x8192 .f32 := (fun l r => Host.dotGeneral dot_S8192x16_S16x8192_S8192x8192_1_0_0_1_n_n none l r) main_v0 main_v9
  let main_cst_1 : FVec F S_ .f32 := constant S_ .f32 0x40000000#32
  let main_v11 : FVec F S8192x8192 .f32 := broadcastInDim S8192x8192 ![] bcast_S_S8192x8192 main_cst_1
  let main_v12 : FVec F S8192x8192 .f32 := mulf main_v11 main_v10
  let main_v13 : FVec F S8192x8192 .f32 := subf main_v8 main_v12
  let main_cst_2 : FVec F S_ .f32 := constant S_ .f32 0x00000000#32
  let main_v14 : FVec F S8192x8192 .f32 := broadcastInDim S8192x8192 ![] bcast_S_S8192x8192 main_cst_2
  let main_v15 : FVec F S8192x8192 .f32 := maximumf main_v13 main_v14
  let main_cst_3 : FVec F S_ .f32 := constant S_ .f32 0x00000000#32
  let main_v16 : FVec F S8192x8192 .f32 := broadcastInDim S8192x8192 ![] bcast_S_S8192x8192 main_cst_3
  let main_v17 : IVec S8192x8192 1 := cmpf .ogt main_v15 main_v16
  let main_cst_4 : FVec F S_ .f32 := constant S_ .f32 0x3F800000#32
  let main_call0_v0 : FVec F S_ .f32 := id main_cst_4
  let main_call0_v1 : FVec F S8192x8192 .f32 := broadcastInDim S8192x8192 ![] bcast_S_S8192x8192 main_call0_v0
  let main_v18 : FVec F S8192x8192 .f32 := select main_v17 main_v15 main_call0_v1
  let main_v19 : FVec F S8192x8192 .f32 := Host.sqrt main_v18
  let main_cst_5 : FVec F S_ .f32 := constant S_ .f32 0x00000000#32
  let main_call1_v0 : FVec F S_ .f32 := id main_cst_5
  let main_call1_v1 : FVec F S8192x8192 .f32 := broadcastInDim S8192x8192 ![] bcast_S_S8192x8192 main_call1_v0
  let main_v20 : FVec F S8192x8192 .f32 := select main_v17 main_v19 main_call1_v1
  main_v20

/-- The part of @main that reads %arg1 alone: the table %cst, %1, %21 … %38. -/
noncomputable def refSame (a1 : IVec S16x512 32) : FVec F S8192x8192 .f32 :=
  let main_cst : FVec F S64x64 .f32 := fun i => FloatOps.ofBits .f32 (lit0 (S64x64.rowMajor i))
  let main_v1 : IVec S8192 32 := shapeCast S8192 a1 shapeCasts_S16x512_S8192
  let main_v21 : IVec S8192x1 32 := broadcastInDim S8192x1 ![0] bcast_S8192_S8192x1_0 main_v1
  let main_v22 : IVec S1x8192 32 := broadcastInDim S1x8192 ![1] bcast_S8192_S1x8192_1 main_v1
  let main_c : IVec S_ 32 := constantI S_ 32 0#32
  let main_v23 : IVec S8192x1 32 := broadcastInDim S8192x1 ![] bcast_S_S8192x1 main_c
  let main_v24 : IVec S8192x1 1 := cmpi .slt main_v21 main_v23
  let main_c_6 : IVec S_ 32 := constantI S_ 32 64#32
  let main_v25 : IVec S8192x1 32 := broadcastInDim S8192x1 ![] bcast_S_S8192x1 main_c_6
  let main_v26 : IVec S8192x1 32 := addi main_v21 main_v25
  let main_v27 : IVec S8192x1 32 := select main_v24 main_v26 main_v21
  let main_c_7 : IVec S_ 32 := constantI S_ 32 0#32
  let main_v28 : IVec S1x8192 32 := broadcastInDim S1x8192 ![] bcast_S_S1x8192 main_c_7
  let main_v29 : IVec S1x8192 1 := cmpi .slt main_v22 main_v28
  let main_c_8 : IVec S_ 32 := constantI S_ 32 64#32
  let main_v30 : IVec S1x8192 32 := broadcastInDim S1x8192 ![] bcast_S_S1x8192 main_c_8
  let main_v31 : IVec S1x8192 32 := addi main_v22 main_v30
  let main_v32 : IVec S1x8192 32 := select main_v29 main_v31 main_v22
  let main_v33 : IVec S8192x8192 32 := broadcastInDim S8192x8192 ![0, 1] bcast_S8192x1_S8192x8192_0_1 main_v27
  let main_v34 : IVec S8192x8192 32 := broadcastInDim S8192x8192 ![0, 1] bcast_S1x8192_S8192x8192_0_1 main_v32
  let main_v35 : IVec S8192x8192x1 32 := broadcastInDim S8192x8192x1 ![0, 1] bcast_S8192x8192_S8192x8192x1_0_1 main_v33
  let main_v36 : IVec S8192x8192x1 32 := broadcastInDim S8192x8192x1 ![0, 1] bcast_S8192x8192_S8192x8192x1_0_1 main_v34
  let main_v37 : IVec S8192x8192x2 32 := (fun a b => concatenate S8192x8192x2 2 [⟨S8192x8192x1, a⟩, ⟨S8192x8192x1, b⟩] concatenates_S8192x8192x1_S8192x8192x1_S8192x8192x2_d2) main_v35 main_v36
  let main_v38 : FVec F S8192x8192 .f32 := (fun x i => Host.gather gather_S64x64_S8192x8192x2_S8192x8192_n_01_n_n_01_2_11 x i) main_cst main_v37
  main_v38

/-- The closing part of @main, over the values of %20 and %38: %39 … %54. -/
noncomputable def refClose (dist same : FVec F S8192x8192 .f32) : FVec F S_ .f32 :=
  let main_v20 : FVec F S8192x8192 .f32 := dist
  let main_v38 : FVec F S8192x8192 .f32 := same
  let main_cst_9 : FVec F S_ .f32 := constant S_ .f32 0x00000000#32
  let main_v39 : FVec F S_ .f32 := (fun x v => Host.reduceAdd x v reducesTo_S8192x8192_S_d0_1 h_S_) main_v38 main_cst_9
  let main_v40 : FVec F S8192x8192 .f32 := mulf main_v20 main_v38
  let main_cst_10 : FVec F S_ .f32 := constant S_ .f32 0x00000000#32
  let main_v41 : FVec F S_ .f32 := (fun x v => Host.reduceAdd x v reducesTo_S8192x8192_S_d0_1 h_S_) main_v40 main_cst_10
  let main_cst_11 : FVec F S_ .f32 := constant S_ .f32 0x2EDBE6FF#32
  let main_v42 : FVec F S_ .f32 := addf main_v39 main_cst_11
  let main_v43 : FVec F S_ .f32 := Host.divf main_v41 main_v42
  let main_cst_12 : FVec F S_ .f32 := constant S_ .f32 0x00000000#32
  let main_v44 : FVec F S_ .f32 := (fun x v => Host.reduceAdd x v reducesTo_S8192x8192_S_d0_1 h_S_) main_v20 main_cst_12
  let main_v45 : FVec F S8192x8192 .f32 := mulf main_v20 main_v38
  let main_cst_13 : FVec F S_ .f32 := constant S_ .f32 0x00000000#32
  let main_v46 : FVec F S_ .f32 := (fun x v => Host.reduceAdd x v reducesTo_S8192x8192_S_d0_1 h_S_) main_v45 main_cst_13
  let main_v47 : FVec F S_ .f32 := subf main_v44 main_v46
  let main_cst_14 : FVec F S_ .f32 := constant S_ .f32 0x4C800000#32
  let main_v48 : FVec F S_ .f32 := subf main_cst_14 main_v39
  let main_cst_15 : FVec F S_ .f32 := constant S_ .f32 0x2EDBE6FF#32
  let main_v49 : FVec F S_ .f32 := addf main_v48 main_cst_15
  let main_v50 : FVec F S_ .f32 := Host.divf main_v47 main_v49
  let main_cst_16 : FVec F S_ .f32 := constant S_ .f32 0x3F000000#32
  let main_v51 : FVec F S_ .f32 := mulf main_cst_16 main_v50
  let main_v52 : FVec F S_ .f32 := subf main_v43 main_v51
  let main_cst_17 : FVec F S_ .f32 := constant S_ .f32 0x3F800000#32
  let main_v53 : FVec F S_ .f32 := addf main_v52 main_cst_17
  let main_call2_cst : FVec F S_ .f32 := constant S_ .f32 0x00000000#32
  let main_v54 : FVec F S_ .f32 := maximumf main_v53 main_call2_cst
  main_v54

/-- @main's result as a function of the values of %arg0 and %arg1. -/
noncomputable def refTerm (a0 : FVec F S16x512x16 .f32) (a1 : IVec S16x512 32) : FVec F S_ .f32 :=
  refClose (refDist a0) (refSame a1)

end Cert.ReferenceIdeal.Hand

end
-- ==== Proof.RRun.lean ====
/-
  The reference program's run: @main as the list of its 80 host operations (the three calls'
  operations in the place of each call, over that call's buffers), the fold of their results
  at the result buffer read back as the pure term of the two arguments, and the run itself:
  every weakly fair execution terminates with the result buffer at that term and the two
  argument buffers as they were.
-/
import proofs.«429911_j70497593196919_3_alg».proof.Proof.RTerm
import proofs.«429911_j70497593196919_3_alg».proof.Proof.Gen.ReferenceIdeal
import Idealize.ShloMosaic.Lib.StableHlo.Run

set_option synthInstance.maxSize 4096

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- @main's 80 operations, in order: the callees' at the place of each call. -/
abbrev ops : List (HloOp τ sig (Elt F)) :=
  [ StableHlo.nullary main_cst (fun i => FloatOps.ofBits .f32 (lit0 (S64x64.rowMajor i))),
    StableHlo.reshape main_arg0 main_v0 rfl shapeCasts_S16x512x16_S8192x16,
    StableHlo.reshape main_arg1 main_v1 rfl shapeCasts_S16x512_S8192,
    StableHlo.binary main_v0 main_v0 main_v2 (mulf : (⟨S8192x16, .f32⟩ : BufTy).Contents (Elt F) → (⟨S8192x16, .f32⟩ : BufTy).Contents (Elt F) → (⟨S8192x16, .f32⟩ : BufTy).Contents (Elt F)),
    StableHlo.nullary main_cst_0 (constant S_ .f32 0x00000000#32),
    StableHlo.binary main_v2 main_cst_0 main_v3 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.unary main_v3 main_v5 (broadcastInDim S1x8192 ![1] bcast_S8192_S1x8192_1 : (⟨S8192, .f32⟩ : BufTy).Contents (Elt F) → (⟨S1x8192, .f32⟩ : BufTy).Contents (Elt F)),
    StableHlo.unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    StableHlo.unary main_v0 main_v9 ((transpose S16x8192 [1, 0] · transposes_S8192x16_S16x8192_1_0) : (⟨S8192x16, .f32⟩ : BufTy).Contents (Elt F) → (⟨S16x8192, .f32⟩ : BufTy).Contents (Elt F)),
    StableHlo.binary main_v0 main_v9 main_v10 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    StableHlo.nullary main_cst_1 (constant S_ .f32 0x40000000#32),
    StableHlo.unary main_cst_1 main_v11 (broadcastInDim S8192x8192 ![] bcast_S_S8192x8192 : (⟨S_, .f32⟩ : BufTy).Contents (Elt F) → (⟨S8192x8192, .f32⟩ : BufTy).Contents (Elt F)),
    StableHlo.binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    StableHlo.binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v14 (broadcastInDim S8192x8192 ![] bcast_S_S8192x8192 : (⟨S_, .f32⟩ : BufTy).Contents (Elt F) → (⟨S8192x8192, .f32⟩ : BufTy).Contents (Elt F)),
    StableHlo.binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v16 (broadcastInDim S8192x8192 ![] bcast_S_S8192x8192 : (⟨S_, .f32⟩ : BufTy).Contents (Elt F) → (⟨S8192x8192, .f32⟩ : BufTy).Contents (Elt F)),
    StableHlo.binary main_v15 main_v16 main_v17 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S8192x8192 ![] bcast_S_S8192x8192),
    StableHlo.TRef.ternary (.of main_v17 : StableHlo.TRef sig ⟨S8192x8192, .i1⟩) (.of main_v15 : StableHlo.TRef sig ⟨S8192x8192, .f32⟩) main_call0.v1 main_call0.v2 select,
    StableHlo.unary main_v18 main_v19 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (.of main_cst_5 : StableHlo.TRef sig ⟨S_, .f32⟩) main_call1.v0 id,
    StableHlo.TRef.unary main_call1.v0 main_call1.v1 (broadcastInDim S8192x8192 ![] bcast_S_S8192x8192),
    StableHlo.TRef.ternary (.of main_v17 : StableHlo.TRef sig ⟨S8192x8192, .i1⟩) (.of main_v19 : StableHlo.TRef sig ⟨S8192x8192, .f32⟩) main_call1.v1 main_call1.v2 select,
    StableHlo.unary main_v1 main_v21 (broadcastInDim S8192x1 ![0] bcast_S8192_S8192x1_0 : (⟨S8192, .i32⟩ : BufTy).Contents (Elt F) → (⟨S8192x1, .i32⟩ : BufTy).Contents (Elt F)),
    StableHlo.unary main_v1 main_v22 (broadcastInDim S1x8192 ![1] bcast_S8192_S1x8192_1 : (⟨S8192, .i32⟩ : BufTy).Contents (Elt F) → (⟨S1x8192, .i32⟩ : BufTy).Contents (Elt F)),
    StableHlo.nullary main_c (constantI S_ 32 0#32),
    StableHlo.unary main_c main_v23 (broadcastInDim S8192x1 ![] bcast_S_S8192x1 : (⟨S_, .i32⟩ : BufTy).Contents (Elt F) → (⟨S8192x1, .i32⟩ : BufTy).Contents (Elt F)),
    StableHlo.binary main_v21 main_v23 main_v24 (cmpi .slt : (⟨S8192x1, .i32⟩ : BufTy).Contents (Elt F) → (⟨S8192x1, .i32⟩ : BufTy).Contents (Elt F) → (⟨S8192x1, .i1⟩ : BufTy).Contents (Elt F)),
    StableHlo.nullary main_c_6 (constantI S_ 32 64#32),
    StableHlo.unary main_c_6 main_v25 (broadcastInDim S8192x1 ![] bcast_S_S8192x1 : (⟨S_, .i32⟩ : BufTy).Contents (Elt F) → (⟨S8192x1, .i32⟩ : BufTy).Contents (Elt F)),
    StableHlo.binary main_v21 main_v25 main_v26 (addi : (⟨S8192x1, .i32⟩ : BufTy).Contents (Elt F) → (⟨S8192x1, .i32⟩ : BufTy).Contents (Elt F) → (⟨S8192x1, .i32⟩ : BufTy).Contents (Elt F)),
    StableHlo.ternary main_v24 main_v26 main_v21 main_v27 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_7 (constantI S_ 32 0#32),
    StableHlo.unary main_c_7 main_v28 (broadcastInDim S1x8192 ![] bcast_S_S1x8192 : (⟨S_, .i32⟩ : BufTy).Contents (Elt F) → (⟨S1x8192, .i32⟩ : BufTy).Contents (Elt F)),
    StableHlo.binary main_v22 main_v28 main_v29 (cmpi .slt : (⟨S1x8192, .i32⟩ : BufTy).Contents (Elt F) → (⟨S1x8192, .i32⟩ : BufTy).Contents (Elt F) → (⟨S1x8192, .i1⟩ : BufTy).Contents (Elt F)),
    StableHlo.nullary main_c_8 (constantI S_ 32 64#32),
    StableHlo.unary main_c_8 main_v30 (broadcastInDim S1x8192 ![] bcast_S_S1x8192 : (⟨S_, .i32⟩ : BufTy).Contents (Elt F) → (⟨S1x8192, .i32⟩ : BufTy).Contents (Elt F)),
    StableHlo.binary main_v22 main_v30 main_v31 (addi : (⟨S1x8192, .i32⟩ : BufTy).Contents (Elt F) → (⟨S1x8192, .i32⟩ : BufTy).Contents (Elt F) → (⟨S1x8192, .i32⟩ : BufTy).Contents (Elt F)),
    StableHlo.ternary main_v29 main_v31 main_v22 main_v32 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.unary main_v27 main_v33 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v32 main_v34 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v33 main_v35 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.unary main_v34 main_v36 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.binary main_v35 main_v36 main_v37 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)),
    StableHlo.binary main_cst main_v37 main_v38 ((fun x i => Host.gather gather_S64x64_S8192x8192x2_S8192x8192_n_01_n_n_01_2_11 x i) : (⟨S64x64, .f32⟩ : BufTy).Contents (Elt F) → (⟨S8192x8192x2, .i32⟩ : BufTy).Contents (Elt F) → (⟨S8192x8192, .f32⟩ : BufTy).Contents (Elt F)),
    StableHlo.nullary main_cst_9 (constant S_ .f32 0x00000000#32),
    StableHlo.binary main_v38 main_cst_9 main_v39 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v20 main_v38 main_v40 (mulf : (⟨S8192x8192, .f32⟩ : BufTy).Contents (Elt F) → (⟨S8192x8192, .f32⟩ : BufTy).Contents (Elt F) → (⟨S8192x8192, .f32⟩ : BufTy).Contents (Elt F)),
    StableHlo.nullary main_cst_10 (constant S_ .f32 0x00000000#32),
    StableHlo.binary main_v40 main_cst_10 main_v41 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_11 (constant S_ .f32 0x2EDBE6FF#32),
    StableHlo.binary main_v39 main_cst_11 main_v42 (addf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x00000000#32),
    StableHlo.binary main_v20 main_cst_12 main_v44 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v20 main_v38 main_v45 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.binary main_v45 main_cst_13 main_v46 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v44 main_v46 main_v47 (subf : (⟨S_, .f32⟩ : BufTy).Contents (Elt F) → (⟨S_, .f32⟩ : BufTy).Contents (Elt F) → (⟨S_, .f32⟩ : BufTy).Contents (Elt F)),
    StableHlo.nullary main_cst_14 (constant S_ .f32 0x4C800000#32),
    StableHlo.binary main_cst_14 main_v39 main_v48 (subf : (⟨S_, .f32⟩ : BufTy).Contents (Elt F) → (⟨S_, .f32⟩ : BufTy).Contents (Elt F) → (⟨S_, .f32⟩ : BufTy).Contents (Elt F)),
    StableHlo.nullary main_cst_15 (constant S_ .f32 0x2EDBE6FF#32),
    StableHlo.binary main_v48 main_cst_15 main_v49 (addf : (⟨S_, .f32⟩ : BufTy).Contents (Elt F) → (⟨S_, .f32⟩ : BufTy).Contents (Elt F) → (⟨S_, .f32⟩ : BufTy).Contents (Elt F)),
    StableHlo.binary main_v47 main_v49 main_v50 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3F000000#32),
    StableHlo.binary main_cst_16 main_v50 main_v51 (mulf : (⟨S_, .f32⟩ : BufTy).Contents (Elt F) → (⟨S_, .f32⟩ : BufTy).Contents (Elt F) → (⟨S_, .f32⟩ : BufTy).Contents (Elt F)),
    StableHlo.binary main_v43 main_v51 main_v52 (subf : (⟨S_, .f32⟩ : BufTy).Contents (Elt F) → (⟨S_, .f32⟩ : BufTy).Contents (Elt F) → (⟨S_, .f32⟩ : BufTy).Contents (Elt F)),
    StableHlo.nullary main_cst_17 (constant S_ .f32 0x3F800000#32),
    StableHlo.binary main_v52 main_cst_17 main_v53 (addf : (⟨S_, .f32⟩ : BufTy).Contents (Elt F) → (⟨S_, .f32⟩ : BufTy).Contents (Elt F) → (⟨S_, .f32⟩ : BufTy).Contents (Elt F)),
    StableHlo.TRef.nullary main_call2.cst (constant S_ .f32 0x00000000#32),
    StableHlo.TRef.binary (.of main_v53 : StableHlo.TRef sig ⟨S_, .f32⟩) main_call2.cst main_call2.v0 maximumf ]

/-- The operations of @main's first window of statements. -/
private abbrev ops0 : List (HloOp τ sig (Elt F)) :=
  [ StableHlo.nullary main_cst (fun i => FloatOps.ofBits .f32 (lit0 (S64x64.rowMajor i))),
    StableHlo.reshape main_arg0 main_v0 rfl shapeCasts_S16x512x16_S8192x16,
    StableHlo.reshape main_arg1 main_v1 rfl shapeCasts_S16x512_S8192,
    StableHlo.binary main_v0 main_v0 main_v2 (mulf : (⟨S8192x16, .f32⟩ : BufTy).Contents (Elt F) → (⟨S8192x16, .f32⟩ : BufTy).Contents (Elt F) → (⟨S8192x16, .f32⟩ : BufTy).Contents (Elt F)),
    StableHlo.nullary main_cst_0 (constant S_ .f32 0x00000000#32),
    StableHlo.binary main_v2 main_cst_0 main_v3 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.unary main_v3 main_v5 (broadcastInDim S1x8192 ![1] bcast_S8192_S1x8192_1 : (⟨S8192, .f32⟩ : BufTy).Contents (Elt F) → (⟨S1x8192, .f32⟩ : BufTy).Contents (Elt F)),
    StableHlo.unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    StableHlo.unary main_v0 main_v9 ((transpose S16x8192 [1, 0] · transposes_S8192x16_S16x8192_1_0) : (⟨S8192x16, .f32⟩ : BufTy).Contents (Elt F) → (⟨S16x8192, .f32⟩ : BufTy).Contents (Elt F)),
    StableHlo.binary main_v0 main_v9 main_v10 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    StableHlo.nullary main_cst_1 (constant S_ .f32 0x40000000#32),
    StableHlo.unary main_cst_1 main_v11 (broadcastInDim S8192x8192 ![] bcast_S_S8192x8192 : (⟨S_, .f32⟩ : BufTy).Contents (Elt F) → (⟨S8192x8192, .f32⟩ : BufTy).Contents (Elt F)),
    StableHlo.binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    StableHlo.binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v14 (broadcastInDim S8192x8192 ![] bcast_S_S8192x8192 : (⟨S_, .f32⟩ : BufTy).Contents (Elt F) → (⟨S8192x8192, .f32⟩ : BufTy).Contents (Elt F)),
    StableHlo.binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v16 (broadcastInDim S8192x8192 ![] bcast_S_S8192x8192 : (⟨S_, .f32⟩ : BufTy).Contents (Elt F) → (⟨S8192x8192, .f32⟩ : BufTy).Contents (Elt F)),
    StableHlo.binary main_v15 main_v16 main_v17 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S8192x8192 ![] bcast_S_S8192x8192),
    StableHlo.TRef.ternary (.of main_v17 : StableHlo.TRef sig ⟨S8192x8192, .i1⟩) (.of main_v15 : StableHlo.TRef sig ⟨S8192x8192, .f32⟩) main_call0.v1 main_call0.v2 select,
    StableHlo.unary main_v18 main_v19 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (.of main_cst_5 : StableHlo.TRef sig ⟨S_, .f32⟩) main_call1.v0 id,
    StableHlo.TRef.unary main_call1.v0 main_call1.v1 (broadcastInDim S8192x8192 ![] bcast_S_S8192x8192),
    StableHlo.TRef.ternary (.of main_v17 : StableHlo.TRef sig ⟨S8192x8192, .i1⟩) (.of main_v19 : StableHlo.TRef sig ⟨S8192x8192, .f32⟩) main_call1.v1 main_call1.v2 select,
    StableHlo.unary main_v1 main_v21 (broadcastInDim S8192x1 ![0] bcast_S8192_S8192x1_0 : (⟨S8192, .i32⟩ : BufTy).Contents (Elt F) → (⟨S8192x1, .i32⟩ : BufTy).Contents (Elt F)),
    StableHlo.unary main_v1 main_v22 (broadcastInDim S1x8192 ![1] bcast_S8192_S1x8192_1 : (⟨S8192, .i32⟩ : BufTy).Contents (Elt F) → (⟨S1x8192, .i32⟩ : BufTy).Contents (Elt F)),
    StableHlo.nullary main_c (constantI S_ 32 0#32),
    StableHlo.unary main_c main_v23 (broadcastInDim S8192x1 ![] bcast_S_S8192x1 : (⟨S_, .i32⟩ : BufTy).Contents (Elt F) → (⟨S8192x1, .i32⟩ : BufTy).Contents (Elt F)),
    StableHlo.binary main_v21 main_v23 main_v24 (cmpi .slt : (⟨S8192x1, .i32⟩ : BufTy).Contents (Elt F) → (⟨S8192x1, .i32⟩ : BufTy).Contents (Elt F) → (⟨S8192x1, .i1⟩ : BufTy).Contents (Elt F)),
    StableHlo.nullary main_c_6 (constantI S_ 32 64#32),
    StableHlo.unary main_c_6 main_v25 (broadcastInDim S8192x1 ![] bcast_S_S8192x1 : (⟨S_, .i32⟩ : BufTy).Contents (Elt F) → (⟨S8192x1, .i32⟩ : BufTy).Contents (Elt F)),
    StableHlo.binary main_v21 main_v25 main_v26 (addi : (⟨S8192x1, .i32⟩ : BufTy).Contents (Elt F) → (⟨S8192x1, .i32⟩ : BufTy).Contents (Elt F) → (⟨S8192x1, .i32⟩ : BufTy).Contents (Elt F)),
    StableHlo.ternary main_v24 main_v26 main_v21 main_v27 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_7 (constantI S_ 32 0#32),
    StableHlo.unary main_c_7 main_v28 (broadcastInDim S1x8192 ![] bcast_S_S1x8192 : (⟨S_, .i32⟩ : BufTy).Contents (Elt F) → (⟨S1x8192, .i32⟩ : BufTy).Contents (Elt F)),
    StableHlo.binary main_v22 main_v28 main_v29 (cmpi .slt : (⟨S1x8192, .i32⟩ : BufTy).Contents (Elt F) → (⟨S1x8192, .i32⟩ : BufTy).Contents (Elt F) → (⟨S1x8192, .i1⟩ : BufTy).Contents (Elt F)),
    StableHlo.nullary main_c_8 (constantI S_ 32 64#32),
    StableHlo.unary main_c_8 main_v30 (broadcastInDim S1x8192 ![] bcast_S_S1x8192 : (⟨S_, .i32⟩ : BufTy).Contents (Elt F) → (⟨S1x8192, .i32⟩ : BufTy).Contents (Elt F)),
    StableHlo.binary main_v22 main_v30 main_v31 (addi : (⟨S1x8192, .i32⟩ : BufTy).Contents (Elt F) → (⟨S1x8192, .i32⟩ : BufTy).Contents (Elt F) → (⟨S1x8192, .i32⟩ : BufTy).Contents (Elt F)),
    StableHlo.ternary main_v29 main_v31 main_v22 main_v32 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.unary main_v27 main_v33 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v32 main_v34 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v33 main_v35 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.unary main_v34 main_v36 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.binary main_v35 main_v36 main_v37 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)),
    StableHlo.binary main_cst main_v37 main_v38 ((fun x i => Host.gather gather_S64x64_S8192x8192x2_S8192x8192_n_01_n_n_01_2_11 x i) : (⟨S64x64, .f32⟩ : BufTy).Contents (Elt F) → (⟨S8192x8192x2, .i32⟩ : BufTy).Contents (Elt F) → (⟨S8192x8192, .f32⟩ : BufTy).Contents (Elt F)),
    StableHlo.nullary main_cst_9 (constant S_ .f32 0x00000000#32),
    StableHlo.binary main_v38 main_cst_9 main_v39 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v20 main_v38 main_v40 (mulf : (⟨S8192x8192, .f32⟩ : BufTy).Contents (Elt F) → (⟨S8192x8192, .f32⟩ : BufTy).Contents (Elt F) → (⟨S8192x8192, .f32⟩ : BufTy).Contents (Elt F)),
    StableHlo.nullary main_cst_10 (constant S_ .f32 0x00000000#32),
    StableHlo.binary main_v40 main_cst_10 main_v41 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_11 (constant S_ .f32 0x2EDBE6FF#32),
    StableHlo.binary main_v39 main_cst_11 main_v42 (addf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x00000000#32),
    StableHlo.binary main_v20 main_cst_12 main_v44 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

/-- The operations of @main's second window of statements. -/
private abbrev ops1 : List (HloOp τ sig (Elt F)) :=
  [ StableHlo.binary main_v20 main_v38 main_v45 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.binary main_v45 main_cst_13 main_v46 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v44 main_v46 main_v47 (subf : (⟨S_, .f32⟩ : BufTy).Contents (Elt F) → (⟨S_, .f32⟩ : BufTy).Contents (Elt F) → (⟨S_, .f32⟩ : BufTy).Contents (Elt F)),
    StableHlo.nullary main_cst_14 (constant S_ .f32 0x4C800000#32),
    StableHlo.binary main_cst_14 main_v39 main_v48 (subf : (⟨S_, .f32⟩ : BufTy).Contents (Elt F) → (⟨S_, .f32⟩ : BufTy).Contents (Elt F) → (⟨S_, .f32⟩ : BufTy).Contents (Elt F)),
    StableHlo.nullary main_cst_15 (constant S_ .f32 0x2EDBE6FF#32),
    StableHlo.binary main_v48 main_cst_15 main_v49 (addf : (⟨S_, .f32⟩ : BufTy).Contents (Elt F) → (⟨S_, .f32⟩ : BufTy).Contents (Elt F) → (⟨S_, .f32⟩ : BufTy).Contents (Elt F)),
    StableHlo.binary main_v47 main_v49 main_v50 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3F000000#32),
    StableHlo.binary main_cst_16 main_v50 main_v51 (mulf : (⟨S_, .f32⟩ : BufTy).Contents (Elt F) → (⟨S_, .f32⟩ : BufTy).Contents (Elt F) → (⟨S_, .f32⟩ : BufTy).Contents (Elt F)),
    StableHlo.binary main_v43 main_v51 main_v52 (subf : (⟨S_, .f32⟩ : BufTy).Contents (Elt F) → (⟨S_, .f32⟩ : BufTy).Contents (Elt F) → (⟨S_, .f32⟩ : BufTy).Contents (Elt F)),
    StableHlo.nullary main_cst_17 (constant S_ .f32 0x3F800000#32),
    StableHlo.binary main_v52 main_cst_17 main_v53 (addf : (⟨S_, .f32⟩ : BufTy).Contents (Elt F) → (⟨S_, .f32⟩ : BufTy).Contents (Elt F) → (⟨S_, .f32⟩ : BufTy).Contents (Elt F)),
    StableHlo.TRef.nullary main_call2.cst (constant S_ .f32 0x00000000#32),
    StableHlo.TRef.binary (.of main_v53 : StableHlo.TRef sig ⟨S_, .f32⟩) main_call2.cst main_call2.v0 maximumf ]

set_option maxRecDepth 4096 in
set_option maxHeartbeats 2000000 in
private theorem part0_eq (c : Dev nD) : main_part0 (F := F) c = StableHlo.seq ops0 := by
  simp only [main_part0, fn_where.body, StableHlo.seq, bind_assoc, pure_bind]
  rfl

set_option maxRecDepth 4096 in
set_option maxHeartbeats 2000000 in
private theorem part1_eq (c : Dev nD) : main_part1 (F := F) c = StableHlo.seq ops1 := by
  simp only [main_part1, fn_relu.body, StableHlo.seq, bind_assoc, pure_bind]

/-- @main is that straight line: each window is its operations in order (the callees' definitions unfolded at
    their calls, sequencing re-associated), and the two windows in order are the whole list. -/
theorem main_eq (c : Dev nD) : main (F := F) c = StableHlo.seq ops := by
  have h : (ops : List (HloOp τ sig (Elt F))) = ops0 ++ ops1 := rfl
  rw [h, StableHlo.seq_append, ← part0_eq c, ← part1_eq c]
  rfl

/-- The operations up to %20: the table, the two reshapes, and the chain of %arg0. -/
private abbrev seg1 : List (HloOp τ sig (Elt F)) :=
  [ StableHlo.nullary main_cst (fun i => FloatOps.ofBits .f32 (lit0 (S64x64.rowMajor i))),
    StableHlo.reshape main_arg0 main_v0 rfl shapeCasts_S16x512x16_S8192x16,
    StableHlo.reshape main_arg1 main_v1 rfl shapeCasts_S16x512_S8192,
    StableHlo.binary main_v0 main_v0 main_v2 (mulf : (⟨S8192x16, .f32⟩ : BufTy).Contents (Elt F) → (⟨S8192x16, .f32⟩ : BufTy).Contents (Elt F) → (⟨S8192x16, .f32⟩ : BufTy).Contents (Elt F)),
    StableHlo.nullary main_cst_0 (constant S_ .f32 0x00000000#32),
    StableHlo.binary main_v2 main_cst_0 main_v3 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    StableHlo.unary main_v3 main_v4 (broadcastInDim S8192x1 ![0] bcast_S8192_S8192x1_0 : (⟨S8192, .f32⟩ : BufTy).Contents (Elt F) → (⟨S8192x1, .f32⟩ : BufTy).Contents (Elt F)),
    StableHlo.unary main_v3 main_v5 (broadcastInDim S1x8192 ![1] bcast_S8192_S1x8192_1 : (⟨S8192, .f32⟩ : BufTy).Contents (Elt F) → (⟨S1x8192, .f32⟩ : BufTy).Contents (Elt F)),
    StableHlo.unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    StableHlo.unary main_v0 main_v9 ((transpose S16x8192 [1, 0] · transposes_S8192x16_S16x8192_1_0) : (⟨S8192x16, .f32⟩ : BufTy).Contents (Elt F) → (⟨S16x8192, .f32⟩ : BufTy).Contents (Elt F)),
    StableHlo.binary main_v0 main_v9 main_v10 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    StableHlo.nullary main_cst_1 (constant S_ .f32 0x40000000#32),
    StableHlo.unary main_cst_1 main_v11 (broadcastInDim S8192x8192 ![] bcast_S_S8192x8192 : (⟨S_, .f32⟩ : BufTy).Contents (Elt F) → (⟨S8192x8192, .f32⟩ : BufTy).Contents (Elt F)),
    StableHlo.binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    StableHlo.binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v14 (broadcastInDim S8192x8192 ![] bcast_S_S8192x8192 : (⟨S_, .f32⟩ : BufTy).Contents (Elt F) → (⟨S8192x8192, .f32⟩ : BufTy).Contents (Elt F)),
    StableHlo.binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    StableHlo.nullary main_cst_3 (constant S_ .f32 0x00000000#32),
    StableHlo.unary main_cst_3 main_v16 (broadcastInDim S8192x8192 ![] bcast_S_S8192x8192 : (⟨S_, .f32⟩ : BufTy).Contents (Elt F) → (⟨S8192x8192, .f32⟩ : BufTy).Contents (Elt F)),
    StableHlo.binary main_v15 main_v16 main_v17 (cmpf .ogt : (⟨S8192x8192, .f32⟩ : BufTy).Contents (Elt F) → (⟨S8192x8192, .f32⟩ : BufTy).Contents (Elt F) → (⟨S8192x8192, .i1⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S8192x8192 ![] bcast_S_S8192x8192),
    StableHlo.TRef.ternary (.of main_v17 : StableHlo.TRef sig ⟨S8192x8192, .i1⟩) (.of main_v15 : StableHlo.TRef sig ⟨S8192x8192, .f32⟩) main_call0.v1 main_call0.v2 select,
    StableHlo.unary main_v18 main_v19 (Host.sqrt : (⟨S8192x8192, .f32⟩ : BufTy).Contents (Elt F) → (⟨S8192x8192, .f32⟩ : BufTy).Contents (Elt F)),
    StableHlo.nullary main_cst_5 (constant S_ .f32 0x00000000#32),
    StableHlo.TRef.unary (.of main_cst_5 : StableHlo.TRef sig ⟨S_, .f32⟩) main_call1.v0 id,
    StableHlo.TRef.unary main_call1.v0 main_call1.v1 (broadcastInDim S8192x8192 ![] bcast_S_S8192x8192),
    StableHlo.TRef.ternary (.of main_v17 : StableHlo.TRef sig ⟨S8192x8192, .i1⟩) (.of main_v19 : StableHlo.TRef sig ⟨S8192x8192, .f32⟩) main_call1.v1 main_call1.v2 select ]

/-- The operations %21 … %38: the chain of %1 and the table. -/
private abbrev seg2 : List (HloOp τ sig (Elt F)) :=
  [ StableHlo.unary main_v1 main_v21 (broadcastInDim S8192x1 ![0] bcast_S8192_S8192x1_0 : (⟨S8192, .i32⟩ : BufTy).Contents (Elt F) → (⟨S8192x1, .i32⟩ : BufTy).Contents (Elt F)),
    StableHlo.unary main_v1 main_v22 (broadcastInDim S1x8192 ![1] bcast_S8192_S1x8192_1 : (⟨S8192, .i32⟩ : BufTy).Contents (Elt F) → (⟨S1x8192, .i32⟩ : BufTy).Contents (Elt F)),
    StableHlo.nullary main_c (constantI S_ 32 0#32),
    StableHlo.unary main_c main_v23 (broadcastInDim S8192x1 ![] bcast_S_S8192x1 : (⟨S_, .i32⟩ : BufTy).Contents (Elt F) → (⟨S8192x1, .i32⟩ : BufTy).Contents (Elt F)),
    StableHlo.binary main_v21 main_v23 main_v24 (cmpi .slt : (⟨S8192x1, .i32⟩ : BufTy).Contents (Elt F) → (⟨S8192x1, .i32⟩ : BufTy).Contents (Elt F) → (⟨S8192x1, .i1⟩ : BufTy).Contents (Elt F)),
    StableHlo.nullary main_c_6 (constantI S_ 32 64#32),
    StableHlo.unary main_c_6 main_v25 (broadcastInDim S8192x1 ![] bcast_S_S8192x1 : (⟨S_, .i32⟩ : BufTy).Contents (Elt F) → (⟨S8192x1, .i32⟩ : BufTy).Contents (Elt F)),
    StableHlo.binary main_v21 main_v25 main_v26 (addi : (⟨S8192x1, .i32⟩ : BufTy).Contents (Elt F) → (⟨S8192x1, .i32⟩ : BufTy).Contents (Elt F) → (⟨S8192x1, .i32⟩ : BufTy).Contents (Elt F)),
    StableHlo.ternary main_v24 main_v26 main_v21 main_v27 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    StableHlo.nullary main_c_7 (constantI S_ 32 0#32),
    StableHlo.unary main_c_7 main_v28 (broadcastInDim S1x8192 ![] bcast_S_S1x8192 : (⟨S_, .i32⟩ : BufTy).Contents (Elt F) → (⟨S1x8192, .i32⟩ : BufTy).Contents (Elt F)),
    StableHlo.binary main_v22 main_v28 main_v29 (cmpi .slt : (⟨S1x8192, .i32⟩ : BufTy).Contents (Elt F) → (⟨S1x8192, .i32⟩ : BufTy).Contents (Elt F) → (⟨S1x8192, .i1⟩ : BufTy).Contents (Elt F)),
    StableHlo.nullary main_c_8 (constantI S_ 32 64#32),
    StableHlo.unary main_c_8 main_v30 (broadcastInDim S1x8192 ![] bcast_S_S1x8192 : (⟨S_, .i32⟩ : BufTy).Contents (Elt F) → (⟨S1x8192, .i32⟩ : BufTy).Contents (Elt F)),
    StableHlo.binary main_v22 main_v30 main_v31 (addi : (⟨S1x8192, .i32⟩ : BufTy).Contents (Elt F) → (⟨S1x8192, .i32⟩ : BufTy).Contents (Elt F) → (⟨S1x8192, .i32⟩ : BufTy).Contents (Elt F)),
    StableHlo.ternary main_v29 main_v31 main_v22 main_v32 (select : (⟨S1x8192, .i1⟩ : BufTy).Contents (Elt F) → (⟨S1x8192, .i32⟩ : BufTy).Contents (Elt F) → (⟨S1x8192, .i32⟩ : BufTy).Contents (Elt F) → (⟨S1x8192, .i32⟩ : BufTy).Contents (Elt F)),
    StableHlo.unary main_v27 main_v33 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v32 main_v34 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v33 main_v35 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.unary main_v34 main_v36 (broadcastInDim S8192x8192x1 ![0, 1] bcast_S8192x8192_S8192x8192x1_0_1 : (⟨S8192x8192, .i32⟩ : BufTy).Contents (Elt F) → (⟨S8192x8192x1, .i32⟩ : BufTy).Contents (Elt F)),
    StableHlo.binary main_v35 main_v36 main_v37 ((fun a b => concatenate S8192x8192x2 2 [⟨S8192x8192x1, a⟩, ⟨S8192x8192x1, b⟩] concatenates_S8192x8192x1_S8192x8192x1_S8192x8192x2_d2) : (⟨S8192x8192x1, .i32⟩ : BufTy).Contents (Elt F) → (⟨S8192x8192x1, .i32⟩ : BufTy).Contents (Elt F) → (⟨S8192x8192x2, .i32⟩ : BufTy).Contents (Elt F)),
    StableHlo.binary main_cst main_v37 main_v38 ((fun x i => Host.gather gather_S64x64_S8192x8192x2_S8192x8192_n_01_n_n_01_2_11 x i) : (⟨S64x64, .f32⟩ : BufTy).Contents (Elt F) → (⟨S8192x8192x2, .i32⟩ : BufTy).Contents (Elt F) → (⟨S8192x8192, .f32⟩ : BufTy).Contents (Elt F)) ]

/-- The closing operations, %cst_9 … %54. -/
private abbrev seg3 : List (HloOp τ sig (Elt F)) :=
  [ StableHlo.nullary main_cst_9 (constant S_ .f32 0x00000000#32),
    StableHlo.binary main_v38 main_cst_9 main_v39 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v20 main_v38 main_v40 (mulf : (⟨S8192x8192, .f32⟩ : BufTy).Contents (Elt F) → (⟨S8192x8192, .f32⟩ : BufTy).Contents (Elt F) → (⟨S8192x8192, .f32⟩ : BufTy).Contents (Elt F)),
    StableHlo.nullary main_cst_10 (constant S_ .f32 0x00000000#32),
    StableHlo.binary main_v40 main_cst_10 main_v41 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.nullary main_cst_11 (constant S_ .f32 0x2EDBE6FF#32),
    StableHlo.binary main_v39 main_cst_11 main_v42 (addf : (⟨S_, .f32⟩ : BufTy).Contents (Elt F) → (⟨S_, .f32⟩ : BufTy).Contents (Elt F) → (⟨S_, .f32⟩ : BufTy).Contents (Elt F)),
    StableHlo.binary main_v41 main_v42 main_v43 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x00000000#32),
    StableHlo.binary main_v20 main_cst_12 main_v44 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v20 main_v38 main_v45 (mulf : (⟨S8192x8192, .f32⟩ : BufTy).Contents (Elt F) → (⟨S8192x8192, .f32⟩ : BufTy).Contents (Elt F) → (⟨S8192x8192, .f32⟩ : BufTy).Contents (Elt F)),
    StableHlo.nullary main_cst_13 (constant S_ .f32 0x00000000#32),
    StableHlo.binary main_v45 main_cst_13 main_v46 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v44 main_v46 main_v47 (subf : (⟨S_, .f32⟩ : BufTy).Contents (Elt F) → (⟨S_, .f32⟩ : BufTy).Contents (Elt F) → (⟨S_, .f32⟩ : BufTy).Contents (Elt F)),
    StableHlo.nullary main_cst_14 (constant S_ .f32 0x4C800000#32),
    StableHlo.binary main_cst_14 main_v39 main_v48 (subf : (⟨S_, .f32⟩ : BufTy).Contents (Elt F) → (⟨S_, .f32⟩ : BufTy).Contents (Elt F) → (⟨S_, .f32⟩ : BufTy).Contents (Elt F)),
    StableHlo.nullary main_cst_15 (constant S_ .f32 0x2EDBE6FF#32),
    StableHlo.binary main_v48 main_cst_15 main_v49 (addf : (⟨S_, .f32⟩ : BufTy).Contents (Elt F) → (⟨S_, .f32⟩ : BufTy).Contents (Elt F) → (⟨S_, .f32⟩ : BufTy).Contents (Elt F)),
    StableHlo.binary main_v47 main_v49 main_v50 (Host.divf : (⟨S_, .f32⟩ : BufTy).Contents (Elt F) → (⟨S_, .f32⟩ : BufTy).Contents (Elt F) → (⟨S_, .f32⟩ : BufTy).Contents (Elt F)),
    StableHlo.nullary main_cst_16 (constant S_ .f32 0x3F000000#32),
    StableHlo.binary main_cst_16 main_v50 main_v51 (mulf : (⟨S_, .f32⟩ : BufTy).Contents (Elt F) → (⟨S_, .f32⟩ : BufTy).Contents (Elt F) → (⟨S_, .f32⟩ : BufTy).Contents (Elt F)),
    StableHlo.binary main_v43 main_v51 main_v52 (subf : (⟨S_, .f32⟩ : BufTy).Contents (Elt F) → (⟨S_, .f32⟩ : BufTy).Contents (Elt F) → (⟨S_, .f32⟩ : BufTy).Contents (Elt F)),
    StableHlo.nullary main_cst_17 (constant S_ .f32 0x3F800000#32),
    StableHlo.binary main_v52 main_cst_17 main_v53 (addf : (⟨S_, .f32⟩ : BufTy).Contents (Elt F) → (⟨S_, .f32⟩ : BufTy).Contents (Elt F) → (⟨S_, .f32⟩ : BufTy).Contents (Elt F)),
    StableHlo.TRef.nullary main_call2.cst (constant S_ .f32 0x00000000#32),
    StableHlo.TRef.binary (.of main_v53 : StableHlo.TRef sig ⟨S_, .f32⟩) main_call2.cst main_call2.v0 maximumf ]

private theorem ops_segs : (ops : List (HloOp τ sig (Elt F))) = seg1 ++ (seg2 ++ seg3) := rfl

/-- The fold over a concatenation is the fold over its second part from the fold over its first. -/
private theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- %21 … %38 as a function of the values of the table %cst and of %1. -/
private def sameOf (main_cst : FVec F S64x64 .f32) (main_v1 : IVec S8192 32) : FVec F S8192x8192 .f32 :=
  let main_v21 : IVec S8192x1 32 := broadcastInDim S8192x1 ![0] bcast_S8192_S8192x1_0 main_v1
  let main_v22 : IVec S1x8192 32 := broadcastInDim S1x8192 ![1] bcast_S8192_S1x8192_1 main_v1
  let main_c : IVec S_ 32 := constantI S_ 32 0#32
  let main_v23 : IVec S8192x1 32 := broadcastInDim S8192x1 ![] bcast_S_S8192x1 main_c
  let main_v24 : IVec S8192x1 1 := cmpi .slt main_v21 main_v23
  let main_c_6 : IVec S_ 32 := constantI S_ 32 64#32
  let main_v25 : IVec S8192x1 32 := broadcastInDim S8192x1 ![] bcast_S_S8192x1 main_c_6
  let main_v26 : IVec S8192x1 32 := addi main_v21 main_v25
  let main_v27 : IVec S8192x1 32 := select main_v24 main_v26 main_v21
  let main_c_7 : IVec S_ 32 := constantI S_ 32 0#32
  let main_v28 : IVec S1x8192 32 := broadcastInDim S1x8192 ![] bcast_S_S1x8192 main_c_7
  let main_v29 : IVec S1x8192 1 := cmpi .slt main_v22 main_v28
  let main_c_8 : IVec S_ 32 := constantI S_ 32 64#32
  let main_v30 : IVec S1x8192 32 := broadcastInDim S1x8192 ![] bcast_S_S1x8192 main_c_8
  let main_v31 : IVec S1x8192 32 := addi main_v22 main_v30
  let main_v32 : IVec S1x8192 32 := select main_v29 main_v31 main_v22
  let main_v33 : IVec S8192x8192 32 := broadcastInDim S8192x8192 ![0, 1] bcast_S8192x1_S8192x8192_0_1 main_v27
  let main_v34 : IVec S8192x8192 32 := broadcastInDim S8192x8192 ![0, 1] bcast_S1x8192_S8192x8192_0_1 main_v32
  let main_v35 : IVec S8192x8192x1 32 := broadcastInDim S8192x8192x1 ![0, 1] bcast_S8192x8192_S8192x8192x1_0_1 main_v33
  let main_v36 : IVec S8192x8192x1 32 := broadcastInDim S8192x8192x1 ![0, 1] bcast_S8192x8192_S8192x8192x1_0_1 main_v34
  let main_v37 : IVec S8192x8192x2 32 := (fun a b => concatenate S8192x8192x2 2 [⟨S8192x8192x1, a⟩, ⟨S8192x8192x1, b⟩] concatenates_S8192x8192x1_S8192x8192x1_S8192x8192x2_d2) main_v35 main_v36
  let main_v38 : FVec F S8192x8192 .f32 := (fun x i => Host.gather gather_S64x64_S8192x8192x2_S8192x8192_n_01_n_n_01_2_11 x i) main_cst main_v37
  main_v38

private theorem refSame_eq (a1 : IVec S16x512 32) :
    refSame (F := F) a1 = sameOf (fun i => FloatOps.ofBits .f32 (lit0 (S64x64.rowMajor i))) (shapeCast S8192 a1 shapeCasts_S16x512_S8192) := rfl

set_option maxHeartbeats 2000000 in
/-- After the closing operations the result buffer holds the closing term of what %20 and %38 held. -/
private theorem seg3_v54 (W : Valuation τ sig (Elt F)) :
    StableHlo.after seg3 W (Proc.devRef .tc main_v54) = refClose (W (Proc.devRef .tc main_v20)) (W (Proc.devRef .tc main_v38)) := by
  after_results_simp
  rfl

set_option maxHeartbeats 2000000 in
/-- After %21 … %38, %38's buffer holds their term of what the table's and %1's buffers held. -/
private theorem seg2_v38 (W : Valuation τ sig (Elt F)) :
    StableHlo.after seg2 W (Proc.devRef .tc main_v38) = sameOf (W (Proc.devRef .tc main_cst)) (W (Proc.devRef .tc main_v1)) := by
  after_results
  rfl

/-- %21 … %38 do not write %20's buffer. -/
private theorem seg2_v20 (W : Valuation τ sig (Elt F)) :
    StableHlo.after seg2 W (Proc.devRef .tc main_v20) = W (Proc.devRef .tc main_v20) := by
  after_results_simp

set_option maxHeartbeats 2000000 in
/-- After the operations up to %20, its buffer holds the first part's term of %arg0. -/
private theorem seg1_v20 (W : Valuation τ sig (Elt F)) :
    StableHlo.after seg1 W (Proc.devRef .tc main_v20) = refDist (W (Proc.devRef .tc main_arg0)) := by
  after_results_simp
  rfl

/-- … the table's buffer the table … -/
private theorem seg1_cst (W : Valuation τ sig (Elt F)) :
    StableHlo.after seg1 W (Proc.devRef .tc main_cst) = fun i => FloatOps.ofBits .f32 (lit0 (S64x64.rowMajor i)) := by
  after_results_simp
  rfl

/-- … and %1's buffer %arg1 at its shape. -/
private theorem seg1_v1 (W : Valuation τ sig (Elt F)) :
    StableHlo.after seg1 W (Proc.devRef .tc main_v1) = shapeCast S8192 (W (Proc.devRef .tc main_arg1)) shapeCasts_S16x512_S8192 := by
  after_results_simp
  rfl

/-- The fold of the 80 operations at the result buffer is the reference's term of the two arguments. -/
theorem result_eq (V : Valuation τ sig (Elt F)) :
    StableHlo.after ops V (Proc.devRef .tc main_v54) = refTerm (V (Proc.devRef .tc main_arg0)) (V (Proc.devRef .tc main_arg1)) := by
  rw [ops_segs, after_append, after_append, seg3_v54, seg2_v20, seg2_v38, seg1_v20, seg1_cst, seg1_v1, refTerm, refSame_eq]

set_option maxHeartbeats 2000000 in
/-- No operation writes an argument's buffer. -/
private theorem arg0_eq (V : Valuation τ sig (Elt F)) :
    StableHlo.after ops V (Proc.devRef .tc main_arg0) = V (Proc.devRef .tc main_arg0) := by
  after_results_simp

set_option maxHeartbeats 2000000 in
private theorem arg1_eq (V : Valuation τ sig (Elt F)) :
    StableHlo.after ops V (Proc.devRef .tc main_arg1) = V (Proc.devRef .tc main_arg1) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.nullary_bufs_sub .., StableHlo.reshape_bufs_sub .., StableHlo.reshape_bufs_sub .., StableHlo.binary_bufs_sub .., StableHlo.nullary_bufs_sub ..,
    StableHlo.binary_bufs_sub .., StableHlo.unary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub .., StableHlo.unary_bufs_sub ..,
    StableHlo.binary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub ..,
    StableHlo.unary_bufs_sub .., StableHlo.ternary_bufs_sub .., StableHlo.unary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.unary_bufs_sub ..,
    StableHlo.unary_bufs_sub .., StableHlo.unary_bufs_sub .., StableHlo.binary_bufs_sub .., StableHlo.binary_bufs_sub .., StableHlo.nullary_bufs_sub ..,
    StableHlo.binary_bufs_sub .., StableHlo.binary_bufs_sub .., StableHlo.nullary_bufs_sub .., StableHlo.binary_bufs_sub .., StableHlo.nullary_bufs_sub ..,
    StableHlo.binary_bufs_sub .., StableHlo.binary_bufs_sub .., StableHlo.nullary_bufs_sub .., StableHlo.binary_bufs_sub .., StableHlo.binary_bufs_sub ..,
    StableHlo.nullary_bufs_sub .., StableHlo.binary_bufs_sub .., StableHlo.binary_bufs_sub .., StableHlo.nullary_bufs_sub .., StableHlo.binary_bufs_sub ..,
    StableHlo.nullary_bufs_sub .., StableHlo.binary_bufs_sub .., StableHlo.binary_bufs_sub .., StableHlo.nullary_bufs_sub .., StableHlo.binary_bufs_sub ..,
    StableHlo.binary_bufs_sub .., StableHlo.nullary_bufs_sub .., StableHlo.binary_bufs_sub .., StableHlo.nullary_bufs_sub .., StableHlo.binary_bufs_sub ..⟩

/-- On every device, for any float values, from any memory with zero counters: every weakly fair execution of
    @main terminates with the result buffer at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v54) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c main_v54).trans (result_eq _),
      (h c main_arg0).trans (arg0_eq _),
      (h c main_arg1).trans (arg1_eq _)⟩)
    (StableHlo.run_seq scopedRefs_eq scopedSems_eq defs main (fun _ => ops) main_eq (fun _ => ops_sub) m ρ)

end Cert.ReferenceIdeal.Hand

end
-- ==== Proof.RVSame.lean ====
/-
  The reference's same-family matrix, entry by entry: at (r, s) the pair of (normalised) indices of points r and s is
  looked up in the 64 × 64 table; with both indices in range the normalisation and the lookup's clamping change
  nothing, and the entry is the table's value at (ix r, ix s).
-/
import proofs.«429911_j70497593196919_3_alg».proof.Proof.RTerm
import proofs.«429911_j70497593196919_3_alg».proof.Proof.Spec
import proofs.«429911_j70497593196919_3_alg».proof.Proof.LibRowOps
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.HandValue

open Cert.ReferenceIdeal Cert.ReferenceIdeal.Hand
open Idealize.ShloMosaic Idealize.SL.Sem
open Idealize.ShloMosaic.ValueIdx

variable [Cert.ReferenceIdeal.Facts]

/-! ## Words -/

/-- Every word of the printed table is the pattern of 1 or of 0. -/
private theorem lit0_word : ∀ i : Fin 4096, lit0 i = 0x3F800000#32 ∨ lit0 i = 0x00000000#32 := by decide +kernel

/-- The pattern of 1. -/
private theorem ofBits_one_f32 : Ideal.ofBits .f32 0x3F800000#32 = ((1 : ℝ) : EReal) := by
  simp [Ideal.ofBits, Ideal.ieee, -EReal.coe_mul]; norm_num

/-- An index word in range is left as it is by the reference's normalisation (64 added to a negative index), -/
private theorem norm_word : ∀ k : Fin 64,
    Scalar.select (IntOp.cmpi .slt (BitVec.ofNat 32 k.val) 0#32) (IntOp.addi (BitVec.ofNat 32 k.val) 64#32) (BitVec.ofNat 32 k.val)
      = BitVec.ofNat 32 k.val := by decide +kernel

/-- and, read signed, is its own clamp into 0 … 63. -/
private theorem clamp_word : ∀ k : Fin 64, min (BitVec.ofNat 32 k.val).toInt.toNat 63 = k.val := by decide +kernel

/-- The normalisation at an index, from the word there. -/
private theorem normalise_apply {sh : Shape} (v z c : IVec sh 32) (i : sh.Idx) (k : Fin 64)
    (hv : v i = BitVec.ofNat 32 k.val) (hz : z i = 0#32) (hc : c i = 64#32) :
    select (cmpi .slt v z) (addi v c) v i = BitVec.ofNat 32 k.val := by
  show Scalar.select (IntOp.cmpi .slt (v i) (z i)) (IntOp.addi (v i) (c i)) (v i) = _
  rw [hv, hz, hc]; exact norm_word k

/-! ## The table lookup -/

/-- The reference's one gather: a 64 × 64 table read at a pair of start words per result element. -/
private abbrev GD : GatherDims S64x64 S8192x8192x2 S8192x8192 := gather_S64x64_S8192x8192x2_S8192x8192_n_01_n_n_01_2_11

/-- The table lookup read at (r, s): the table at the two start words of (r, s), each read signed and clamped into
    0 … 63 (both table axes are collapsed and start-indexed, the slices one element, nothing batched). -/
private theorem gather_table_apply {α : Type} {w : Nat} (x : S64x64.Idx → α) (idx : IVec S8192x8192x2 w) (r s : Fin 8192) :
    Host.gather GD x idx (ix2 r s)
      = x (ix2 (⟨min (idx (ix3 r s (0 : Fin 2))).toInt.toNat 63, by omega⟩ : Fin 64)
               (⟨min (idx (ix3 r s (1 : Fin 2))).toInt.toNat 63, by omega⟩ : Fin 64)) := by
  have hb : ∀ a : Fin S64x64.rank, a ∉ GD.operandBatchingDims := fun a => List.not_mem_nil
  have hk : ∀ a : Fin S64x64.rank, a ∉ GD.sKept := fun a h => by
    have hc := ((GatherDims.mem_sKept _ _).mp h).1
    match a with
    | ⟨0, _⟩ => exact hc List.mem_cons_self
    | ⟨1, _⟩ => exact hc (List.mem_cons_of_mem _ List.mem_cons_self)
  have h0 : (0 : Fin 2) ∈ GD.startIndexMap := List.mem_cons_self
  have h1 : (1 : Fin 2) ∈ GD.startIndexMap := List.mem_cons_of_mem _ List.mem_cons_self
  unfold Host.gather
  congr 1
  funext a
  refine Fin.ext ?_
  match a with
  | ⟨0, _⟩ =>
    show GD.start (ix2 r s) idx 0 + GD.batchCoord (ix2 r s) 0 + GD.offCoord (ix2 r s) 0 = _
    rw [GatherDims.batchCoord_eq_zero _ _ _ (hb 0), GatherDims.offCoord_eq_zero _ _ _ (hk 0)]
    unfold GatherDims.start
    rw [dif_pos h0]
    have hsi : GD.siIdx (ix2 r s) ⟨List.idxOf (0 : Fin 2) GD.startIndexMap, List.idxOf_lt_length_iff.2 h0⟩ = ix3 r s (0 : Fin 2) := by
      funext b; refine Fin.ext ?_
      match b with
      | ⟨0, _⟩ => rfl
      | ⟨1, _⟩ => rfl
      | ⟨2, _⟩ => rfl
    rw [hsi]; rfl
  | ⟨1, _⟩ =>
    show GD.start (ix2 r s) idx 1 + GD.batchCoord (ix2 r s) 1 + GD.offCoord (ix2 r s) 1 = _
    rw [GatherDims.batchCoord_eq_zero _ _ _ (hb 1), GatherDims.offCoord_eq_zero _ _ _ (hk 1)]
    unfold GatherDims.start
    rw [dif_pos h1]
    have hsi : GD.siIdx (ix2 r s) ⟨List.idxOf (1 : Fin 2) GD.startIndexMap, List.idxOf_lt_length_iff.2 h1⟩ = ix3 r s (1 : Fin 2) := by
      funext b; refine Fin.ext ?_
      match b with
      | ⟨0, _⟩ => rfl
      | ⟨1, _⟩ => rfl
      | ⟨2, _⟩ => rfl
    rw [hsi]; rfl

/-- With both start words the numerals of indices in range, the lookup reads the table there. -/
private theorem gather_table_at {α : Type} (x : S64x64.Idx → α) (idx : IVec S8192x8192x2 32) (r s : Fin 8192) (a b : Fin 64)
    (h0 : idx (ix3 r s (0 : Fin 2)) = BitVec.ofNat 32 a.val) (h1 : idx (ix3 r s (1 : Fin 2)) = BitVec.ofNat 32 b.val) :
    Host.gather GD x idx (ix2 r s) = x (ix2 a b) := by
  rw [gather_table_apply]
  congr 1
  funext e
  match e with
  | ⟨0, _⟩ => exact Fin.ext (by show min (idx (ix3 r s (0 : Fin 2))).toInt.toNat 63 = a.val; rw [h0]; exact clamp_word a)
  | ⟨1, _⟩ => exact Fin.ext (by show min (idx (ix3 r s (1 : Fin 2))).toInt.toNat 63 = b.val; rw [h1]; exact clamp_word b)

/-! ## The table's values and the matrix -/

/-- The same-family table as real numbers: entry (a, b) is word 64 a + b of the printed constant. -/
def famR (a b : Fin 64) : ℝ := (Ideal.ofBits .f32 (lit0 ⟨64 * a.val + b.val, by omega⟩)).toReal

/-- Every word of the table is the pattern of 1 or of 0, so its value is the real number `famR a b`. -/
theorem famR_coe (a b : Fin 64) : Ideal.ofBits .f32 (lit0 ⟨64 * a.val + b.val, by omega⟩) = ((famR a b : ℝ) : EReal) := by
  unfold famR
  rcases lit0_word ⟨64 * a.val + b.val, by omega⟩ with h | h
  · rw [h, ofBits_one_f32, EReal.toReal_coe]
  · rw [h, Ideal.ofBits_zero_f32, EReal.toReal_zero, EReal.coe_zero]

theorem refSame_apply (a1 : IVec S16x512 32) (ix : Fin 8192 → Fin 64)
    (hix : ∀ r, Cert.Spec.idxOf a1 r = BitVec.ofNat 32 (ix r).val) (r s : Fin 8192) :
    refSame (F := Ideal) a1 (ix2 r s) = ((famR (ix r) (ix s) : ℝ) : EReal) := by
  -- the flattened index array at point p is point p's index word
  have hrow : ∀ p : Fin 8192, shapeCast S8192 a1 Facts₀.shapeCasts_S16x512_S8192 (ix1 p) = BitVec.ofNat 32 (ix p).val := fun p => by
    rw [← hix p]
    unfold Cert.Spec.idxOf
    exact shapeCast_apply a1 _ (ix1 p) _ (by
      rw [Shape.rowMajor_val_two, Shape.rowMajor_val_one]
      show p.val / 512 * 512 + p.val % 512 = p.val
      omega)
  unfold refSame
  show Host.gather GD _ _ (ix2 r s) = _
  refine (gather_table_at _ _ r s (ix r) (ix s) ?_ ?_).trans ?_
  · -- the pair's first component: the row point's word, laid along the rows
    refine (concatenate_pair_apply_left (s₁ := S8192x8192x1) (s₂ := S8192x8192x1) 2 _ _ _ (ix3 r s (0 : Fin 2)) rfl (ix3 r s (0 : Fin 1))
      (fun b => by match b with | ⟨0, _⟩ => rfl | ⟨1, _⟩ => rfl | ⟨2, _⟩ => rfl)).trans ?_
    refine (broadcastInDim_apply _ _ _ (ix3 r s (0 : Fin 1)) (ix2 r s)
      (fun a => by match a with | ⟨0, _⟩ => rfl | ⟨1, _⟩ => rfl)).trans ?_
    refine (broadcastInDim_apply _ _ _ (ix2 r s) (ix2 r (0 : Fin 1))
      (fun a => by match a with | ⟨0, _⟩ => rfl | ⟨1, _⟩ => rfl)).trans ?_
    exact normalise_apply _ _ _ _ (ix r)
      ((broadcastInDim_apply _ _ _ (ix2 r (0 : Fin 1)) (ix1 r) (fun a => by match a with | ⟨0, _⟩ => rfl)).trans (hrow r)) rfl rfl
  · -- the second: the column point's word, laid along the columns
    refine (concatenate_pair_apply_right (s₁ := S8192x8192x1) (s₂ := S8192x8192x1) 2 _ _ _ (ix3 r s (1 : Fin 2)) rfl rfl (ix3 r s (0 : Fin 1))
      (fun b hb => by match b with | ⟨0, _⟩ => rfl | ⟨1, _⟩ => rfl | ⟨2, _⟩ => exact absurd rfl hb) rfl).trans ?_
    refine (broadcastInDim_apply _ _ _ (ix3 r s (0 : Fin 1)) (ix2 r s)
      (fun a => by match a with | ⟨0, _⟩ => rfl | ⟨1, _⟩ => rfl)).trans ?_
    refine (broadcastInDim_apply _ _ _ (ix2 r s) (ix2 (0 : Fin 1) s)
      (fun a => by match a with | ⟨0, _⟩ => rfl | ⟨1, _⟩ => rfl)).trans ?_
    exact normalise_apply _ _ _ _ (ix s)
      ((broadcastInDim_apply _ _ _ (ix2 (0 : Fin 1) s) (ix1 s) (fun a => by match a with | ⟨0, _⟩ => rfl)).trans (hrow s)) rfl rfl
  · -- the table at (ix r, ix s): word 64 · ix r + ix s of the printed constant
    show Ideal.ofBits .f32 (lit0 (S64x64.rowMajor (ix2 (ix r) (ix s)))) = _
    rw [show S64x64.rowMajor (ix2 (ix r) (ix s)) = (⟨64 * (ix r).val + (ix s).val, by omega⟩ : Fin 4096) from
      Fin.ext (by rw [Shape.rowMajor_val_two]; show (ix r).val * 64 + (ix s).val = 64 * (ix r).val + (ix s).val; omega)]
    exact famR_coe (ix r) (ix s)

end Cert.ReferenceIdeal.HandValue

end
-- ==== Proof.RVDist.lean ====
/-
  The reference's distance matrix, entry by entry, when the embeddings are real: |x_r|² + |x_s|² − 2 ⟨x_r, x_s⟩ clamped
  at zero, and its root taken where it is positive (zero elsewhere) — which is the root of the clamped value, the root
  of zero being zero.
-/
import proofs.«429911_j70497593196919_3_alg».proof.Proof.RTerm
import proofs.«429911_j70497593196919_3_alg».proof.Proof.Spec
import proofs.«429911_j70497593196919_3_alg».proof.Proof.Math
import proofs.«429911_j70497593196919_3_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.HandValue

open Cert.ReferenceIdeal Cert.ReferenceIdeal.Hand
open Idealize.ShloMosaic Idealize.SL.Sem
open Idealize.ShloMosaic.ValueIdx

variable [Cert.ReferenceIdeal.Facts]

open Facts₀ Facts

/-! ## The literal words, a sum of coercions, and the guarded root -/

/-- The word `0x40000000` is the real number two. -/
private theorem ofBits_two_f32 : Ideal.ofBits .f32 0x40000000#32 = ((2 : ℝ) : EReal) := by
  simp [Ideal.ofBits, Ideal.ieee, -EReal.coe_mul]; norm_num

/-- The maximum of a real and zero, taken on the extended reals, is the coercion of the real maximum. -/
private theorem max_coe_zero (t : ℝ) : max ((t : ℝ) : EReal) 0 = ((max t 0 : ℝ) : EReal) := by
  rw [← EReal.coe_zero]; exact (EReal.coe_strictMono.monotone.map_max).symm

/-- The root of a non-negative real, on the extended reals, is the real root. -/
private theorem sqrt_nonneg_coe (d : ℝ) (hd : 0 ≤ d) : Ideal.sqrt ((d : ℝ) : EReal) = ((Real.sqrt d : ℝ) : EReal) := by
  rw [Ideal.sqrt_coe, if_neg (not_lt.mpr hd)]

/-- "The root where the value is positive, else zero" of a non-negative real is its root, whatever stands in for the
    value where it is not positive: the root of zero is zero. -/
private theorem guarded_root (d : ℝ) (hd : 0 ≤ d) (c : EReal) :
    Scalar.select (Ideal.cmp .ogt ((d : ℝ) : EReal) 0)
        (Ideal.sqrt (Scalar.select (Ideal.cmp .ogt ((d : ℝ) : EReal) 0) ((d : ℝ) : EReal) c)) 0
      = ((Real.sqrt d : ℝ) : EReal) := by
  by_cases h : 0 < d
  · have hc : Ideal.cmp .ogt ((d : ℝ) : EReal) 0 = 1#1 := by
      show BitVec.ofBool (decide ((0 : EReal) < ((d : ℝ) : EReal))) = 1#1
      rw [decide_eq_true (EReal.coe_pos.mpr h)]; rfl
    rw [hc, select_one, select_one]
    exact sqrt_nonneg_coe d hd
  · have hc : Ideal.cmp .ogt ((d : ℝ) : EReal) 0 = 0#1 := by
      show BitVec.ofBool (decide ((0 : EReal) < ((d : ℝ) : EReal))) = 0#1
      rw [decide_eq_false (fun hlt => h (EReal.coe_pos.mp hlt))]; rfl
    have h0 : d = 0 := le_antisymm (not_lt.mp h) hd
    rw [hc, select_zero, h0, Real.sqrt_zero, EReal.coe_zero]

/-! ## The program's intermediate arrays -/

/-- The 8192 points as rows: the embeddings array read in row-major order. -/
private def rows (a0 : FVec Ideal S16x512x16 .f32) : FVec Ideal S8192x16 .f32 :=
  shapeCast S8192x16 a0 shapeCasts_S16x512x16_S8192x16

/-- The squared norms of the rows. -/
private def norms (a0 : FVec Ideal S16x512x16 .f32) : FVec Ideal S8192 .f32 :=
  Host.reduceAdd (mulf (rows a0) (rows a0)) (constant S_ .f32 0x00000000#32) reducesTo_S8192x16_S8192_d1 h_S_

/-- The inner products of the rows: the rows times their transpose. -/
private def gram (a0 : FVec Ideal S16x512x16 .f32) : FVec Ideal S8192x8192 .f32 :=
  Host.dotGeneral dot_S8192x16_S16x8192_S8192x8192_1_0_0_1_n_n none (rows a0)
    (transpose S16x8192 [1, 0] (rows a0) transposes_S8192x16_S16x8192_1_0)

/-- The squared distances from the norms and the inner products, clamped at zero. -/
private def clamped (a0 : FVec Ideal S16x512x16 .f32) : FVec Ideal S8192x8192 .f32 :=
  maximumf
    (subf
      (addf
        (broadcastInDim S8192x8192 ![0, 1] bcast_S8192x1_S8192x8192_0_1 (broadcastInDim S8192x1 ![0] bcast_S8192_S8192x1_0 (norms a0)))
        (broadcastInDim S8192x8192 ![0, 1] bcast_S1x8192_S8192x8192_0_1 (broadcastInDim S1x8192 ![1] bcast_S8192_S1x8192_1 (norms a0))))
      (mulf (broadcastInDim S8192x8192 ![] bcast_S_S8192x8192 (constant S_ .f32 0x40000000#32)) (gram a0)))
    (broadcastInDim S8192x8192 ![] bcast_S_S8192x8192 (constant S_ .f32 0x00000000#32))

/-- Row `r`, coordinate `k`: point `r` of the embeddings (sequence `r / 512`, position `r % 512`). -/
private theorem rows_apply (a0 : FVec Ideal S16x512x16 .f32) (r : Fin 8192) (k : Fin 16) :
    rows a0 (ix2 r k) = Cert.Spec.embOf a0 r k := by
  unfold rows Cert.Spec.embOf
  refine shapeCast_apply a0 _ (ix2 r k) _ ?_
  rw [Shape.rowMajor_val_three, Shape.rowMajor_val_two]
  show (r.val / 512 * 512 + r.val % 512) * 16 + k.val = r.val * 16 + k.val
  omega

/-- The squared norm of row `r`, when the embeddings are real. -/
private theorem norms_apply (a0 : FVec Ideal S16x512x16 .f32) (x : Fin 8192 → Fin 16 → ℝ)
    (hx : ∀ r k, Cert.Spec.embOf a0 r k = ((x r k : ℝ) : EReal)) (r : Fin 8192) :
    norms a0 (ix1 r) = ((Cert.Spec.sqn x r : ℝ) : EReal) := by
  have hred : S8192x16.Reduces [1] S8192 := by decide
  have hl : ∀ k : Fin 16, hred.lift (ix1 r) k = ix2 r k := fun k =>
    funext fun a => Fin.ext (by
      match a with
      | ⟨0, _⟩ => rfl
      | ⟨1, _⟩ => rfl)
  unfold norms Host.reduceAdd
  refine (Ideal.hostReduceAdd_single reducesTo_S8192x16_S8192_d1 hred _ _ (ix1 r)).trans ?_
  show Ideal.ofBits .f32 0x00000000#32 + ∑ k : Fin 16, mulf (rows a0) (rows a0) (hred.lift (ix1 r) k) = _
  rw [Ideal.ofBits_zero_f32, zero_add]
  unfold Cert.Spec.sqn
  rw [Cert.Math.coe_sum]
  refine Finset.sum_congr rfl fun k _ => ?_
  rw [hl k, mulf_apply, rows_apply, hx, EReal.coe_mul]

/-- The inner product of rows `r` and `s`, when the embeddings are real. -/
private theorem gram_apply (a0 : FVec Ideal S16x512x16 .f32) (x : Fin 8192 → Fin 16 → ℝ)
    (hx : ∀ r k, Cert.Spec.embOf a0 r k = ((x r k : ℝ) : EReal)) (r s : Fin 8192) :
    gram a0 (ix2 r s) = ((Cert.Spec.dotp x r s : ℝ) : EReal) := by
  unfold gram
  refine (Cert.LibRowOps.dotGeneral_plain_apply _ rfl none _ _ r s).trans ?_
  unfold Cert.Spec.dotp
  rw [Cert.Math.coe_sum]
  refine Finset.sum_congr rfl fun k _ => ?_
  rw [transpose_ix2_apply, rows_apply, rows_apply, hx, hx, EReal.coe_mul]

/-- The clamped squared distance at `(r, s)`. -/
private theorem clamped_apply (a0 : FVec Ideal S16x512x16 .f32) (x : Fin 8192 → Fin 16 → ℝ)
    (hx : ∀ r k, Cert.Spec.embOf a0 r k = ((x r k : ℝ) : EReal)) (r s : Fin 8192) :
    clamped a0 (ix2 r s)
      = ((max (Cert.Spec.sqn x r + Cert.Spec.sqn x s - 2 * Cert.Spec.dotp x r s) 0 : ℝ) : EReal) := by
  have hrow : broadcastInDim S8192x8192 ![0, 1] bcast_S8192x1_S8192x8192_0_1
      (broadcastInDim S8192x1 ![0] bcast_S8192_S8192x1_0 (norms a0)) (ix2 r s) = norms a0 (ix1 r) :=
    (broadcastInDim_apply _ _ _ (ix2 r s) (ix2 r (0 : Fin 1)) fun a => by
      match a with
      | ⟨0, _⟩ => rfl
      | ⟨1, _⟩ => rfl).trans
    (broadcastInDim_apply _ _ _ (ix2 r (0 : Fin 1)) (ix1 r) fun a => by
      match a with
      | ⟨0, _⟩ => rfl)
  have hcol : broadcastInDim S8192x8192 ![0, 1] bcast_S1x8192_S8192x8192_0_1
      (broadcastInDim S1x8192 ![1] bcast_S8192_S1x8192_1 (norms a0)) (ix2 r s) = norms a0 (ix1 s) :=
    (broadcastInDim_apply _ _ _ (ix2 r s) (ix2 (0 : Fin 1) s) fun a => by
      match a with
      | ⟨0, _⟩ => rfl
      | ⟨1, _⟩ => rfl).trans
    (broadcastInDim_apply _ _ _ (ix2 (0 : Fin 1) s) (ix1 s) fun a => by
      match a with
      | ⟨0, _⟩ => rfl)
  unfold clamped
  show max (broadcastInDim S8192x8192 ![0, 1] bcast_S8192x1_S8192x8192_0_1
          (broadcastInDim S8192x1 ![0] bcast_S8192_S8192x1_0 (norms a0)) (ix2 r s)
        + broadcastInDim S8192x8192 ![0, 1] bcast_S1x8192_S8192x8192_0_1
          (broadcastInDim S1x8192 ![1] bcast_S8192_S1x8192_1 (norms a0)) (ix2 r s)
        - Ideal.ofBits .f32 0x40000000#32 * gram a0 (ix2 r s))
      (Ideal.ofBits .f32 0x00000000#32) = _
  rw [hrow, hcol, norms_apply a0 x hx, norms_apply a0 x hx, gram_apply a0 x hx, ofBits_two_f32, Ideal.ofBits_zero_f32,
    ← EReal.coe_add, ← EReal.coe_mul, ← EReal.coe_sub]
  exact max_coe_zero _

theorem refDist_apply (a0 : FVec Ideal S16x512x16 .f32) (x : Fin 8192 → Fin 16 → ℝ)
    (hx : ∀ r k, Cert.Spec.embOf a0 r k = ((x r k : ℝ) : EReal)) (r s : Fin 8192) :
    refDist (F := Ideal) a0 (ix2 r s) = ((Cert.Spec.dist x r s : ℝ) : EReal) := by
  unfold refDist
  show Scalar.select (Ideal.cmp .ogt (clamped a0 (ix2 r s)) (Ideal.ofBits .f32 0x00000000#32))
      (Ideal.sqrt (Scalar.select (Ideal.cmp .ogt (clamped a0 (ix2 r s)) (Ideal.ofBits .f32 0x00000000#32))
        (clamped a0 (ix2 r s)) (Ideal.ofBits .f32 0x3F800000#32)))
      (Ideal.ofBits .f32 0x00000000#32) = _
  rw [clamped_apply a0 x hx, Ideal.ofBits_zero_f32]
  unfold Cert.Spec.dist
  exact guarded_root _ (Cert.Math.d2_nonneg x r s) _

end Cert.ReferenceIdeal.HandValue

end
-- ==== Proof.RVClose.lean ====
/-
  The reference's closing arithmetic: the three sums over all ordered pairs — of the distance, of the distance times
  the indicator, of the indicator — and the loss from them; and the reference program's result as the loss of the
  specification.
-/
import proofs.«429911_j70497593196919_3_alg».proof.Proof.RVSame
import proofs.«429911_j70497593196919_3_alg».proof.Proof.RVDist
import proofs.«429911_j70497593196919_3_alg».proof.Proof.Math

set_option maxRecDepth 16384

noncomputable section

namespace Cert.ReferenceIdeal.HandValue

open Cert.ReferenceIdeal Cert.ReferenceIdeal.Hand
open Idealize.ShloMosaic Idealize.SL.Sem
open Idealize.ShloMosaic.ValueIdx

variable [Cert.ReferenceIdeal.Facts]

/-- A host sum over both axes of an 8192 × 8192 array of finite entries, from the zero word: the coercion of the real
    double sum of the entries. The sum is never enumerated. -/
private theorem sumAll {axes : List (Fin S8192x8192.rank)} (h' : S8192x8192.ReducesTo axes S_) (hu : 0 < S_.numel)
    (X : FVec Ideal S8192x8192 .f32) (Xr : Fin 8192 → Fin 8192 → ℝ)
    (hX : ∀ r s, X (ix2 r s) = ((Xr r s : ℝ) : EReal)) (j : S_.Idx) :
    Host.reduceAdd (F := Ideal) X (constant S_ .f32 0x00000000#32) h' hu j
      = ((∑ r : Fin 8192, ∑ s : Fin 8192, Xr r s : ℝ) : EReal) := by
  refine (Ideal.hostReduceAdd_total h' (fun b => b.elim0) X _ j).trans ?_
  rw [constant_apply, Ideal.ofBits_zero_f32, zero_add, sum_idx2, Cert.Math.coe_sum]
  refine Finset.sum_congr rfl fun r _ => ?_
  rw [Cert.Math.coe_sum]
  exact Finset.sum_congr rfl fun s _ => hX r s

theorem refClose_eq (D S : FVec Ideal S8192x8192 .f32) (Dr Sr : Fin 8192 → Fin 8192 → ℝ)
    (hD : ∀ r s, D (ix2 r s) = ((Dr r s : ℝ) : EReal)) (hS : ∀ r s, S (ix2 r s) = ((Sr r s : ℝ) : EReal)) :
    (refClose (F := Ideal) D S : S_.Idx → EReal)
      = fun _ => Cert.Spec.closing ((∑ r : Fin 8192, ∑ s : Fin 8192, Dr r s : ℝ) : EReal)
          ((∑ r : Fin 8192, ∑ s : Fin 8192, Dr r s * Sr r s : ℝ) : EReal) ((∑ r : Fin 8192, ∑ s : Fin 8192, Sr r s : ℝ) : EReal) := by
  funext j
  -- every operation of the closing acts on the one scalar index, so the program's closing is the specification's
  -- expression in the three host sums
  have e : refClose (F := Ideal) D S j
      = Cert.Spec.closing
          (Host.reduceAdd (F := Ideal) D (constant S_ .f32 0x00000000#32) Facts₀.reducesTo_S8192x8192_S_d0_1 Facts₀.h_S_ j)
          (Host.reduceAdd (F := Ideal) (mulf D S) (constant S_ .f32 0x00000000#32) Facts₀.reducesTo_S8192x8192_S_d0_1 Facts₀.h_S_ j)
          (Host.reduceAdd (F := Ideal) S (constant S_ .f32 0x00000000#32) Facts₀.reducesTo_S8192x8192_S_d0_1 Facts₀.h_S_ j) := rfl
  have hDS : ∀ r s, mulf D S (ix2 r s) = ((Dr r s * Sr r s : ℝ) : EReal) := fun r s => by
    rw [mulf_apply, hD, hS, EReal.coe_mul]
  rw [e, sumAll _ _ D Dr hD j, sumAll _ _ (mulf D S) (fun r s => Dr r s * Sr r s) hDS j, sumAll _ _ S Sr hS j]

/-- The reference program's result on decoded inputs: the loss of the specification, at the table `famR`. -/
theorem ref_value (a0 : FVec Ideal S16x512x16 .f32) (a1 : IVec S16x512 32) (d : Cert.Spec.Decoded a0 a1) :
    (refTerm (F := Ideal) a0 a1 : S_.Idx → EReal) = fun _ => Cert.Spec.loss famR d := by
  unfold refTerm Cert.Spec.loss Cert.Spec.sumDist Cert.Spec.sumDistSame Cert.Spec.sumSame
  exact refClose_eq (refDist a0) (refSame a1) (fun r s => Cert.Spec.dist d.x r s) (fun r s => famR (d.ix r) (d.ix s))
    (refDist_apply a0 d.x d.hx) (refSame_apply a1 d.ix d.hix)

end Cert.ReferenceIdeal.HandValue

end
-- ==== Proof.PreDecode.lean ====
/-
  The precondition read back: when the printed predicate holds of the two argument arrays, every embedding entry is
  a real number and every index word is the numeral of an index below 64.
-/
import proofs.«429911_j70497593196919_3_alg».proof.Pre_finite_inputs
import proofs.«429911_j70497593196919_3_alg».proof.Proof.Gen.Pre_finite_inputs
import proofs.«429911_j70497593196919_3_alg».proof.Proof.Spec
import Idealize.ShloMosaic.Lib.ReduceAll
import Idealize.ShloMosaic.Lib.StableHlo.Predicate

noncomputable section

namespace Cert.PreDecode

open Idealize.ShloMosaic

/-- The scalar shape has one index. -/
private instance : Subsingleton Cert.Pre_finite_inputs.S_.Idx := ⟨fun a b => funext fun d => d.elim0⟩

/-- The f32 word 0x7F800000 denotes +∞. -/
private theorem inf_word : Ideal.ofBits .f32 0x7F800000#32 = (⊤ : EReal) := by
  simp [Ideal.ofBits, Ideal.ieee]

/-- An extended real whose absolute value max x (-x) lies strictly below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- A 32-bit word with signed value in [0, 64) is the numeral of its unsigned value, which is below 64. -/
private theorem word_of_range (w : BitVec 32) (h0 : 0 ≤ w.toInt) (h1 : w.toInt < 64) :
    w.toNat < 64 ∧ w = BitVec.ofNat 32 w.toNat := by
  refine ⟨?_, by simp⟩
  rw [BitVec.toInt_eq_toNat_cond] at h0 h1
  split at h0 <;> omega

/-- The predicate says: |entry| < +∞ for every embedding entry, and 0 ≤ index < 64 (signed) for every index word. So the
    inputs decode: real coordinates and indices in range. -/
theorem decoded [Cert.Pre_finite_inputs.Facts] (a0 : FVec Ideal Cert.Spec.S16x512x16 .f32) (a1 : IVec Cert.Spec.S16x512 32)
    (h : Cert.Pre_finite_inputs.fn (F := Ideal) a0 a1 = fun _ => 1#1) : Nonempty (Cert.Spec.Decoded a0 a1) := by
  have h0 := congrFun h ValueIdx.ix0
  dsimp only [Cert.Pre_finite_inputs.fn] at h0
  obtain ⟨hA, hB⟩ := IntOp.andi_eq_one.1 h0
  have hA' := Host.reduce_andi_all _ _ _ _ _ hA
  have hB' := Host.reduce_andi_all _ _ _ _ _ hB
  -- every embedding entry is a real: its absolute value is strictly below +∞
  have hfin : ∀ i : Cert.Spec.S16x512x16.Idx, ∃ y : ℝ, a0 i = (y : EReal) := by
    intro i
    have e := hA' i
    change Ideal.cmp .olt (max (a0 i) (-(a0 i))) (Ideal.ofBits .f32 0x7F800000#32) = 1#1 at e
    rw [inf_word] at e
    simp only [Ideal.cmp, StableHlo.Predicate.ofBool_eq_one_iff, decide_eq_true_eq] at e
    exact real_of_abs_lt_top _ e
  -- every index word has signed value in [0, 64)
  have hidx : ∀ i : Cert.Spec.S16x512.Idx, (a1 i).toNat < 64 ∧ a1 i = BitVec.ofNat 32 (a1 i).toNat := by
    intro i
    have e := hB' i
    change IntOp.andi (IntOp.cmpi .sge (a1 i) 0#32) (IntOp.cmpi .slt (a1 i) 64#32) = 1#1 at e
    obtain ⟨e0, e1⟩ := IntOp.andi_eq_one.1 e
    simp only [IntOp.cmpi, StableHlo.Predicate.ofBool_eq_one_iff, BitVec.sle, BitVec.slt, decide_eq_true_eq] at e0 e1
    have z : (0#32 : BitVec 32).toInt = 0 := by decide
    have s : (64#32 : BitVec 32).toInt = 64 := by decide
    exact word_of_range _ (by omega) (by omega)
  have hx : ∀ r k, Cert.Spec.embOf a0 r k = (((Cert.Spec.embOf a0 r k).toReal : ℝ) : EReal) := by
    intro r k
    obtain ⟨y, hy⟩ : ∃ y : ℝ, Cert.Spec.embOf a0 r k = (y : EReal) := hfin _
    rw [hy, EReal.toReal_coe]
  exact ⟨{ x := fun r k => (Cert.Spec.embOf a0 r k).toReal
           ix := fun r => ⟨(Cert.Spec.idxOf a1 r).toNat, (hidx _).1⟩
           hx := hx
           hix := fun r => (hidx _).2 }⟩

end Cert.PreDecode

end
-- ==== Proof.Claims.lean ====
/-
  The five claims, assembled.

  The three frames: each program runs to the end, faults nowhere and leaves its two argument arrays as they were
  — the kernel program by its launch (at both readings of the floats), the reference by its run.

  The equivalence over the extended reals: under the precondition the inputs decode to real coordinates and indices
  below 64. The kernel program's result is then the loss of the specification at its own printed table (the region's
  two results are the per-row-block sums of distances and of distances times the same-family indicator; the host
  operations after it add them up, count the same-family pairs from the one-hot column sums, and close), and the
  reference program's result is the loss at ITS printed table (pairwise distances, the table looked up at the two
  indices, three sums over all pairs, the same closing). The two printed tables are word for word the same.
-/
import proofs.«429911_j70497593196919_3_alg».proof.Defs
import proofs.«429911_j70497593196919_3_alg».proof.Proof.WLaunch
import proofs.«429911_j70497593196919_3_alg».proof.Proof.KLaunch
import proofs.«429911_j70497593196919_3_alg».proof.Proof.KVTail
import proofs.«429911_j70497593196919_3_alg».proof.Proof.RRun
import proofs.«429911_j70497593196919_3_alg».proof.Proof.RVClose
import proofs.«429911_j70497593196919_3_alg».proof.Proof.PreDecode

set_option maxRecDepth 16384

noncomputable section

namespace Cert.Proof.Claims

open Idealize.ShloMosaic Idealize.ShloMosaic.TcCoe Idealize.SL.Sem

/-- The two programs print the same 4096 words for the same-family table. -/
theorem tables_eq : ∀ i : Fin 4096, Cert.KernelIdeal.lit0 i = Cert.ReferenceIdeal.lit0 i := by decide +kernel

/-- So the two tables, as real numbers, are one. -/
theorem fam_eq : Cert.KernelIdeal.HandValue.famK = Cert.ReferenceIdeal.HandValue.famR := by
  funext a b
  unfold Cert.KernelIdeal.HandValue.famK Cert.ReferenceIdeal.HandValue.famR
  rw [tables_eq]

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Hand.run (F := Ideal) m ρ)

theorem algebraic : Cert.algebraic_KernelIdeal_ReferenceIdeal := by
  intro m ρ m' ρ' hpre hagree
  have hd : ∀ c : Dev Cert.KernelIdeal.nD, Nonempty (Cert.Spec.Decoded
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) :=
    fun c => Cert.PreDecode.decoded _ _ (hpre c)
  refine ⟨fun c => fun _ => Cert.Spec.loss Cert.KernelIdeal.HandValue.famK (Classical.choice (hd c)), ?_, ?_⟩
  · refine (θ_run Cert.KernelIdeal.defs _ _).mono (fun r h c => ?_) (Cert.KernelIdeal.Hand.run_main (F := Ideal) m ρ)
    obtain ⟨W, h7, h8, hW, hmem⟩ := h c
    refine ⟨?_, ?_, ?_⟩
    · rw [hmem Cert.KernelIdeal.main_v29 rfl]
      exact Cert.KernelIdeal.HandValue.kernel_value m c (Classical.choice (hd c)) W h7 h8 hW
    · rw [hmem Cert.KernelIdeal.main_arg0 rfl, Cert.KernelIdeal.Hand.post_arg0,
        hW Cert.KernelIdeal.main_arg0 (by decide) (by decide), Cert.KernelIdeal.Hand.V_arg0]
    · rw [hmem Cert.KernelIdeal.main_arg1 rfl, Cert.KernelIdeal.Hand.post_arg1,
        hW Cert.KernelIdeal.main_arg1 (by decide) (by decide), Cert.KernelIdeal.Hand.V_arg1]
  · refine (θ_run Cert.ReferenceIdeal.defs _ _).mono (fun r h c => ⟨?_, (h c).2.1, (h c).2.2⟩)
      (Cert.ReferenceIdeal.Hand.run (F := Ideal) m' ρ')
    rw [(h c).1, (hagree c).1, (hagree c).2, fam_eq]
    exact Cert.ReferenceIdeal.HandValue.ref_value _ _ (Classical.choice (hd c))

end Cert.Proof.Claims

end
-- ==== Proof.lean ====
/-
  The certificate of the pairwise-distance loss kernel against its reference: the witnesses of the programs' stated
  side conditions, then the five claims (three frames, the idealization's ledger — empty —, and the equivalence over
  the extended reals), each proved in Proof/Claims.lean.
-/
import proofs.«429911_j70497593196919_3_alg».proof.Defs
import proofs.«429911_j70497593196919_3_alg».proof.Proof.Gen.Kernel
import proofs.«429911_j70497593196919_3_alg».proof.Proof.Gen.KernelIdeal
import proofs.«429911_j70497593196919_3_alg».proof.Proof.Gen.ReferenceIdeal
import proofs.«429911_j70497593196919_3_alg».proof.Proof.Gen.Pre_finite_inputs
import proofs.«429911_j70497593196919_3_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
